-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x160x1024 : Shape := ⟨3, ![16, 160, 1024]⟩
abbrev S16x1024 : Shape := ⟨2, ![16, 1024]⟩
abbrev S16x160x160x8 : Shape := ⟨4, ![16, 160, 160, 8]⟩
abbrev S1024x128 : Shape := ⟨2, ![1024, 128]⟩
abbrev S128 : Shape := ⟨1, ![128]⟩
abbrev S1024x256 : Shape := ⟨2, ![1024, 256]⟩
abbrev S256 : Shape := ⟨1, ![256]⟩
abbrev S136x128 : Shape := ⟨2, ![136, 128]⟩
abbrev S_ : Shape := ⟨0, ![]⟩

class Facts : Prop where
  bcast_S_S16x160x1024 : S_.BroadcastsInDim S16x160x1024 (![] : Fin 0 → Fin S16x160x1024.rank)
  reducesTo_S16x160x1024_S_d0_1_2 : S16x160x1024.ReducesTo [0, 1, 2] S_
  h_S_ : 0 < S_.numel
  bcast_S_S16x1024 : S_.BroadcastsInDim S16x1024 (![] : Fin 0 → Fin S16x1024.rank)
  reducesTo_S16x1024_S_d0_1 : S16x1024.ReducesTo [0, 1] S_
  bcast_S_S16x160x160x8 : S_.BroadcastsInDim S16x160x160x8 (![] : Fin 0 → Fin S16x160x160x8.rank)
  reducesTo_S16x160x160x8_S_d0_1_2_3 : S16x160x160x8.ReducesTo [0, 1, 2, 3] S_
  bcast_S_S1024x128 : S_.BroadcastsInDim S1024x128 (![] : Fin 0 → Fin S1024x128.rank)
  reducesTo_S1024x128_S_d0_1 : S1024x128.ReducesTo [0, 1] S_
  bcast_S_S128 : S_.BroadcastsInDim S128 (![] : Fin 0 → Fin S128.rank)
  reducesTo_S128_S_d0 : S128.ReducesTo [0] S_
  bcast_S_S1024x256 : S_.BroadcastsInDim S1024x256 (![] : Fin 0 → Fin S1024x256.rank)
  reducesTo_S1024x256_S_d0_1 : S1024x256.ReducesTo [0, 1] S_
  bcast_S_S256 : S_.BroadcastsInDim S256 (![] : Fin 0 → Fin S256.rank)
  reducesTo_S256_S_d0 : S256.ReducesTo [0] S_
  bcast_S_S136x128 : S_.BroadcastsInDim S136x128 (![] : Fin 0 → Fin S136x128.rank)
  reducesTo_S136x128_S_d0_1 : S136x128.ReducesTo [0, 1] S_

variable [Facts]

def fn_part2 {F : FTy → Type} [FloatOps F] (main_arg7 : FVec F S136x128 .f32) (main_arg8 : FVec F S128 .f32) (main_v33 : IVec S_ 1) : IVec S_ 1 :=
  let main_v34 : FVec F S136x128 .f32 := Host.absf main_arg7
  let main_cst_12 : FVec F S_ .f32 := constant S_ .f32 0x7F800000#32
  let main_v35 : FVec F S136x128 .f32 := broadcastInDim S136x128 ![] bcast_S_S136x128 main_cst_12
  let main_v36 : IVec S136x128 1 := cmpf .olt main_v34 main_v35
  let main_c_13 : IVec S_ 1 := constantI S_ 1 1#1
  let main_v37 : IVec S_ 1 := (fun x v => Host.reduce IntOp.andi x v reducesTo_S136x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg4 : FVec F S128 .f32) (main_arg5 : FVec F S1024x256 .f32) (main_arg6 : FVec F S256 .f32) (main_arg7 : FVec F S136x128 .f32) (main_arg8 : FVec F S128 .f32) (main_v13 : IVec S_ 1) (main_v16 : IVec S1024x128 1) : IVec S_ 1 :=
  let main_c_5 : IVec S_ 1 := constantI S_ 1 1#1
  let main_v17 : IVec S_ 1 := (fun x v => Host.reduce IntOp.andi x v reducesTo_S1024x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S1024x256 .f32 := Host.absf main_arg5
  let main_cst_8 : FVec F S_ .f32 := constant S_ .f32 0x7F800000#32
  let main_v25 : FVec F S1024x256 .f32 := broadcastInDim S1024x256 ![] bcast_S_S1024x256 main_cst_8
  let main_v26 : IVec S1024x256 1 := cmpf .olt main_v24 main_v25
  let main_c_9 : IVec S_ 1 := constantI S_ 1 1#1
  let main_v27 : IVec S_ 1 := (fun x v => Host.reduce IntOp.andi x v reducesTo_S1024x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_v33

def fn {F : FTy → Type} [FloatOps F] (main_arg0 : FVec F S16x160x1024 .f32) (main_arg1 : FVec F S16x1024 .f32) (main_arg2 : FVec F S16x160x160x8 .f32) (main_arg3 : FVec F S1024x128 .f32) (main_arg4 : FVec F S128 .f32) (main_arg5 : FVec F S1024x256 .f32) (main_arg6 : FVec F S256 .f32) (main_arg7 : FVec F S136x128 .f32) (main_arg8 : FVec F S128 .f32) : IVec S_ 1 :=
  let main_v0 : FVec F S16x160x1024 .f32 := Host.absf main_arg0
  let main_cst : FVec F S_ .f32 := constant S_ .f32 0x7F800000#32
  let main_v1 : FVec F S16x160x1024 .f32 := broadcastInDim S16x160x1024 ![] bcast_S_S16x160x1024 main_cst
  let main_v2 : IVec S16x160x1024 1 := cmpf .olt main_v0 main_v1
  let main_c : IVec S_ 1 := constantI S_ 1 1#1
  let main_v3 : IVec S_ 1 := (fun x v => Host.reduce IntOp.andi x v reducesTo_S16x160x1024_S_d0_1_2 h_S_) main_v2 main_c
  let main_v4 : FVec F S16x1024 .f32 := Host.absf main_arg1
  let main_cst_0 : FVec F S_ .f32 := constant S_ .f32 0x7F800000#32
  let main_v5 : FVec F S16x1024 .f32 := broadcastInDim S16x1024 ![] bcast_S_S16x1024 main_cst_0
  let main_v6 : IVec S16x1024 1 := cmpf .olt main_v4 main_v5
  let main_c_1 : IVec S_ 1 := constantI S_ 1 1#1
  let main_v7 : IVec S_ 1 := (fun x v => Host.reduce IntOp.andi x v reducesTo_S16x1024_S_d0_1 h_S_) main_v6 main_c_1
  let main_v8 : IVec S_ 1 := andi main_v3 main_v7
  let main_v9 : FVec F S16x160x160x8 .f32 := Host.absf main_arg2
  let main_cst_2 : FVec F S_ .f32 := constant S_ .f32 0x7F800000#32
  let main_v10 : FVec F S16x160x160x8 .f32 := broadcastInDim S16x160x160x8 ![] bcast_S_S16x160x160x8 main_cst_2
  let main_v11 : IVec S16x160x160x8 1 := cmpf .olt main_v9 main_v10
  let main_c_3 : IVec S_ 1 := constantI S_ 1 1#1
  let main_v12 : IVec S_ 1 := (fun x v => Host.reduce IntOp.andi x v reducesTo_S16x160x160x8_S_d0_1_2_3 h_S_) main_v11 main_c_3
  let main_v13 : IVec S_ 1 := andi main_v8 main_v12
  let main_v14 : FVec F S1024x128 .f32 := Host.absf main_arg3
  let main_cst_4 : FVec F S_ .f32 := constant S_ .f32 0x7F800000#32
  let main_v15 : FVec F S1024x128 .f32 := broadcastInDim S1024x128 ![] bcast_S_S1024x128 main_cst_4
  let main_v16 : IVec S1024x128 1 := cmpf .olt main_v14 main_v15
  fn_part1 (F := F) main_arg4 main_arg5 main_arg6 main_arg7 main_arg8 main_v13 main_v16
-- ==== Kernel.lean ====
abbrev S16x160x1024 : Shape := ⟨3, ![16, 160, 1024]⟩
abbrev S16x1024 : Shape := ⟨2, ![16, 1024]⟩
abbrev S16x160x160x8 : Shape := ⟨4, ![16, 160, 160, 8]⟩
abbrev S1024x128 : Shape := ⟨2, ![1024, 128]⟩
abbrev S128 : Shape := ⟨1, ![128]⟩
abbrev S1024x256 : Shape := ⟨2, ![1024, 256]⟩
abbrev S256 : Shape := ⟨1, ![256]⟩
abbrev S136x128 : Shape := ⟨2, ![136, 128]⟩
abbrev S16x160x128 : Shape := ⟨3, ![16, 160, 128]⟩
abbrev S1x160x1024 : Shape := ⟨3, ![1, 160, 1024]⟩
abbrev S1x160x128 : Shape := ⟨3, ![1, 160, 128]⟩
abbrev S160x1024 : Shape := ⟨2, ![160, 1024]⟩
abbrev S160x128 : Shape := ⟨2, ![160, 128]⟩
abbrev S1x128 : Shape := ⟨2, ![1, 128]⟩
abbrev S16x256 : Shape := ⟨2, ![16, 256]⟩
abbrev S1x256 : Shape := ⟨2, ![1, 256]⟩
abbrev S16x128 : Shape := ⟨2, ![16, 128]⟩
abbrev S_ : Shape := ⟨0, ![]⟩
abbrev S16x1x128 : Shape := ⟨3, ![16, 1, 128]⟩
abbrev S128x128 : Shape := ⟨2, ![128, 128]⟩
abbrev S8x128 : Shape := ⟨2, ![8, 128]⟩
abbrev S16x160x160x128 : Shape := ⟨4, ![16, 160, 160, 128]⟩
abbrev S1x40x128 : Shape := ⟨3, ![1, 40, 128]⟩
abbrev S1x40x160x8 : Shape := ⟨4, ![1, 40, 160, 8]⟩
abbrev S1x1x128 : Shape := ⟨3, ![1, 1, 128]⟩
abbrev S1x40x160x128 : Shape := ⟨4, ![1, 40, 160, 128]⟩
abbrev S40x128 : Shape := ⟨2, ![40, 128]⟩
abbrev S40x160x8 : Shape := ⟨3, ![40, 160, 8]⟩
abbrev S40x1x128 : Shape := ⟨3, ![40, 1, 128]⟩
abbrev S40x160x128 : Shape := ⟨3, ![40, 160, 128]⟩
abbrev S6400x128 : Shape := ⟨2, ![6400, 128]⟩
abbrev S6400x8 : Shape := ⟨2, ![6400, 8]⟩
abbrev S6400 : Shape := ⟨1, ![6400]⟩
abbrev S6400x1 : Shape := ⟨2, ![6400, 1]⟩
abbrev S409600x128 : Shape := ⟨2, ![409600, 128]⟩

abbrev nBuf : Space → Nat
  | .hbm => 25
  | .vmem => 21
  | .smem => 0
  | _ => 0

abbrev bufTy : (tb : Table) → Fin (tcTables nBuf tb) → BufTy
  | .hbm, ⟨0, _⟩ => ⟨S16x160x1024, .f32⟩
  | .hbm, ⟨1, _⟩ => ⟨S16x1024, .f32⟩
  | .hbm, ⟨2, _⟩ => ⟨S16x160x160x8, .f32⟩
  | .hbm, ⟨3, _⟩ => ⟨S1024x128, .f32⟩
  | .hbm, ⟨4, _⟩ => ⟨S128, .f32⟩
  | .hbm, ⟨5, _⟩ => ⟨S1024x256, .f32⟩
  | .hbm, ⟨6, _⟩ => ⟨S256, .f32⟩
  | .hbm, ⟨7, _⟩ => ⟨S136x128, .f32⟩
  | .hbm, ⟨8, _⟩ => ⟨S128, .f32⟩
  | .hbm, ⟨9, _⟩ => ⟨S16x160x128, .f32⟩
  | .hbm, ⟨10, _⟩ => ⟨S16x256, .f32⟩
  | .hbm, ⟨11, _⟩ => ⟨S1x256, .f32⟩
  | .hbm, ⟨12, _⟩ => ⟨S16x256, .f32⟩
  | .hbm, ⟨13, _⟩ => ⟨S16x256, .f32⟩
  | .hbm, ⟨14, _⟩ => ⟨S16x128, .f32⟩
  | .hbm, ⟨15, _⟩ => ⟨S_, .f32⟩
  | .hbm, ⟨16, _⟩ => ⟨S16x128, .f32⟩
  | .hbm, ⟨17, _⟩ => ⟨S16x128, .f32⟩
  | .hbm, ⟨18, _⟩ => ⟨S16x128, .f32⟩
  | .hbm, ⟨19, _⟩ => ⟨S16x1x128, .f32⟩
  | .hbm, ⟨20, _⟩ => ⟨S16x1x128, .f32⟩
  | .hbm, ⟨21, _⟩ => ⟨S128x128, .f32⟩
  | .hbm, ⟨22, _⟩ => ⟨S8x128, .f32⟩
  | .hbm, ⟨23, _⟩ => ⟨S16x160x160x128, .f32⟩
  | .hbm, ⟨24, _⟩ => ⟨S409600x128, .f32⟩
  | .local _ .vmem, ⟨0, _⟩ => ⟨S1x160x1024, .f32⟩
  | .local _ .vmem, ⟨1, _⟩ => ⟨S1x160x1024, .f32⟩
  | .local _ .vmem, ⟨2, _⟩ => ⟨S1024x128, .f32⟩
  | .local _ .vmem, ⟨3, _⟩ => ⟨S128, .f32⟩
  | .local _ .vmem, ⟨4, _⟩ => ⟨S1x160x128, .f32⟩
  | .local _ .vmem, ⟨5, _⟩ => ⟨S1x160x128, .f32⟩
  | .local _ .vmem, ⟨6, _⟩ => ⟨S1x40x128, .f32⟩
  | .local _ .vmem, ⟨7, _⟩ => ⟨S1x40x128, .f32⟩
  | .local _ .vmem, ⟨8, _⟩ => ⟨S1x160x128, .f32⟩
  | .local _ .vmem, ⟨9, _⟩ => ⟨S1x160x128, .f32⟩
  | .local _ .vmem, ⟨10, _⟩ => ⟨S1x40x160x8, .f32⟩
  | .local _ .vmem, ⟨11, _⟩ => ⟨S1x40x160x8, .f32⟩
  | .local _ .vmem, ⟨12, _⟩ => ⟨S128x128, .f32⟩
  | .local _ .vmem, ⟨13, _⟩ => ⟨S8x128, .f32⟩
  | .local _ .vmem, ⟨14, _⟩ => ⟨S128, .f32⟩
  | .local _ .vmem, ⟨15, _⟩ => ⟨S1x1x128, .f32⟩
  | .local _ .vmem, ⟨16, _⟩ => ⟨S1x1x128, .f32⟩
  | .local _ .vmem, ⟨17, _⟩ => ⟨S1x1x128, .f32⟩
  | .local _ .vmem, ⟨18, _⟩ => ⟨S1x1x128, .f32⟩
  | .local _ .vmem, ⟨19, _⟩ => ⟨S1x40x160x128, .f32⟩
  | .local _ .vmem, ⟨20, _⟩ => ⟨S1x40x160x128, .f32⟩
  | _, _ => ⟨S16x160x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg6_1 : Ref sig .tc := ⟨.vmem, 16, rfl⟩
abbrev cc1_stg7_0 : Ref sig .tc := ⟨.vmem, 17, rfl⟩
abbrev cc1_stg7_1 : Ref sig .tc := ⟨.vmem, 18, rfl⟩
abbrev cc1_stg8_0 : Ref sig .tc := ⟨.vmem, 19, rfl⟩
abbrev cc1_stg8_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem6_1 : DmaSem sig := 16
abbrev cc1_sem7_0 : DmaSem sig := 17
abbrev cc1_sem7_1 : DmaSem sig := 18
abbrev cc1_sem8_0 : DmaSem sig := 19
abbrev cc1_sem8_1 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x160x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x160x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![16, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_8 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x40x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x160x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x40x160x8 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S8x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S1x1x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S1x1x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev stage1_8 : Fin 2 → Memref sig .tc .vmem S1x40x160x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

class Facts₀ : Prop where
  inb_S1x160x1024_S1x160x1024_0_0_0 : ∀ a, (![0, 0, 0] : Fin 3 → Nat) a + S1x160x1024.size a ≤ S1x160x1024.size a
  h_S1x160x1024 : 0 < S1x160x1024.numel
  shapeCasts_S1x160x1024_S160x1024 : S1x160x1024.ShapeCasts S160x1024
  inb_S1024x128_S1024x128_0_0 : ∀ a, (![0, 0] : Fin 2 → Nat) a + S1024x128.size a ≤ S1024x128.size a
  h_S1024x128 : 0 < S1024x128.numel
  inb_S128_S128_0 : ∀ a, (![0] : Fin 1 → Nat) a + S128.size a ≤ S128.size a
  h_S128 : 0 < S128.numel
  bitsLt_bf16_f32 : FTy.bits .bf16 < FTy.bits .f32
  shapeCasts_S128_S1x128 : S128.ShapeCasts S1x128
  broadcasts_S1x128_S160x128 : S1x128.Broadcasts S160x128
  inb_S1x160x128_S1x160x128_0_0_0 : ∀ a, (![0, 0, 0] : Fin 3 → Nat) a + S1x160x128.size a ≤ S1x160x128.size a
  h_S1x160x128 : 0 < S1x160x128.numel
  shapeCasts_S1x160x128_S160x128 : S1x160x128.ShapeCasts S160x128
  shapeCasts_S160x128_S1x160x128 : S160x128.ShapeCasts S1x160x128
  bcast_S256_S1x256_1 : S256.BroadcastsInDim S1x256 (![1] : Fin 1 → Fin S1x256.rank)
  bcast_S1x256_S16x256_0_1 : S1x256.BroadcastsInDim S16x256 (![0, 1] : Fin 2 → Fin S16x256.rank)
  slices_S16x256_S16x128_0_0 : S16x256.Slices ![0, 0] S16x128
  bcast_S_S16x128 : S_.BroadcastsInDim S16x128 (![] : Fin 0 → Fin S16x128.rank)
  slices_S16x256_S16x128_0_128 : S16x256.Slices ![0, 128] S16x128
  bcast_S16x128_S16x1x128_0_2 : S16x128.BroadcastsInDim S16x1x128 (![0, 2] : Fin 2 → Fin S16x1x128.rank)
  slices_S136x128_S128x128_0_0 : S136x128.Slices ![0, 0] S128x128
  slices_S136x128_S8x128_128_0 : S136x128.Slices ![128, 0] S8x128
  inb_S1x40x128_S1x40x128_0_0_0 : ∀ a, (![0, 0, 0] : Fin 3 → Nat) a + S1x40x128.size a ≤ S1x40x128.size a
  h_S1x40x128 : 0 < S1x40x128.numel
  shapeCasts_S1x40x128_S40x128 : S1x40x128.ShapeCasts S40x128
  inb_S1x40x160x8_S1x40x160x8_0_0_0_0 : ∀ a, (![0, 0, 0, 0] : Fin 4 → Nat) a + S1x40x160x8.size a ≤ S1x40x160x8.size a
  h_S1x40x160x8 : 0 < S1x40x160x8.numel
  shapeCasts_S1x40x160x8_S40x160x8 : S1x40x160x8.ShapeCasts S40x160x8
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S40x128_S40x1x128 : S40x128.ShapeCasts S40x1x128
  broadcasts_S40x1x128_S40x160x128 : S40x1x128.Broadcasts S40x160x128
  broadcasts_S1x160x128_S40x160x128 : S1x160x128.Broadcasts S40x160x128
  shapeCasts_S40x160x128_S6400x128 : S40x160x128.ShapeCasts S6400x128
  shapeCasts_S40x160x8_S6400x8 : S40x160x8.ShapeCasts S6400x8
  broadcasts_S1x128_S6400x128 : S1x128.Broadcasts S6400x128
  reduces_S6400x128_S6400 : S6400x128.Reduces [1] S6400
  shapeCasts_S6400_S6400x1 : S6400.ShapeCasts S6400x1
  broadcasts_S6400x1_S6400x128 : S6400x1.Broadcasts S6400x128
  shapeCasts_S6400x128_S40x160x128 : S6400x128.ShapeCasts S40x160x128
  inb_S1x40x160x128_S1x40x160x128_0_0_0_0 : ∀ a, (![0, 0, 0, 0] : Fin 4 → Nat) a + S1x40x160x128.size a ≤ S1x40x160x128.size a
  h_S1x40x160x128 : 0 < S1x40x160x128.numel
  shapeCasts_S1x40x160x128_S40x160x128 : S1x40x160x128.ShapeCasts S40x160x128
  shapeCasts_S40x160x128_S1x40x160x128 : S40x160x128.ShapeCasts S1x40x160x128
  shapeCasts_S16x160x160x128_S409600x128 : S16x160x160x128.ShapeCasts S409600x128
  dot_S160x1024_S1024x128_S160x128_1_0_0_1_n_n_wf : DotDims.WF S160x1024 S1024x128 S160x128 [1] [0] [0] [1] [] []
  dot_S16x1024_S1024x256_S16x256_1_0_0_1_n_n_wf : DotDims.WF S16x1024 S1024x256 S16x256 [1] [0] [0] [1] [] []
  dot_S6400x128_S128x128_S6400x128_1_0_0_1_n_n_wf : DotDims.WF S6400x128 S128x128 S6400x128 [1] [0] [0] [1] [] []
  dot_S6400x8_S8x128_S6400x128_1_0_0_1_n_n_wf : DotDims.WF S6400x8 S8x128 S6400x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x160x1024.size a ≤ S16x160x1024.size a
  hwx0_0 : ∀ i : grid0.Coords, EltTy.bits .f32 = 32 ∨ (Rect.block (s := S16x160x1024) S1x160x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S1024x128.size a
  hwx0_1 : ∀ i : grid0.Coords, EltTy.bits .f32 = 32 ∨ (Rect.block (s := S1024x128) S1024x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x160x128.size a ≤ S16x160x128.size a
  hwx0_3 : ∀ i : grid0.Coords, EltTy.bits .f32 = 32 ∨ (Rect.block (s := S16x160x128) S1x160x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x40x128.size a ≤ S16x160x128.size a
  hwx1_0 : ∀ i : grid1.Coords, EltTy.bits .f32 = 32 ∨ (Rect.block (s := S16x160x128) S1x40x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x160x128.size a ≤ S16x160x128.size a
  hwx1_1 : ∀ i : grid1.Coords, EltTy.bits .f32 = 32 ∨ (Rect.block (s := S16x160x128) S1x160x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x40x160x8.size a ≤ S16x160x160x8.size a
  hwx1_2 : ∀ i : grid1.Coords, EltTy.bits .f32 = 32 ∨ (Rect.block (s := S16x160x160x8) S1x40x160x8.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S8x128.size a ≤ S8x128.size a
  hwx1_4 : ∀ i : grid1.Coords, EltTy.bits .f32 = 32 ∨ (Rect.block (s := S8x128) S8x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x1x128.size a ≤ S16x1x128.size a
  hwx1_6 : ∀ i : grid1.Coords, EltTy.bits .f32 = 32 ∨ (Rect.block (s := S16x1x128) S1x1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x1x128.size a ≤ S16x1x128.size a
  hwx1_7 : ∀ i : grid1.Coords, EltTy.bits .f32 = 32 ∨ (Rect.block (s := S16x1x128) S1x1x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1x40x160x128.size a ≤ S16x160x160x128.size a
  hwx1_8 : ∀ i : grid1.Coords, EltTy.bits .f32 = 32 ∨ (Rect.block (s := S16x160x160x128) S1x40x160x128.size (cc1_transform_8 i) (hinb1_8 i)).WholeWords (EltTy.packing .f32)

variable [Facts₀]

def dot_S160x1024_S1024x128_S160x128_1_0_0_1_n_n : DotDims S160x1024 S1024x128 S160x128 where
  lhsContracting := [1]
  rhsContracting := [0]
  lhsNonContracting := [0]
  rhsNonContracting := [1]
  lhsBatch := []
  rhsBatch := []
  wf := dot_S160x1024_S1024x128_S160x128_1_0_0_1_n_n_wf
def dot_S16x1024_S1024x256_S16x256_1_0_0_1_n_n : DotDims S16x1024 S1024x256 S16x256 where
  lhsContracting := [1]
  rhsContracting := [0]
  lhsNonContracting := [0]
  rhsNonContracting := [1]
  lhsBatch := []
  rhsBatch := []
  wf := dot_S16x1024_S1024x256_S16x256_1_0_0_1_n_n_wf
def dot_S6400x128_S128x128_S6400x128_1_0_0_1_n_n : DotDims S6400x128 S128x128 S6400x128 where
  lhsContracting := [1]
  rhsContracting := [0]
  lhsNonContracting := [0]
  rhsNonContracting := [1]
  lhsBatch := []
  rhsBatch := []
  wf := dot_S6400x128_S128x128_S6400x128_1_0_0_1_n_n_wf
def dot_S6400x8_S8x128_S6400x128_1_0_0_1_n_n : DotDims S6400x8 S8x128 S6400x128 where
  lhsContracting := [1]
  rhsContracting := [0]
  lhsNonContracting := [0]
  rhsNonContracting := [1]
  lhsBatch := []
  rhsBatch := []
  wf := dot_S6400x8_S8x128_S6400x128_1_0_0_1_n_n_wf

abbrev win0_0 : Pipeline.Window sig grid0 :=
  Pipeline.Window.ofSpec (Memref.whole main_arg0) S1x160x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1024x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x160x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v0) S1x40x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1x160x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S1x40x160x8.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v11) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v12) S8x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v9) S1x1x128.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v10) S1x1x128.size cc1_transform_7 reads1_7 false false 2 stage1_7 sem1_7
    hrank1 hreads1_7 hinb1_7 nbuf1_7 (Memref.isWhole_whole _) hwx1_7 hstage1_7

abbrev win1_8 : Pipeline.Window sig grid1 :=
  Pipeline.Window.ofSpec (Memref.whole main_v13) S1x40x160x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S16x160x1024 : Shape := ⟨3, ![16, 160, 1024]⟩
abbrev S16x1024 : Shape := ⟨2, ![16, 1024]⟩
abbrev S16x160x160x8 : Shape := ⟨4, ![16, 160, 160, 8]⟩
abbrev S1024x128 : Shape := ⟨2, ![1024, 128]⟩
abbrev S128 : Shape := ⟨1, ![128]⟩
abbrev S1024x256 : Shape := ⟨2, ![1024, 256]⟩
abbrev S256 : Shape := ⟨1, ![256]⟩
abbrev S136x128 : Shape := ⟨2, ![136, 128]⟩
abbrev S16x160x128 : Shape := ⟨3, ![16, 160, 128]⟩
abbrev S1x1x128 : Shape := ⟨3, ![1, 1, 128]⟩
abbrev S_ : Shape := ⟨0, ![]⟩
abbrev S16x160x1x128 : Shape := ⟨4, ![16, 160, 1, 128]⟩
abbrev S16x1x160x128 : Shape := ⟨4, ![16, 1, 160, 128]⟩
abbrev S16x160x160x128 : Shape := ⟨4, ![16, 160, 160, 128]⟩
abbrev S16x160x160x136 : Shape := ⟨4, ![16, 160, 160, 136]⟩
abbrev S16x25600x136 : Shape := ⟨3, ![16, 25600, 136]⟩
abbrev S16x256 : Shape := ⟨2, ![16, 256]⟩
abbrev S1x256 : Shape := ⟨2, ![1, 256]⟩
abbrev S16x128 : Shape := ⟨2, ![16, 128]⟩
abbrev S16x25600x128 : Shape := ⟨3, ![16, 25600, 128]⟩
abbrev S16x25600 : Shape := ⟨2, ![16, 25600]⟩
abbrev S16x25600x1 : Shape := ⟨3, ![16, 25600, 1]⟩
abbrev S16x1x128 : Shape := ⟨3, ![16, 1, 128]⟩
abbrev S409600x128 : Shape := ⟨2, ![409600, 128]⟩

abbrev nBuf : Space → Nat
  | .hbm => 69
  | .vmem => 0
  | .smem => 0
  | _ => 0

abbrev bufTy : (tb : Table) → Fin (tcTables nBuf tb) → BufTy
  | .hbm, ⟨0, _⟩ => ⟨S16x160x1024, .f32⟩
  | .hbm, ⟨1, _⟩ => ⟨S16x1024, .f32⟩
  | .hbm, ⟨2, _⟩ => ⟨S16x160x160x8, .f32⟩
  | .hbm, ⟨3, _⟩ => ⟨S1024x128, .f32⟩
  | .hbm, ⟨4, _⟩ => ⟨S128, .f32⟩
  | .hbm, ⟨5, _⟩ => ⟨S1024x256, .f32⟩
  | .hbm, ⟨6, _⟩ => ⟨S256, .f32⟩
  | .hbm, ⟨7, _⟩ => ⟨S136x128, .f32⟩
  | .hbm, ⟨8, _⟩ => ⟨S128, .f32⟩
  | .hbm, ⟨9, _⟩ => ⟨S16x160x128, .f32⟩
  | .hbm, ⟨10, _⟩ => ⟨S1x1x128, .f32⟩
  | .hbm, ⟨11, _⟩ => ⟨S16x160x128, .f32⟩
  | .hbm, ⟨12, _⟩ => ⟨S16x160x128, .f32⟩
  | .hbm, ⟨13, _⟩ => ⟨S_, .f32⟩
  | .hbm, ⟨14, _⟩ => ⟨S16x160x128, .f32⟩
  | .hbm, ⟨15, _⟩ => ⟨S16x160x128, .f32⟩
  | .hbm, ⟨16, _⟩ => ⟨S16x160x1x128, .f32⟩
  | .hbm, ⟨17, _⟩ => ⟨S16x1x160x128, .f32⟩
  | .hbm, ⟨18, _⟩ => ⟨S16x160x160x128, .f32⟩
  | .hbm, ⟨19, _⟩ => ⟨S16x160x160x128, .f32⟩
  | .hbm, ⟨20, _⟩ => ⟨S16x160x160x128, .f32⟩
  | .hbm, ⟨21, _⟩ => ⟨S16x160x160x136, .f32⟩
  | .hbm, ⟨22, _⟩ => ⟨S16x25600x136, .f32⟩
  | .hbm, ⟨23, _⟩ => ⟨S16x256, .f32⟩
  | .hbm, ⟨24, _⟩ => ⟨S1x256, .f32⟩
  | .hbm, ⟨25, _⟩ => ⟨S16x256, .f32⟩
  | .hbm, ⟨26, _⟩ => ⟨S16x256, .f32⟩
  | .hbm, ⟨27, _⟩ => ⟨S16x128, .f32⟩
  | .hbm, ⟨28, _⟩ => ⟨S16x128, .f32⟩
  | .hbm, ⟨29, _⟩ => ⟨S_, .f32⟩
  | .hbm, ⟨30, _⟩ => ⟨S16x128, .f32⟩
  | .hbm, ⟨31, _⟩ => ⟨S16x128, .f32⟩
  | .hbm, ⟨32, _⟩ => ⟨S16x25600x128, .f32⟩
  | .hbm, ⟨33, _⟩ => ⟨S1x1x128, .f32⟩
  | .hbm, ⟨34, _⟩ => ⟨S16x25600x128, .f32⟩
  | .hbm, ⟨35, _⟩ => ⟨S16x25600x128, .f32⟩
  | .hbm, ⟨36, _⟩ => ⟨S_, .f32⟩
  | .hbm, ⟨37, _⟩ => ⟨S16x25600, .f32⟩
  | .hbm, ⟨38, _⟩ => ⟨S16x25600x1, .f32⟩
  | .hbm, ⟨39, _⟩ => ⟨S_, .f32⟩
  | .hbm, ⟨40, _⟩ => ⟨S16x25600x1, .f32⟩
  | .hbm, ⟨41, _⟩ => ⟨S16x25600x1, .f32⟩
  | .hbm, ⟨42, _⟩ => ⟨S16x25600x128, .f32⟩
  | .hbm, ⟨43, _⟩ => ⟨S16x25600x128, .f32⟩
  | .hbm, ⟨44, _⟩ => ⟨S16x25600x128, .f32⟩
  | .hbm, ⟨45, _⟩ => ⟨S_, .f32⟩
  | .hbm, ⟨46, _⟩ => ⟨S16x25600, .f32⟩
  | .hbm, ⟨47, _⟩ => ⟨S16x25600x1, .f32⟩
  | .hbm, ⟨48, _⟩ => ⟨S_, .f32⟩
  | .hbm, ⟨49, _⟩ => ⟨S16x25600x1, .f32⟩
  | .hbm, ⟨50, _⟩ => ⟨S16x25600x1, .f32⟩
  | .hbm, ⟨51, _⟩ => ⟨S16x25600x128, .f32⟩
  | .hbm, ⟨52, _⟩ => ⟨S16x25600x128, .f32⟩
  | .hbm, ⟨53, _⟩ => ⟨S_, .f32⟩
  | .hbm, ⟨54, _⟩ => ⟨S16x25600x1, .f32⟩
  | .hbm, ⟨55, _⟩ => ⟨S16x25600x1, .f32⟩
  | .hbm, ⟨56, _⟩ => ⟨S16x25600x1, .f32⟩
  | .hbm, ⟨57, _⟩ => ⟨S16x25600x128, .f32⟩
  | .hbm, ⟨58, _⟩ => ⟨S16x25600x128, .f32⟩
  | .hbm, ⟨59, _⟩ => ⟨S16x1x128, .f32⟩
  | .hbm, ⟨60, _⟩ => ⟨S16x25600x128, .f32⟩
  | .hbm, ⟨61, _⟩ => ⟨S16x25600x128, .f32⟩
  | .hbm, ⟨62, _⟩ => ⟨S16x1x128, .f32⟩
  | .hbm, ⟨63, _⟩ => ⟨S16x25600x128, .f32⟩
  | .hbm, ⟨64, _⟩ => ⟨S16x25600x128, .f32⟩
  | .hbm, ⟨65, _⟩ => ⟨S_, .f32⟩
  | .hbm, ⟨66, _⟩ => ⟨S16x25600x128, .f32⟩
  | .hbm, ⟨67, _⟩ => ⟨S16x25600x128, .f32⟩
  | .hbm, ⟨68, _⟩ => ⟨S409600x128, .f32⟩
  | _, _ => ⟨S16x160x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_cst : Ref sig .tc := ⟨.hbm, 13, rfl⟩
abbrev main_call0_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_0 : Ref sig .tc := ⟨.hbm, 36, rfl⟩
abbrev main_v24 : Ref sig .tc := ⟨.hbm, 37, rfl⟩
abbrev main_v25 : Ref sig .tc := ⟨.hbm, 38, rfl⟩
abbrev main_cst_1 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_2 : Ref sig .tc := ⟨.hbm, 45, rfl⟩
abbrev main_v31 : Ref sig .tc := ⟨.hbm, 46, rfl⟩
abbrev main_v32 : Ref sig .tc := ⟨.hbm, 47, rfl⟩
abbrev main_cst_3 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_4 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_call1_cst : Ref sig .tc := ⟨.hbm, 65, rfl⟩
abbrev main_call1_v0 : Ref sig .tc := ⟨.hbm, 66, rfl⟩
abbrev main_v48 : Ref sig .tc := ⟨.hbm, 67, rfl⟩
abbrev main_v49 : Ref sig .tc := ⟨.hbm, 68, rfl⟩

abbrev nD : Nat := 1
abbrev τ : Topo := Topo.v7x

variable {F : FTy → Type} [FloatOps F]

class Facts₀ : Prop where
  bcast_S128_S1x1x128_2 : S128.BroadcastsInDim S1x1x128 (![2] : Fin 1 → Fin S1x1x128.rank)
  bcast_S1x1x128_S16x160x128_0_1_2 : S1x1x128.BroadcastsInDim S16x160x128 (![0, 1, 2] : Fin 3 → Fin S16x160x128.rank)
  bcast_S_S16x160x128 : S_.BroadcastsInDim S16x160x128 (![] : Fin 0 → Fin S16x160x128.rank)
  bcast_S16x160x128_S16x160x1x128_0_1_3 : S16x160x128.BroadcastsInDim S16x160x1x128 (![0, 1, 3] : Fin 3 → Fin S16x160x1x128.rank)
  bcast_S16x160x128_S16x1x160x128_0_2_3 : S16x160x128.BroadcastsInDim S16x1x160x128 (![0, 2, 3] : Fin 3 → Fin S16x1x160x128.rank)
  bcast_S16x160x1x128_S16x160x160x128_0_1_2_3 : S16x160x1x128.BroadcastsInDim S16x160x160x128 (![0, 1, 2, 3] : Fin 4 → Fin S16x160x160x128.rank)
  bcast_S16x1x160x128_S16x160x160x128_0_1_2_3 : S16x1x160x128.BroadcastsInDim S16x160x160x128 (![0, 1, 2, 3] : Fin 4 → Fin S16x160x160x128.rank)
  concatenates_S16x160x160x128_S16x160x160x8_S16x160x160x136_d3 : Shape.Concatenates [S16x160x160x128, S16x160x160x8] S16x160x160x136 3
  shapeCasts_S16x160x160x136_S16x25600x136 : S16x160x160x136.ShapeCasts S16x25600x136
  bcast_S256_S1x256_1 : S256.BroadcastsInDim S1x256 (![1] : Fin 1 → Fin S1x256.rank)
  bcast_S1x256_S16x256_0_1 : S1x256.BroadcastsInDim S16x256 (![0, 1] : Fin 2 → Fin S16x256.rank)
  slices_S16x256_S16x128_0_0 : S16x256.Slices ![0, 0] S16x128
  slices_S16x256_S16x128_0_128 : S16x256.Slices ![0, 128] S16x128
  bcast_S_S16x128 : S_.BroadcastsInDim S16x128 (![] : Fin 0 → Fin S16x128.rank)
  bcast_S1x1x128_S16x25600x128_0_1_2 : S1x1x128.BroadcastsInDim S16x25600x128 (![0, 1, 2] : Fin 3 → Fin S16x25600x128.rank)
  reducesTo_S16x25600x128_S16x25600_d2 : S16x25600x128.ReducesTo [2] S16x25600
  h_S_ : 0 < S_.numel
  bcast_S16x25600_S16x25600x1_0_1 : S16x25600.BroadcastsInDim S16x25600x1 (![0, 1] : Fin 2 → Fin S16x25600x1.rank)
  bcast_S_S16x25600x1 : S_.BroadcastsInDim S16x25600x1 (![] : Fin 0 → Fin S16x25600x1.rank)
  bcast_S16x25600x1_S16x25600x128_0_1_2 : S16x25600x1.BroadcastsInDim S16x25600x128 (![0, 1, 2] : Fin 3 → Fin S16x25600x128.rank)
  bcast_S16x128_S16x1x128_0_2 : S16x128.BroadcastsInDim S16x1x128 (![0, 2] : Fin 2 → Fin S16x1x128.rank)
  bcast_S16x1x128_S16x25600x128_0_1_2 : S16x1x128.BroadcastsInDim S16x25600x128 (![0, 1, 2] : Fin 3 → Fin S16x25600x128.rank)
  bcast_S_S16x25600x128 : S_.BroadcastsInDim S16x25600x128 (![] : Fin 0 → Fin S16x25600x128.rank)
  shapeCasts_S16x25600x128_S409600x128 : S16x25600x128.ShapeCasts S409600x128
  dot_S16x160x1024_S1024x128_S16x160x128_2_0_01_1_n_n_wf : DotDims.WF S16x160x1024 S1024x128 S16x160x128 [2] [0] [0, 1] [1] [] []
  dot_S16x1024_S1024x256_S16x256_1_0_0_1_n_n_wf : DotDims.WF S16x1024 S1024x256 S16x256 [1] [0] [0] [1] [] []
  dot_S16x25600x136_S136x128_S16x25600x128_2_0_01_1_n_n_wf : DotDims.WF S16x25600x136 S136x128 S16x25600x128 [2] [0] [0, 1] [1] [] []

variable [Facts₀]

def dot_S16x160x1024_S1024x128_S16x160x128_2_0_01_1_n_n : DotDims S16x160x1024 S1024x128 S16x160x128 where
  lhsContracting := [2]
  rhsContracting := [0]
  lhsNonContracting := [0, 1]
  rhsNonContracting := [1]
  lhsBatch := []
  rhsBatch := []
  wf := dot_S16x160x1024_S1024x128_S16x160x128_2_0_01_1_n_n_wf
def dot_S16x1024_S1024x256_S16x256_1_0_0_1_n_n : DotDims S16x1024 S1024x256 S16x256 where
  lhsContracting := [1]
  rhsContracting := [0]
  lhsNonContracting := [0]
  rhsNonContracting := [1]
  lhsBatch := []
  rhsBatch := []
  wf := dot_S16x1024_S1024x256_S16x256_1_0_0_1_n_n_wf
def dot_S16x25600x136_S136x128_S16x25600x128_2_0_01_1_n_n : DotDims S16x25600x136 S136x128 S16x25600x128 where
  lhsContracting := [2]
  rhsContracting := [0]
  lhsNonContracting := [0, 1]
  rhsNonContracting := [1]
  lhsBatch := []
  rhsBatch := []
  wf := dot_S16x25600x136_S136x128_S16x25600x128_2_0_01_1_n_n_wf

class Facts : Prop extends Facts₀ where

variable [Facts]
-- ==== Proof.KB.Body0.lean ====
/-
  The node-projection region (the first pallas_call): one grid point per graph b. The body loads the graph's 160 × 1024
  block of node features, the whole 1024 × 128 weight and the 128-vector bias, and stores relu(x·W + b) over the whole
  160 × 128 output block. Here: what the output's staging buffer holds after the body as a function of the input blocks,
  the body's triple, and the pipeline's proof data with its body obligation — at any float family, and at a parameter
  `V` for the buffer contents the region is entered from.
-/
import proofs.«179063_j79517024518197_1_alg».proof.Proof.Gen.Kernel.Launch
import proofs.«179063_j79517024518197_1_alg».proof.Proof.Gen.Kernel.Skeleton
import proofs.«179063_j79517024518197_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds the window's block at every grid point, whether the pipeline
    fetched it there or not (an unfetched block's index has not moved), for any proof data on `V`'s arrays
    whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds the window's block at every grid point, whether the pipeline
    fetched it there or not (an unfetched block's index has not moved), for any proof data on `V`'s arrays
    whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds the window's block at every grid point, whether the pipeline
    fetched it there or not (an unfetched block's index has not moved), for any proof data on `V`'s arrays
    whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body loads and stores: each is a whole staging buffer -/

abbrev r0_0 : Rect S1x160x1024 := Rect.unit (s := S1x160x1024) ![0, 0, 0] S1x160x1024.size inb_S1x160x1024_S1x160x1024_0_0_0
abbrev r0_1 : Rect S1024x128 := Rect.unit (s := S1024x128) ![0, 0] S1024x128.size inb_S1024x128_S1024x128_0_0
abbrev r0_2 : Rect S128 := Rect.unit (s := S128) ![0] S128.size inb_S128_S128_0
abbrev r0_3 : Rect S1x160x128 := Rect.unit (s := S1x160x128) ![0, 0, 0] S1x160x128.size inb_S1x160x128_S1x160x128_0_0_0

/-- What the body leaves in the output window's staging buffer, as a function of the input blocks: its one store,
    of the body's arithmetic on the loaded blocks, over the whole buffer. -/
def out0_3 (x0 : Vec F S1x160x1024 .f32) (x1 : Vec F S1024x128 .f32) (x2 : Vec F S128 .f32) : Vec F S1x160x128 .f32 :=
  View.canon [⟨r0_3, k0_pay1 (View.ld x0 r0_0) (View.ld x1 r0_1) (View.ld x2 r0_2)⟩]

/-- The one store covers the buffer. -/
theorem cover0_3 (p0 : Vec F S1x160x128 .f32) (y : S1x160x128.Idx) :
    ∃ pc ∈ ([⟨r0_3, p0⟩] : List (View.Piece (Elt F) S1x160x128 .f32)), y ∈ pc.1.set :=
  View.cover_of_tiled [⟨r0_3, p0⟩] S1x160x128.size (by rfl) y

set_option maxHeartbeats 4000000 in
/-- The body's triple. On whole staging buffers, the inputs' holding `x0 …` and the output's holding anything, the kernel
    function runs to its end without fault, leaves every input buffer as it was and the output buffer at `out0_3`
    of the inputs. -/
theorem sound_kernel0 (c : Dev nD) (E : Set ℕ) (i : grid0.Coords) (arg0 : Memref sig .tc .vmem S1x160x1024 .f32) (harg0 : arg0.IsWhole) (arg1 : Memref sig .tc .vmem S1024x128 .f32) (harg1 : arg1.IsWhole) (arg2 : Memref sig .tc .vmem S128 .f32) (harg2 : arg2.IsWhole) (arg3 : Memref sig .tc .vmem S1x160x128 .f32) (harg3 : arg3.IsWhole)
    (x0 : Vec F S1x160x1024 .f32) (x1 : Vec F S1024x128 .f32) (x2 : Vec F S128 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out0_3 x0 x1 x2)) -∗ K ⟨⟩))
      ⊢ wp frame (wpE (defs₀ (F := F)) Variants.none c none) E (cc0__proj_kernel i arg0 harg0 arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover0_3 _)

/-! ## The pipeline's proof data -/

/-- The proof data of this pipeline on core `c`: the arrays as the region finds them; after the body at grid point `t`
    each input's staging buffer at the input's block there and the output's at `out0_3` of the input blocks; the
    invariant is the scoped rest and the generator register, untouched; nothing is owed to another core. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation at a generic grid point -/

/-- What the pipeline hands the body at point `t`: the invariant, the core's dues, and each window's current staging buffer. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what the body gives back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any grid point: each input's staging buffer holds the input's block there, so the body's triple applies; the
    invariant and the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline, at every grid point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KB.Body1.lean ====
/-
  The pairwise FiLM region (the second pallas_call): one grid point per graph b and tile of 40 first nodes i. The body
  loads the tile's 40 × 128 block of projected rows, the graph's whole 160 × 128 projection (the second nodes j), the
  40 × 160 × 8 spatial block, the two slices of the FiLM weight, its bias and the graph's scale and shift rows, and stores
  the 40 × 160 × 128 output block whole. Two input windows read ONE array (the projection), so the array's share is dealt
  between them: the left half to the row tile's window, the right half to the whole-graph window. Here: the output buffer
  after the body as a function of the input blocks, the body's triple, the proof data and its body obligation — at any
  float family and at a parameter `V` for the buffer contents the region is entered from.
-/
import proofs.«179063_j79517024518197_1_alg».proof.Proof.Gen.Kernel.Launch
import proofs.«179063_j79517024518197_1_alg».proof.Proof.Gen.Kernel.Skeleton
import proofs.«179063_j79517024518197_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds the window's block at every grid point, whether the pipeline
    fetched it there or not (an unfetched block's index has not moved), for any proof data on `V`'s arrays
    whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds the window's block at every grid point, whether the pipeline
    fetched it there or not (an unfetched block's index has not moved), for any proof data on `V`'s arrays
    whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds the window's block at every grid point, whether the pipeline
    fetched it there or not (an unfetched block's index has not moved), for any proof data on `V`'s arrays
    whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds the window's block at every grid point, whether the pipeline
    fetched it there or not (an unfetched block's index has not moved), for any proof data on `V`'s arrays
    whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds the window's block at every grid point, whether the pipeline
    fetched it there or not (an unfetched block's index has not moved), for any proof data on `V`'s arrays
    whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds the window's block at every grid point, whether the pipeline
    fetched it there or not (an unfetched block's index has not moved), for any proof data on `V`'s arrays
    whose body leaves the block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds the window's block at every grid point, whether the pipeline
    fetched it there or not (an unfetched block's index has not moved), for any proof data on `V`'s arrays
    whose body leaves the block in place. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current staging buffer holds the window's block at every grid point, whether the pipeline
    fetched it there or not (an unfetched block's index has not moved), for any proof data on `V`'s arrays
    whose body leaves the block in place. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body loads and stores: each is a whole staging buffer -/

abbrev r1_0 : Rect S1x40x128 := Rect.unit (s := S1x40x128) ![0, 0, 0] S1x40x128.size inb_S1x40x128_S1x40x128_0_0_0
abbrev r1_1 : Rect S1x160x128 := Rect.unit (s := S1x160x128) ![0, 0, 0] S1x160x128.size inb_S1x160x128_S1x160x128_0_0_0
abbrev r1_2 : Rect S1x40x160x8 := Rect.unit (s := S1x40x160x8) ![0, 0, 0, 0] S1x40x160x8.size inb_S1x40x160x8_S1x40x160x8_0_0_0_0
abbrev r1_3 : Rect S128x128 := Rect.unit (s := S128x128) ![0, 0] S128x128.size inb_S128x128_S128x128_0_0
abbrev r1_4 : Rect S8x128 := Rect.unit (s := S8x128) ![0, 0] S8x128.size inb_S8x128_S8x128_0_0
abbrev r1_5 : Rect S128 := Rect.unit (s := S128) ![0] S128.size inb_S128_S128_0
abbrev r1_6 : Rect S1x1x128 := Rect.unit (s := S1x1x128) ![0, 0, 0] S1x1x128.size inb_S1x1x128_S1x1x128_0_0_0
abbrev r1_7 : Rect S1x1x128 := Rect.unit (s := S1x1x128) ![0, 0, 0] S1x1x128.size inb_S1x1x128_S1x1x128_0_0_0
abbrev r1_8 : Rect S1x40x160x128 := Rect.unit (s := S1x40x160x128) ![0, 0, 0, 0] S1x40x160x128.size inb_S1x40x160x128_S1x40x160x128_0_0_0_0

/-- What the body leaves in the output window's staging buffer, as a function of the input blocks: its one store,
    of the body's arithmetic on the loaded blocks, over the whole buffer. -/
def out1_8 (x0 : Vec F S1x40x128 .f32) (x1 : Vec F S1x160x128 .f32) (x2 : Vec F S1x40x160x8 .f32) (x3 : Vec F S128x128 .f32) (x4 : Vec F S8x128 .f32) (x5 : Vec F S128 .f32) (x6 : Vec F S1x1x128 .f32) (x7 : Vec F S1x1x128 .f32) : Vec F S1x40x160x128 .f32 :=
  View.canon [⟨r1_8, k1_pay1 (k1_pay2 (View.ld x6 r1_6)) (k1_pay3 (View.ld x7 r1_7)) (k1_pay4 (View.ld x0 r1_0) (View.ld x1 r1_1) (View.ld x2 r1_2) (View.ld x3 r1_3) (View.ld x4 r1_4) (View.ld x5 r1_5)) (k1_pay5 (View.ld x0 r1_0) (View.ld x1 r1_1) (View.ld x2 r1_2) (View.ld x3 r1_3) (View.ld x4 r1_4) (View.ld x5 r1_5))⟩]

/-- The one store covers the buffer. -/
theorem cover1_8 (p0 : Vec F S1x40x160x128 .f32) (y : S1x40x160x128.Idx) :
    ∃ pc ∈ ([⟨r1_8, p0⟩] : List (View.Piece (Elt F) S1x40x160x128 .f32)), y ∈ pc.1.set :=
  View.cover_of_tiled [⟨r1_8, p0⟩] S1x40x160x128.size (by rfl) y

set_option maxHeartbeats 4000000 in
/-- The body's triple. On whole staging buffers, the inputs' holding `x0 …` and the output's holding anything, the kernel
    function runs to its end without fault, leaves every input buffer as it was and the output buffer at `out1_8`
    of the inputs. -/
theorem sound_kernel1 (c : Dev nD) (E : Set ℕ) (i : grid1.Coords) (arg0 : Memref sig .tc .vmem S1x40x128 .f32) (harg0 : arg0.IsWhole) (arg1 : Memref sig .tc .vmem S1x160x128 .f32) (harg1 : arg1.IsWhole) (arg2 : Memref sig .tc .vmem S1x40x160x8 .f32) (harg2 : arg2.IsWhole) (arg3 : Memref sig .tc .vmem S128x128 .f32) (harg3 : arg3.IsWhole) (arg4 : Memref sig .tc .vmem S8x128 .f32) (harg4 : arg4.IsWhole) (arg5 : Memref sig .tc .vmem S128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x40x160x128 .f32) (harg8 : arg8.IsWhole)
    (x0 : Vec F S1x40x128 .f32) (x1 : Vec F S1x160x128 .f32) (x2 : Vec F S1x40x160x8 .f32) (x3 : Vec F S128x128 .f32) (x4 : Vec F S8x128 .f32) (x5 : Vec F S128 .f32) (x6 : Vec F S1x1x128 .f32) (x7 : Vec F S1x1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (out1_8 x0 x1 x2 x3 x4 x5 x6 x7)) -∗ K ⟨⟩))
      ⊢ wp frame (wpE (defs₀ (F := F)) Variants.none c none) E (cc1__film_kernel i arg0 harg0 arg1 harg1 arg2 harg2 arg3 harg3 arg4 harg4 arg5 harg5 arg6 harg6 arg7 harg7 arg8 harg8) K := by
  simp only [cc1__film_kernel_eq_skeleton]; unfold cc1__film_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  try dsimp only
  exact View.read_writes_eq_canon _ _ _ (cover1_8 _)

/-! ## The pipeline's proof data -/

/-- The proof data of this pipeline on core `c`: the arrays as the region finds them; after the body at grid point `t`
    each input's staging buffer at the input's block there and the output's at `out1_8` of the input blocks; the
    invariant is the scoped rest and the generator register, untouched; nothing is owed to another core. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => out1_8 (iblk1 V c 0 t) (iblk1 V c 1 t) (iblk1 V c 2 t) (iblk1 V c 3 t) (iblk1 V c 4 t) (iblk1 V c 5 t) (iblk1 V c 6 t) (iblk1 V c 7 t)
  Φ _ := Pipeline.ΦA spec1 c
  q w := match w with
    | ⟨0, _⟩ => fullShare.left
    | ⟨1, _⟩ => fullShare.right
    | _ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = out1_8 (iblk1 V c 0 t) (iblk1 V c 1 t) (iblk1 V c 2 t) (iblk1 V c 3 t) (iblk1 V c 4 t) (iblk1 V c 5 t) (iblk1 V c 6 t) (iblk1 V c 7 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

/-! ## The body obligation at a generic grid point -/

/-- What the pipeline hands the body at point `t`: the invariant, the core's dues, and each window's current staging buffer. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

/-- and what the body gives back. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

/-- The body at any grid point: each input's staging buffer holds the input's block there, so the body's triple applies; the
    invariant and the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel1 c Set.univ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body obligation of the pipeline, at every grid point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KB.Fold.lean ====
/-
  The buffer contents of one TensorCore at each boundary between the items of the program — the node-projection region,
  thirteen host operations (the conditioning projection, its two halves as scale and shift rows, the two slices of the
  FiLM weight), the pairwise FiLM region, and the final reshape — as a fold from the launch memory: a region changes
  only its output array (to what its write-backs leave: the proof data's array after the last grid point), a host
  stretch changes what its operations write.
-/
import proofs.«179063_j79517024518197_1_alg».proof.Proof.KB.Body0
import proofs.«179063_j79517024518197_1_alg».proof.Proof.KB.Body1
import proofs.«179063_j79517024518197_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Core `c`'s buffers at launch: what the node-projection region is entered from. -/
abbrev W0 : Dev nD → Valuation τ sig (Elt F) := fun c b => (s₀ m ρ).mem ((c : Dev nD), b)
/-- The same read at the TensorCore's references. -/
abbrev V0 : (c : Dev nD) → (b : Ref sig .tc) → Buf (Elt F) ((c : Thread nD τ).loc b) := fun c b => W0 m ρ c b

/-- After the node-projection region: its output array (the projection `h`) at what the write-backs leave, every other
    buffer as launched. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b

/-- After the thirteen host operations: what the pairwise FiLM region is entered from. -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b

/-- After the pairwise FiLM region: its output array at what the write-backs leave, every other buffer as entered (two of
    its input windows read one array, the projection, which like every input array it leaves as it found it). -/
def W3 (c : Dev nD) : Valuation τ sig (Elt F) :=
  Function.update (W2 m ρ c) (Proc.devRef .tc (Pipeline.arrRef spec1 8)) ((dat1 (V2 m ρ) c).arrAt 8 cfg1.N)
theorem W3_out (c : Dev nD) :
    W3 m ρ c (Proc.devRef .tc (Pipeline.arrRef spec1 8)) = (dat1 (V2 m ρ) c).arrAt 8 cfg1.N := by
  unfold W3; exact Function.update_self _ _ _
theorem W3_of_ne (c : Dev nD) (b : Ref sig .tc) (hb : b ≠ Pipeline.arrRef spec1 8) :
    W3 m ρ c (Proc.devRef .tc b) = W2 m ρ c (Proc.devRef .tc b) := by
  unfold W3; exact Function.update_of_ne (StableHlo.devRef_ne_of_ne hb) _ _
abbrev V3 : (c : Dev nD) → (b : Ref sig .tc) → Buf (Elt F) ((c : Thread nD τ).loc b) := fun c b => W3 m ρ c b

/-- After the final reshape: the contents the program ends with. -/
abbrev W4 : Dev nD → Valuation τ sig (Elt F) := fun c => StableHlo.after hostOps2 (W3 m ρ c)

end Cert.Kernel.Hand

end
-- ==== Proof.KB.Shared1.lean ====
/-
  The pairwise FiLM region hands ONE array, the projection `h`, to two input windows (the row tile and the whole graph).
  The region therefore holds that array's share in two halves, one per window, and every other array whole. Here: a core's
  unscoped buffers split into the region's arrays (the shared one dealt in halves) and the rest, at the region's entry;
  and put back together at its exit, where the two halves — both still at the entry contents, since inputs are only read —
  rejoin into the full share and the output array holds what the write-backs left.
-/
import proofs.«179063_j79517024518197_1_alg».proof.Proof.KB.Body1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The region's arrays at contents `G` are the DISTINCT buffers behind them, each whole at the full share, at any
    valuation `V₀` that `G` is read off: every window's array is a whole buffer; the eight buffers are listed; every
    window but the two on the projection holds its buffer at the full share, and those two hold the left and the right
    half of the full share of one buffer at one contents, which is that buffer at the full share. -/
theorem arrays1_eq_arrBufs (c : Dev nD) (G : (w : Fin cfg1.W) → Buf (Elt F) ((cfg1.win w).arr.view.loc (c : Thread nD τ)))
    (V₀ : (b : Ref sig .tc) → Buf (Elt F) ((c : Thread nD τ).loc b)) (hG : ∀ w, G w = V₀ (Pipeline.arrRef spec1 w)) :
    ((dat1 V c).arrays G : sProp 𝕄) = Pipeline.arrBufs (Ix := Unit) (Name := ℕ) (U := UR sig nD τ) (Lvl := ℕ) spec1 c V₀ := by
  -- window by window: the array's element set is the whole buffer, its contents those of `V₀`
  have h1 : ((dat1 V c).arrays G : sProp 𝕄) = bigSep Finset.univ fun w : Fin 9 =>
      (((c : Thread nD τ).loc (Pipeline.arrRef spec1 w)) ↦{(dat1 V c).share w} V₀ (Pipeline.arrRef spec1 w) : sProp 𝕄) := by
    unfold Dat.arrays
    exact bigSep_congr fun w _ => by rw [(arr_whole1 w).set_eq_univ, hG w]
  -- the nine windows name eight buffers
  have h2 : (Pipeline.arrBufs (Ix := Unit) (Name := ℕ) (U := UR sig nD τ) (Lvl := ℕ) spec1 c V₀ : sProp 𝕄)
      = bigSepL [main_v0, main_arg2, main_v11, main_v12, main_arg8, main_v9, main_v10, main_v13] (fun b => ((c : Thread nD τ).loc b) ↦{fullShare} V₀ b) := by
    unfold Pipeline.arrBufs
    exact bigSep_eq_bigSepL_of_eq [main_v0, main_arg2, main_v11, main_v12, main_arg8, main_v9, main_v10, main_v13] (by decide) (by decide) _
  rw [h1, h2, bigSep_W1]
  -- the full share is its left half composed with its right half
  have hs := pointsTo_share (Ix := Unit) (Name := ℕ) (U := UR sig nD τ) (Lvl := ℕ) (ℓ := (c : Thread nD τ).loc main_v0) (I := Finset.univ) (f := V₀ main_v0)
    (PosShare.mem_left_op_right fullShare)
  exact equiv_iff.mp ⟨sep_assoc.2.trans (sep_mono hs.2 .rfl), (sep_mono hs.1 .rfl).trans sep_assoc.1⟩

/-- ENTRY. A core's unscoped buffers at contents `V c` are the region's arrays at the proof data's entry contents — the
    projection's share dealt in halves to the two windows on it — and the unscoped buffers that are no window's array. -/
theorem arrays1_of_unscopedBufs (c : Dev nD) :
    (unscopedBufs c (V c) : sProp 𝕄)
      ⊢ iprop((dat1 V c).arrays ((dat1 V c).arrAt · 0) ∗ Pipeline.unscopedRest (Ix := Unit) (Name := ℕ) (U := UR sig nD τ) (Lvl := ℕ) spec1 c (V c)) := by
  -- the unscoped buffers are the buffers behind the arrays and the rest; the entry contents are those of `V c` by definition
  rw [Pipeline.unscopedBufs_split₀ cfgs 1 winFacts₀1.arr_unscoped c (V c), arrays1_eq_arrBufs V c ((dat1 V c).arrAt · 0) (V c) fun w => rfl]
  exact .rfl

/-- EXIT. The region's arrays at their final contents and the rest at `V c` are the core's unscoped buffers at any contents
    `V'` that has the output array at what the write-backs left and agrees with `V c` everywhere else: the two halves of the
    projection's share, both at the entry contents, rejoin. -/
theorem unscopedBufs_of_arrays1 (c : Dev nD) (V' : (b : Ref sig .tc) → Buf (Elt F) ((c : Thread nD τ).loc b))
    (hout : V' (Pipeline.arrRef spec1 8) = (dat1 V c).arrAt 8 cfg1.N)
    (hrest : ∀ b, b ≠ Pipeline.arrRef spec1 8 → V' b = V c b) :
    iprop((dat1 V c).arrays ((dat1 V c).arrAt · cfg1.N) ∗ Pipeline.unscopedRest (Ix := Unit) (Name := ℕ) (U := UR sig nD τ) (Lvl := ℕ) spec1 c (V c))
      ⊢ (unscopedBufs c V' : sProp 𝕄) := by
  -- every window but the last is an input, on an array other than the output's
  have hin : ∀ w : Fin 9, w ≠ 8 → (cfg1.win w).isOut = false ∧ Pipeline.arrRef spec1 w ≠ Pipeline.arrRef spec1 8 := by decide
  -- so its array is never written and `V'` has it at the contents `V c` has; the output array is at what `V'` has by `hout`
  have hG : ∀ w : Fin cfg1.W, (dat1 V c).arrAt w cfg1.N = V' (Pipeline.arrRef spec1 w) := fun w => by
    by_cases hw : w = 8
    · subst hw; exact hout.symm
    · exact ((dat1 V c).arrAt_in w (hin w hw).1 _).trans (hrest _ (hin w hw).2).symm
  rw [Pipeline.unscopedBufs_split₀ cfgs 1 winFacts₀1.arr_unscoped c V', arrays1_eq_arrBufs V c ((dat1 V c).arrAt · cfg1.N) V' hG]
  -- the rest is no window's array, the output's least of all: `V'` agrees with `V c` there
  refine sep_mono .rfl (Entails.of_eq ?_)
  unfold Pipeline.unscopedRest
  exact bigSep_congr fun b hb => by
    rw [hrest b fun e => (Finset.mem_sdiff.mp hb).2 (e ▸ Finset.mem_image_of_mem _ (Finset.mem_univ 8))]

end Cert.Kernel.Hand

end
-- ==== Proof.KB.Run.lean ====
/-
  The run of the whole program on one TensorCore: the node-projection region, the host operations, the pairwise FiLM region
  and the final reshape, as four segments whose thread states chain — between two items the core holds every unscoped
  buffer at the fold's contents, its generator register at some state, and owes nothing. Every weakly fair execution
  terminates without fault with every unscoped buffer at the fold's last contents; the nine argument arrays end as launched
  because no host operation writes one and a region only reads them.
-/
import proofs.«179063_j79517024518197_1_alg».proof.Proof.KB.Fold
import proofs.«179063_j79517024518197_1_alg».proof.Proof.KB.Shared1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The node-projection region's exit contents -/

theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-! ## The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_writes_sub hostOps2 _ hostOps2_writes (by decide)
    _ = W2 m ρ c (Proc.devRef .tc main_arg0) := W3_of_ne m ρ c main_arg0 (by decide)
    _ = W1 m ρ c (Proc.devRef .tc main_arg0) := StableHlo.after_of_writes_sub hostOps1 _ hostOps1_writes (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_writes_sub hostOps2 _ hostOps2_writes (by decide)
    _ = W2 m ρ c (Proc.devRef .tc main_arg1) := W3_of_ne m ρ c main_arg1 (by decide)
    _ = W1 m ρ c (Proc.devRef .tc main_arg1) := StableHlo.after_of_writes_sub hostOps1 _ hostOps1_writes (by decide)
    _ = W0 m ρ c (Proc.devRef .tc main_arg1) := W1_of_ne m ρ c main_arg1 (by decide)
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := StableHlo.after_of_writes_sub hostOps2 _ hostOps2_writes (by decide)
    _ = W2 m ρ c (Proc.devRef .tc main_arg2) := W3_of_ne m ρ c main_arg2 (by decide)
    _ = W1 m ρ c (Proc.devRef .tc main_arg2) := StableHlo.after_of_writes_sub hostOps1 _ hostOps1_writes (by decide)
    _ = W0 m ρ c (Proc.devRef .tc main_arg2) := W1_of_ne m ρ c main_arg2 (by decide)
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := StableHlo.after_of_writes_sub hostOps2 _ hostOps2_writes (by decide)
    _ = W2 m ρ c (Proc.devRef .tc main_arg3) := W3_of_ne m ρ c main_arg3 (by decide)
    _ = W1 m ρ c (Proc.devRef .tc main_arg3) := StableHlo.after_of_writes_sub hostOps1 _ hostOps1_writes (by decide)
    _ = W0 m ρ c (Proc.devRef .tc main_arg3) := (W1_arr m ρ c 1).trans (((dat0 (V0 m ρ) c).arrAt_in 1 rfl _).trans (A_eq0 (V0 m ρ) c 1))
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := StableHlo.after_of_writes_sub hostOps2 _ hostOps2_writes (by decide)
    _ = W2 m ρ c (Proc.devRef .tc main_arg4) := W3_of_ne m ρ c main_arg4 (by decide)
    _ = W1 m ρ c (Proc.devRef .tc main_arg4) := StableHlo.after_of_writes_sub hostOps1 _ hostOps1_writes (by decide)
    _ = W0 m ρ c (Proc.devRef .tc main_arg4) := (W1_arr m ρ c 2).trans (((dat0 (V0 m ρ) c).arrAt_in 2 rfl _).trans (A_eq0 (V0 m ρ) c 2))
    _ = m ((c : Thread nD τ).loc main_arg4) := rfl
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := StableHlo.after_of_writes_sub hostOps2 _ hostOps2_writes (by decide)
    _ = W2 m ρ c (Proc.devRef .tc main_arg5) := W3_of_ne m ρ c main_arg5 (by decide)
    _ = W1 m ρ c (Proc.devRef .tc main_arg5) := StableHlo.after_of_writes_sub hostOps1 _ hostOps1_writes (by decide)
    _ = W0 m ρ c (Proc.devRef .tc main_arg5) := W1_of_ne m ρ c main_arg5 (by decide)
    _ = m ((c : Thread nD τ).loc main_arg5) := rfl
theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := StableHlo.after_of_writes_sub hostOps2 _ hostOps2_writes (by decide)
    _ = W2 m ρ c (Proc.devRef .tc main_arg6) := W3_of_ne m ρ c main_arg6 (by decide)
    _ = W1 m ρ c (Proc.devRef .tc main_arg6) := StableHlo.after_of_writes_sub hostOps1 _ hostOps1_writes (by decide)
    _ = W0 m ρ c (Proc.devRef .tc main_arg6) := W1_of_ne m ρ c main_arg6 (by decide)
    _ = m ((c : Thread nD τ).loc main_arg6) := rfl
theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := StableHlo.after_of_writes_sub hostOps2 _ hostOps2_writes (by decide)
    _ = W2 m ρ c (Proc.devRef .tc main_arg7) := W3_of_ne m ρ c main_arg7 (by decide)
    _ = W1 m ρ c (Proc.devRef .tc main_arg7) := StableHlo.after_of_writes_sub hostOps1 _ hostOps1_writes (by decide)
    _ = W0 m ρ c (Proc.devRef .tc main_arg7) := W1_of_ne m ρ c main_arg7 (by decide)
    _ = m ((c : Thread nD τ).loc main_arg7) := rfl
theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := StableHlo.after_of_writes_sub hostOps2 _ hostOps2_writes (by decide)
    _ = W2 m ρ c (Proc.devRef .tc main_arg8) := W3_of_ne m ρ c main_arg8 (by decide)
    _ = W1 m ρ c (Proc.devRef .tc main_arg8) := StableHlo.after_of_writes_sub hostOps1 _ hostOps1_writes (by decide)
    _ = W0 m ρ c (Proc.devRef .tc main_arg8) := W1_of_ne m ρ c main_arg8 (by decide)
    _ = m ((c : Thread nD τ).loc main_arg8) := rfl

/-! ## The proof data family and the thread state -/

/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the fold's last contents, the generator register. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The node-projection region: entered from every unscoped buffer at the launch contents, left with its output array at
    what its write-backs leave. Its four arrays are distinct buffers, split out of the unscoped buffers and put back. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The pairwise FiLM region: entered from every unscoped buffer at the contents after the host operations, left with its
    output array at what its write-backs leave. Two of its windows read one array, whose share is dealt in halves at the
    entry and rejoined at the exit. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := arrays1_of_unscopedBufs (F := F) (V2 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := unscopedBufs_of_arrays1 (F := F) (V2 m ρ) c (V3 m ρ c) (W3_out m ρ c) (fun b hb => W3_of_ne m ρ c b hb)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## The program as segments, and its run -/

/-- The program's four segments in order. -/
abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)) ]
/-- The program IS the run of its segments. -/
theorem main_run (c : Dev nD) : main (F := F) c = Pipeline.Seg.run (segs m ρ) := (main_chain c).trans (by chain_rfl)

set_option backward.isDefEq.respectTransparency.types false in
/-- THE RUN, at any float family: from any memory with zero counters, every weakly fair execution of the program on the
    TensorCores terminates, nothing faulting, and every final memory holds each unscoped buffer at the fold's last contents. -/
theorem run_all : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = W4 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (StableHlo.after hostOps2 (W3 m ρ c)) ∗ R c)
        ⊢ iprop(Tₙ m ρ c ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c b hb => h c _ (mem_uc b hb))

/-- THE FRAME, at any float family: the program terminates without fault and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c main_arg0 (by decide)).trans (W4_main_arg0 m ρ c),
    (h c main_arg1 (by decide)).trans (W4_main_arg1 m ρ c),
    (h c main_arg2 (by decide)).trans (W4_main_arg2 m ρ c),
    (h c main_arg3 (by decide)).trans (W4_main_arg3 m ρ c),
    (h c main_arg4 (by decide)).trans (W4_main_arg4 m ρ c),
    (h c main_arg5 (by decide)).trans (W4_main_arg5 m ρ c),
    (h c main_arg6 (by decide)).trans (W4_main_arg6 m ρ c),
    (h c main_arg7 (by decide)).trans (W4_main_arg7 m ρ c),
    (h c main_arg8 (by decide)).trans (W4_main_arg8 m ρ c)⟩)
    (run_all m ρ)

end Cert.Kernel.Hand

end
-- ==== Proof.KI.Body0.lean ====
/-
  The node-projection region (the first pallas_call): one grid point per graph b. The body loads the graph's 160 × 1024
  block of node features, the whole 1024 × 128 weight and the 128-vector bias, and stores relu(x·W + b) over the whole
  160 × 128 output block. Here: what the output's staging buffer holds after the body as a function of the input blocks,
  the body's triple, and the pipeline's proof data with its body obligation — at any float family, and at a parameter
  `V` for the buffer contents the region is entered from.
-/
import proofs.«179063_j79517024518197_1_alg».proof.Proof.Gen.KernelIdeal.Launch
import proofs.«179063_j79517024518197_1_alg».proof.Proof.Gen.KernelIdeal.Skeleton
import proofs.«179063_j79517024518197_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds the window's block at every grid point, whether the pipeline
    fetched it there or not (an unfetched block's index has not moved), for any proof data on `V`'s arrays
    whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds the window's block at every grid point, whether the pipeline
    fetched it there or not (an unfetched block's index has not moved), for any proof data on `V`'s arrays
    whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds the window's block at every grid point, whether the pipeline
    fetched it there or not (an unfetched block's index has not moved), for any proof data on `V`'s arrays
    whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body loads and stores: each is a whole staging buffer -/

abbrev r0_0 : Rect S1x160x1024 := Rect.unit (s := S1x160x1024) ![0, 0, 0] S1x160x1024.size inb_S1x160x1024_S1x160x1024_0_0_0
abbrev r0_1 : Rect S1024x128 := Rect.unit (s := S1024x128) ![0, 0] S1024x128.size inb_S1024x128_S1024x128_0_0
abbrev r0_2 : Rect S128 := Rect.unit (s := S128) ![0] S128.size inb_S128_S128_0
abbrev r0_3 : Rect S1x160x128 := Rect.unit (s := S1x160x128) ![0, 0, 0] S1x160x128.size inb_S1x160x128_S1x160x128_0_0_0

/-- What the body leaves in the output window's staging buffer, as a function of the input blocks: its one store,
    of the body's arithmetic on the loaded blocks, over the whole buffer. -/
def out0_3 (x0 : Vec F S1x160x1024 .f32) (x1 : Vec F S1024x128 .f32) (x2 : Vec F S128 .f32) : Vec F S1x160x128 .f32 :=
  View.canon [⟨r0_3, k0_pay1 (View.ld x0 r0_0) (View.ld x1 r0_1) (View.ld x2 r0_2)⟩]

/-- The one store covers the buffer. -/
theorem cover0_3 (p0 : Vec F S1x160x128 .f32) (y : S1x160x128.Idx) :
    ∃ pc ∈ ([⟨r0_3, p0⟩] : List (View.Piece (Elt F) S1x160x128 .f32)), y ∈ pc.1.set :=
  View.cover_of_tiled [⟨r0_3, p0⟩] S1x160x128.size (by rfl) y

set_option maxHeartbeats 4000000 in
/-- The body's triple. On whole staging buffers, the inputs' holding `x0 …` and the output's holding anything, the kernel
    function runs to its end without fault, leaves every input buffer as it was and the output buffer at `out0_3`
    of the inputs. -/
theorem sound_kernel0 (c : Dev nD) (E : Set ℕ) (i : grid0.Coords) (arg0 : Memref sig .tc .vmem S1x160x1024 .f32) (harg0 : arg0.IsWhole) (arg1 : Memref sig .tc .vmem S1024x128 .f32) (harg1 : arg1.IsWhole) (arg2 : Memref sig .tc .vmem S128 .f32) (harg2 : arg2.IsWhole) (arg3 : Memref sig .tc .vmem S1x160x128 .f32) (harg3 : arg3.IsWhole)
    (x0 : Vec F S1x160x1024 .f32) (x1 : Vec F S1024x128 .f32) (x2 : Vec F S128 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out0_3 x0 x1 x2)) -∗ K ⟨⟩))
      ⊢ wp frame (wpE (defs₀ (F := F)) Variants.none c none) E (cc0__proj_kernel i arg0 harg0 arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover0_3 _)

/-! ## The pipeline's proof data -/

/-- The proof data of this pipeline on core `c`: the arrays as the region finds them; after the body at grid point `t`
    each input's staging buffer at the input's block there and the output's at `out0_3` of the input blocks; the
    invariant is the scoped rest and the generator register, untouched; nothing is owed to another core. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation at a generic grid point -/

/-- What the pipeline hands the body at point `t`: the invariant, the core's dues, and each window's current staging buffer. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what the body gives back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any grid point: each input's staging buffer holds the input's block there, so the body's triple applies; the
    invariant and the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline, at every grid point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Body1.lean ====
/-
  The pairwise FiLM region (the second pallas_call): one grid point per graph b and tile of 40 first nodes i. The body
  loads the tile's 40 × 128 block of projected rows, the graph's whole 160 × 128 projection (the second nodes j), the
  40 × 160 × 8 spatial block, the two slices of the FiLM weight, its bias and the graph's scale and shift rows, and stores
  the 40 × 160 × 128 output block whole. Two input windows read ONE array (the projection), so the array's share is dealt
  between them: the left half to the row tile's window, the right half to the whole-graph window. Here: the output buffer
  after the body as a function of the input blocks, the body's triple, the proof data and its body obligation — at any
  float family and at a parameter `V` for the buffer contents the region is entered from.
-/
import proofs.«179063_j79517024518197_1_alg».proof.Proof.Gen.KernelIdeal.Launch
import proofs.«179063_j79517024518197_1_alg».proof.Proof.Gen.KernelIdeal.Skeleton
import proofs.«179063_j79517024518197_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds the window's block at every grid point, whether the pipeline
    fetched it there or not (an unfetched block's index has not moved), for any proof data on `V`'s arrays
    whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds the window's block at every grid point, whether the pipeline
    fetched it there or not (an unfetched block's index has not moved), for any proof data on `V`'s arrays
    whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds the window's block at every grid point, whether the pipeline
    fetched it there or not (an unfetched block's index has not moved), for any proof data on `V`'s arrays
    whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds the window's block at every grid point, whether the pipeline
    fetched it there or not (an unfetched block's index has not moved), for any proof data on `V`'s arrays
    whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds the window's block at every grid point, whether the pipeline
    fetched it there or not (an unfetched block's index has not moved), for any proof data on `V`'s arrays
    whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds the window's block at every grid point, whether the pipeline
    fetched it there or not (an unfetched block's index has not moved), for any proof data on `V`'s arrays
    whose body leaves the block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds the window's block at every grid point, whether the pipeline
    fetched it there or not (an unfetched block's index has not moved), for any proof data on `V`'s arrays
    whose body leaves the block in place. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current staging buffer holds the window's block at every grid point, whether the pipeline
    fetched it there or not (an unfetched block's index has not moved), for any proof data on `V`'s arrays
    whose body leaves the block in place. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body loads and stores: each is a whole staging buffer -/

abbrev r1_0 : Rect S1x40x128 := Rect.unit (s := S1x40x128) ![0, 0, 0] S1x40x128.size inb_S1x40x128_S1x40x128_0_0_0
abbrev r1_1 : Rect S1x160x128 := Rect.unit (s := S1x160x128) ![0, 0, 0] S1x160x128.size inb_S1x160x128_S1x160x128_0_0_0
abbrev r1_2 : Rect S1x40x160x8 := Rect.unit (s := S1x40x160x8) ![0, 0, 0, 0] S1x40x160x8.size inb_S1x40x160x8_S1x40x160x8_0_0_0_0
abbrev r1_3 : Rect S128x128 := Rect.unit (s := S128x128) ![0, 0] S128x128.size inb_S128x128_S128x128_0_0
abbrev r1_4 : Rect S8x128 := Rect.unit (s := S8x128) ![0, 0] S8x128.size inb_S8x128_S8x128_0_0
abbrev r1_5 : Rect S128 := Rect.unit (s := S128) ![0] S128.size inb_S128_S128_0
abbrev r1_6 : Rect S1x1x128 := Rect.unit (s := S1x1x128) ![0, 0, 0] S1x1x128.size inb_S1x1x128_S1x1x128_0_0_0
abbrev r1_7 : Rect S1x1x128 := Rect.unit (s := S1x1x128) ![0, 0, 0] S1x1x128.size inb_S1x1x128_S1x1x128_0_0_0
abbrev r1_8 : Rect S1x40x160x128 := Rect.unit (s := S1x40x160x128) ![0, 0, 0, 0] S1x40x160x128.size inb_S1x40x160x128_S1x40x160x128_0_0_0_0

/-- What the body leaves in the output window's staging buffer, as a function of the input blocks: its one store,
    of the body's arithmetic on the loaded blocks, over the whole buffer. -/
def out1_8 (x0 : Vec F S1x40x128 .f32) (x1 : Vec F S1x160x128 .f32) (x2 : Vec F S1x40x160x8 .f32) (x3 : Vec F S128x128 .f32) (x4 : Vec F S8x128 .f32) (x5 : Vec F S128 .f32) (x6 : Vec F S1x1x128 .f32) (x7 : Vec F S1x1x128 .f32) : Vec F S1x40x160x128 .f32 :=
  View.canon [⟨r1_8, k1_pay1 (k1_pay2 (View.ld x6 r1_6)) (k1_pay3 (View.ld x7 r1_7)) (k1_pay4 (View.ld x0 r1_0) (View.ld x1 r1_1) (View.ld x2 r1_2) (View.ld x3 r1_3) (View.ld x4 r1_4) (View.ld x5 r1_5)) (k1_pay5 (View.ld x0 r1_0) (View.ld x1 r1_1) (View.ld x2 r1_2) (View.ld x3 r1_3) (View.ld x4 r1_4) (View.ld x5 r1_5))⟩]

/-- The one store covers the buffer. -/
theorem cover1_8 (p0 : Vec F S1x40x160x128 .f32) (y : S1x40x160x128.Idx) :
    ∃ pc ∈ ([⟨r1_8, p0⟩] : List (View.Piece (Elt F) S1x40x160x128 .f32)), y ∈ pc.1.set :=
  View.cover_of_tiled [⟨r1_8, p0⟩] S1x40x160x128.size (by rfl) y

set_option maxHeartbeats 4000000 in
/-- The body's triple. On whole staging buffers, the inputs' holding `x0 …` and the output's holding anything, the kernel
    function runs to its end without fault, leaves every input buffer as it was and the output buffer at `out1_8`
    of the inputs. -/
theorem sound_kernel1 (c : Dev nD) (E : Set ℕ) (i : grid1.Coords) (arg0 : Memref sig .tc .vmem S1x40x128 .f32) (harg0 : arg0.IsWhole) (arg1 : Memref sig .tc .vmem S1x160x128 .f32) (harg1 : arg1.IsWhole) (arg2 : Memref sig .tc .vmem S1x40x160x8 .f32) (harg2 : arg2.IsWhole) (arg3 : Memref sig .tc .vmem S128x128 .f32) (harg3 : arg3.IsWhole) (arg4 : Memref sig .tc .vmem S8x128 .f32) (harg4 : arg4.IsWhole) (arg5 : Memref sig .tc .vmem S128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x40x160x128 .f32) (harg8 : arg8.IsWhole)
    (x0 : Vec F S1x40x128 .f32) (x1 : Vec F S1x160x128 .f32) (x2 : Vec F S1x40x160x8 .f32) (x3 : Vec F S128x128 .f32) (x4 : Vec F S8x128 .f32) (x5 : Vec F S128 .f32) (x6 : Vec F S1x1x128 .f32) (x7 : Vec F S1x1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (out1_8 x0 x1 x2 x3 x4 x5 x6 x7)) -∗ K ⟨⟩))
      ⊢ wp frame (wpE (defs₀ (F := F)) Variants.none c none) E (cc1__film_kernel i arg0 harg0 arg1 harg1 arg2 harg2 arg3 harg3 arg4 harg4 arg5 harg5 arg6 harg6 arg7 harg7 arg8 harg8) K := by
  simp only [cc1__film_kernel_eq_skeleton]; unfold cc1__film_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  try dsimp only
  exact View.read_writes_eq_canon _ _ _ (cover1_8 _)

/-! ## The pipeline's proof data -/

/-- The proof data of this pipeline on core `c`: the arrays as the region finds them; after the body at grid point `t`
    each input's staging buffer at the input's block there and the output's at `out1_8` of the input blocks; the
    invariant is the scoped rest and the generator register, untouched; nothing is owed to another core. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => out1_8 (iblk1 V c 0 t) (iblk1 V c 1 t) (iblk1 V c 2 t) (iblk1 V c 3 t) (iblk1 V c 4 t) (iblk1 V c 5 t) (iblk1 V c 6 t) (iblk1 V c 7 t)
  Φ _ := Pipeline.ΦA spec1 c
  q w := match w with
    | ⟨0, _⟩ => fullShare.left
    | ⟨1, _⟩ => fullShare.right
    | _ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = out1_8 (iblk1 V c 0 t) (iblk1 V c 1 t) (iblk1 V c 2 t) (iblk1 V c 3 t) (iblk1 V c 4 t) (iblk1 V c 5 t) (iblk1 V c 6 t) (iblk1 V c 7 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

/-! ## The body obligation at a generic grid point -/

/-- What the pipeline hands the body at point `t`: the invariant, the core's dues, and each window's current staging buffer. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

/-- and what the body gives back. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

/-- The body at any grid point: each input's staging buffer holds the input's block there, so the body's triple applies; the
    invariant and the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel1 c Set.univ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body obligation of the pipeline, at every grid point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Fold.lean ====
/-
  The buffer contents of one TensorCore at each boundary between the items of the program — the node-projection region,
  thirteen host operations (the conditioning projection, its two halves as scale and shift rows, the two slices of the
  FiLM weight), the pairwise FiLM region, and the final reshape — as a fold from the launch memory: a region changes
  only its output array (to what its write-backs leave: the proof data's array after the last grid point), a host
  stretch changes what its operations write.
-/
import proofs.«179063_j79517024518197_1_alg».proof.Proof.KI.Body0
import proofs.«179063_j79517024518197_1_alg».proof.Proof.KI.Body1
import proofs.«179063_j79517024518197_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Core `c`'s buffers at launch: what the node-projection region is entered from. -/
abbrev W0 : Dev nD → Valuation τ sig (Elt F) := fun c b => (s₀ m ρ).mem ((c : Dev nD), b)
/-- The same read at the TensorCore's references. -/
abbrev V0 : (c : Dev nD) → (b : Ref sig .tc) → Buf (Elt F) ((c : Thread nD τ).loc b) := fun c b => W0 m ρ c b

/-- After the node-projection region: its output array (the projection `h`) at what the write-backs leave, every other
    buffer as launched. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b

/-- After the thirteen host operations: what the pairwise FiLM region is entered from. -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b

/-- After the pairwise FiLM region: its output array at what the write-backs leave, every other buffer as entered (two of
    its input windows read one array, the projection, which like every input array it leaves as it found it). -/
def W3 (c : Dev nD) : Valuation τ sig (Elt F) :=
  Function.update (W2 m ρ c) (Proc.devRef .tc (Pipeline.arrRef spec1 8)) ((dat1 (V2 m ρ) c).arrAt 8 cfg1.N)
theorem W3_out (c : Dev nD) :
    W3 m ρ c (Proc.devRef .tc (Pipeline.arrRef spec1 8)) = (dat1 (V2 m ρ) c).arrAt 8 cfg1.N := by
  unfold W3; exact Function.update_self _ _ _
theorem W3_of_ne (c : Dev nD) (b : Ref sig .tc) (hb : b ≠ Pipeline.arrRef spec1 8) :
    W3 m ρ c (Proc.devRef .tc b) = W2 m ρ c (Proc.devRef .tc b) := by
  unfold W3; exact Function.update_of_ne (StableHlo.devRef_ne_of_ne hb) _ _
abbrev V3 : (c : Dev nD) → (b : Ref sig .tc) → Buf (Elt F) ((c : Thread nD τ).loc b) := fun c b => W3 m ρ c b

/-- After the final reshape: the contents the program ends with. -/
abbrev W4 : Dev nD → Valuation τ sig (Elt F) := fun c => StableHlo.after hostOps2 (W3 m ρ c)

end Cert.KernelIdeal.Hand

end
-- ==== Proof.KI.Shared1.lean ====
/-
  The pairwise FiLM region hands ONE array, the projection `h`, to two input windows (the row tile and the whole graph).
  The region therefore holds that array's share in two halves, one per window, and every other array whole. Here: a core's
  unscoped buffers split into the region's arrays (the shared one dealt in halves) and the rest, at the region's entry;
  and put back together at its exit, where the two halves — both still at the entry contents, since inputs are only read —
  rejoin into the full share and the output array holds what the write-backs left.
-/
import proofs.«179063_j79517024518197_1_alg».proof.Proof.KI.Body1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The region's arrays at contents `G` are the DISTINCT buffers behind them, each whole at the full share, at any
    valuation `V₀` that `G` is read off: every window's array is a whole buffer; the eight buffers are listed; every
    window but the two on the projection holds its buffer at the full share, and those two hold the left and the right
    half of the full share of one buffer at one contents, which is that buffer at the full share. -/
theorem arrays1_eq_arrBufs (c : Dev nD) (G : (w : Fin cfg1.W) → Buf (Elt F) ((cfg1.win w).arr.view.loc (c : Thread nD τ)))
    (V₀ : (b : Ref sig .tc) → Buf (Elt F) ((c : Thread nD τ).loc b)) (hG : ∀ w, G w = V₀ (Pipeline.arrRef spec1 w)) :
    ((dat1 V c).arrays G : sProp 𝕄) = Pipeline.arrBufs (Ix := Unit) (Name := ℕ) (U := UR sig nD τ) (Lvl := ℕ) spec1 c V₀ := by
  -- window by window: the array's element set is the whole buffer, its contents those of `V₀`
  have h1 : ((dat1 V c).arrays G : sProp 𝕄) = bigSep Finset.univ fun w : Fin 9 =>
      (((c : Thread nD τ).loc (Pipeline.arrRef spec1 w)) ↦{(dat1 V c).share w} V₀ (Pipeline.arrRef spec1 w) : sProp 𝕄) := by
    unfold Dat.arrays
    exact bigSep_congr fun w _ => by rw [(arr_whole1 w).set_eq_univ, hG w]
  -- the nine windows name eight buffers
  have h2 : (Pipeline.arrBufs (Ix := Unit) (Name := ℕ) (U := UR sig nD τ) (Lvl := ℕ) spec1 c V₀ : sProp 𝕄)
      = bigSepL [main_v0, main_arg2, main_v11, main_v12, main_arg8, main_v9, main_v10, main_v13] (fun b => ((c : Thread nD τ).loc b) ↦{fullShare} V₀ b) := by
    unfold Pipeline.arrBufs
    exact bigSep_eq_bigSepL_of_eq [main_v0, main_arg2, main_v11, main_v12, main_arg8, main_v9, main_v10, main_v13] (by decide) (by decide) _
  rw [h1, h2, bigSep_W1]
  -- the full share is its left half composed with its right half
  have hs := pointsTo_share (Ix := Unit) (Name := ℕ) (U := UR sig nD τ) (Lvl := ℕ) (ℓ := (c : Thread nD τ).loc main_v0) (I := Finset.univ) (f := V₀ main_v0)
    (PosShare.mem_left_op_right fullShare)
  exact equiv_iff.mp ⟨sep_assoc.2.trans (sep_mono hs.2 .rfl), (sep_mono hs.1 .rfl).trans sep_assoc.1⟩

/-- ENTRY. A core's unscoped buffers at contents `V c` are the region's arrays at the proof data's entry contents — the
    projection's share dealt in halves to the two windows on it — and the unscoped buffers that are no window's array. -/
theorem arrays1_of_unscopedBufs (c : Dev nD) :
    (unscopedBufs c (V c) : sProp 𝕄)
      ⊢ iprop((dat1 V c).arrays ((dat1 V c).arrAt · 0) ∗ Pipeline.unscopedRest (Ix := Unit) (Name := ℕ) (U := UR sig nD τ) (Lvl := ℕ) spec1 c (V c)) := by
  -- the unscoped buffers are the buffers behind the arrays and the rest; the entry contents are those of `V c` by definition
  rw [Pipeline.unscopedBufs_split₀ cfgs 1 winFacts₀1.arr_unscoped c (V c), arrays1_eq_arrBufs V c ((dat1 V c).arrAt · 0) (V c) fun w => rfl]
  exact .rfl

/-- EXIT. The region's arrays at their final contents and the rest at `V c` are the core's unscoped buffers at any contents
    `V'` that has the output array at what the write-backs left and agrees with `V c` everywhere else: the two halves of the
    projection's share, both at the entry contents, rejoin. -/
theorem unscopedBufs_of_arrays1 (c : Dev nD) (V' : (b : Ref sig .tc) → Buf (Elt F) ((c : Thread nD τ).loc b))
    (hout : V' (Pipeline.arrRef spec1 8) = (dat1 V c).arrAt 8 cfg1.N)
    (hrest : ∀ b, b ≠ Pipeline.arrRef spec1 8 → V' b = V c b) :
    iprop((dat1 V c).arrays ((dat1 V c).arrAt · cfg1.N) ∗ Pipeline.unscopedRest (Ix := Unit) (Name := ℕ) (U := UR sig nD τ) (Lvl := ℕ) spec1 c (V c))
      ⊢ (unscopedBufs c V' : sProp 𝕄) := by
  -- every window but the last is an input, on an array other than the output's
  have hin : ∀ w : Fin 9, w ≠ 8 → (cfg1.win w).isOut = false ∧ Pipeline.arrRef spec1 w ≠ Pipeline.arrRef spec1 8 := by decide
  -- so its array is never written and `V'` has it at the contents `V c` has; the output array is at what `V'` has by `hout`
  have hG : ∀ w : Fin cfg1.W, (dat1 V c).arrAt w cfg1.N = V' (Pipeline.arrRef spec1 w) := fun w => by
    by_cases hw : w = 8
    · subst hw; exact hout.symm
    · exact ((dat1 V c).arrAt_in w (hin w hw).1 _).trans (hrest _ (hin w hw).2).symm
  rw [Pipeline.unscopedBufs_split₀ cfgs 1 winFacts₀1.arr_unscoped c V', arrays1_eq_arrBufs V c ((dat1 V c).arrAt · cfg1.N) V' hG]
  -- the rest is no window's array, the output's least of all: `V'` agrees with `V c` there
  refine sep_mono .rfl (Entails.of_eq ?_)
  unfold Pipeline.unscopedRest
  exact bigSep_congr fun b hb => by
    rw [hrest b fun e => (Finset.mem_sdiff.mp hb).2 (e ▸ Finset.mem_image_of_mem _ (Finset.mem_univ 8))]

end Cert.KernelIdeal.Hand

end
-- ==== Proof.KI.Run.lean ====
/-
  The run of the whole program on one TensorCore: the node-projection region, the host operations, the pairwise FiLM region
  and the final reshape, as four segments whose thread states chain — between two items the core holds every unscoped
  buffer at the fold's contents, its generator register at some state, and owes nothing. Every weakly fair execution
  terminates without fault with every unscoped buffer at the fold's last contents; the nine argument arrays end as launched
  because no host operation writes one and a region only reads them.
-/
import proofs.«179063_j79517024518197_1_alg».proof.Proof.KI.Fold
import proofs.«179063_j79517024518197_1_alg».proof.Proof.KI.Shared1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The node-projection region's exit contents -/

theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-! ## The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_writes_sub hostOps2 _ hostOps2_writes (by decide)
    _ = W2 m ρ c (Proc.devRef .tc main_arg0) := W3_of_ne m ρ c main_arg0 (by decide)
    _ = W1 m ρ c (Proc.devRef .tc main_arg0) := StableHlo.after_of_writes_sub hostOps1 _ hostOps1_writes (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_writes_sub hostOps2 _ hostOps2_writes (by decide)
    _ = W2 m ρ c (Proc.devRef .tc main_arg1) := W3_of_ne m ρ c main_arg1 (by decide)
    _ = W1 m ρ c (Proc.devRef .tc main_arg1) := StableHlo.after_of_writes_sub hostOps1 _ hostOps1_writes (by decide)
    _ = W0 m ρ c (Proc.devRef .tc main_arg1) := W1_of_ne m ρ c main_arg1 (by decide)
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := StableHlo.after_of_writes_sub hostOps2 _ hostOps2_writes (by decide)
    _ = W2 m ρ c (Proc.devRef .tc main_arg2) := W3_of_ne m ρ c main_arg2 (by decide)
    _ = W1 m ρ c (Proc.devRef .tc main_arg2) := StableHlo.after_of_writes_sub hostOps1 _ hostOps1_writes (by decide)
    _ = W0 m ρ c (Proc.devRef .tc main_arg2) := W1_of_ne m ρ c main_arg2 (by decide)
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := StableHlo.after_of_writes_sub hostOps2 _ hostOps2_writes (by decide)
    _ = W2 m ρ c (Proc.devRef .tc main_arg3) := W3_of_ne m ρ c main_arg3 (by decide)
    _ = W1 m ρ c (Proc.devRef .tc main_arg3) := StableHlo.after_of_writes_sub hostOps1 _ hostOps1_writes (by decide)
    _ = W0 m ρ c (Proc.devRef .tc main_arg3) := (W1_arr m ρ c 1).trans (((dat0 (V0 m ρ) c).arrAt_in 1 rfl _).trans (A_eq0 (V0 m ρ) c 1))
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := StableHlo.after_of_writes_sub hostOps2 _ hostOps2_writes (by decide)
    _ = W2 m ρ c (Proc.devRef .tc main_arg4) := W3_of_ne m ρ c main_arg4 (by decide)
    _ = W1 m ρ c (Proc.devRef .tc main_arg4) := StableHlo.after_of_writes_sub hostOps1 _ hostOps1_writes (by decide)
    _ = W0 m ρ c (Proc.devRef .tc main_arg4) := (W1_arr m ρ c 2).trans (((dat0 (V0 m ρ) c).arrAt_in 2 rfl _).trans (A_eq0 (V0 m ρ) c 2))
    _ = m ((c : Thread nD τ).loc main_arg4) := rfl
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := StableHlo.after_of_writes_sub hostOps2 _ hostOps2_writes (by decide)
    _ = W2 m ρ c (Proc.devRef .tc main_arg5) := W3_of_ne m ρ c main_arg5 (by decide)
    _ = W1 m ρ c (Proc.devRef .tc main_arg5) := StableHlo.after_of_writes_sub hostOps1 _ hostOps1_writes (by decide)
    _ = W0 m ρ c (Proc.devRef .tc main_arg5) := W1_of_ne m ρ c main_arg5 (by decide)
    _ = m ((c : Thread nD τ).loc main_arg5) := rfl
theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := StableHlo.after_of_writes_sub hostOps2 _ hostOps2_writes (by decide)
    _ = W2 m ρ c (Proc.devRef .tc main_arg6) := W3_of_ne m ρ c main_arg6 (by decide)
    _ = W1 m ρ c (Proc.devRef .tc main_arg6) := StableHlo.after_of_writes_sub hostOps1 _ hostOps1_writes (by decide)
    _ = W0 m ρ c (Proc.devRef .tc main_arg6) := W1_of_ne m ρ c main_arg6 (by decide)
    _ = m ((c : Thread nD τ).loc main_arg6) := rfl
theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := StableHlo.after_of_writes_sub hostOps2 _ hostOps2_writes (by decide)
    _ = W2 m ρ c (Proc.devRef .tc main_arg7) := W3_of_ne m ρ c main_arg7 (by decide)
    _ = W1 m ρ c (Proc.devRef .tc main_arg7) := StableHlo.after_of_writes_sub hostOps1 _ hostOps1_writes (by decide)
    _ = W0 m ρ c (Proc.devRef .tc main_arg7) := W1_of_ne m ρ c main_arg7 (by decide)
    _ = m ((c : Thread nD τ).loc main_arg7) := rfl
theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := StableHlo.after_of_writes_sub hostOps2 _ hostOps2_writes (by decide)
    _ = W2 m ρ c (Proc.devRef .tc main_arg8) := W3_of_ne m ρ c main_arg8 (by decide)
    _ = W1 m ρ c (Proc.devRef .tc main_arg8) := StableHlo.after_of_writes_sub hostOps1 _ hostOps1_writes (by decide)
    _ = W0 m ρ c (Proc.devRef .tc main_arg8) := W1_of_ne m ρ c main_arg8 (by decide)
    _ = m ((c : Thread nD τ).loc main_arg8) := rfl

/-! ## The proof data family and the thread state -/

/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the fold's last contents, the generator register. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The node-projection region: entered from every unscoped buffer at the launch contents, left with its output array at
    what its write-backs leave. Its four arrays are distinct buffers, split out of the unscoped buffers and put back. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The pairwise FiLM region: entered from every unscoped buffer at the contents after the host operations, left with its
    output array at what its write-backs leave. Two of its windows read one array, whose share is dealt in halves at the
    entry and rejoined at the exit. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := arrays1_of_unscopedBufs (F := F) (V2 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := unscopedBufs_of_arrays1 (F := F) (V2 m ρ) c (V3 m ρ c) (W3_out m ρ c) (fun b hb => W3_of_ne m ρ c b hb)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## The program as segments, and its run -/

/-- The program's four segments in order. -/
abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)) ]
/-- The program IS the run of its segments. -/
theorem main_run (c : Dev nD) : main (F := F) c = Pipeline.Seg.run (segs m ρ) := (main_chain c).trans (by chain_rfl)

set_option backward.isDefEq.respectTransparency.types false in
/-- THE RUN, at any float family: from any memory with zero counters, every weakly fair execution of the program on the
    TensorCores terminates, nothing faulting, and every final memory holds each unscoped buffer at the fold's last contents. -/
theorem run_all : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = W4 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (StableHlo.after hostOps2 (W3 m ρ c)) ∗ R c)
        ⊢ iprop(Tₙ m ρ c ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c b hb => h c _ (mem_uc b hb))

/-- THE FRAME, at any float family: the program terminates without fault and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c main_arg0 (by decide)).trans (W4_main_arg0 m ρ c),
    (h c main_arg1 (by decide)).trans (W4_main_arg1 m ρ c),
    (h c main_arg2 (by decide)).trans (W4_main_arg2 m ρ c),
    (h c main_arg3 (by decide)).trans (W4_main_arg3 m ρ c),
    (h c main_arg4 (by decide)).trans (W4_main_arg4 m ρ c),
    (h c main_arg5 (by decide)).trans (W4_main_arg5 m ρ c),
    (h c main_arg6 (by decide)).trans (W4_main_arg6 m ρ c),
    (h c main_arg7 (by decide)).trans (W4_main_arg7 m ρ c),
    (h c main_arg8 (by decide)).trans (W4_main_arg8 m ρ c)⟩)
    (run_all m ρ)

end Cert.KernelIdeal.Hand

end
-- ==== Proof.Spec.lean ====
/-
  The mathematics both programs compute, as one function of the nine argument arrays.

  With B = 16 graphs, N = 160 nodes, node and conditioning width 1024, edge width E = 128 and 8 spatial
  features per ordered pair of nodes:
    h[b,n,e]   = max (Σ_d x[b,n,d] · Wp[d,e] + bp[e]) 0                          (node projection and ReLU)
    gb[b,k]    = Σ_d c[b,d] · Wc[d,k] + bc[k]        γ[b,e] = gb[b,e] + 1     β[b,e] = gb[b,128+e]
    y[b,i,j,o] = (Σ_{k<128} (h[b,i,k]·h[b,j,k]) · Wf[k,o] + Σ_{k<8} s[b,i,j,k] · Wf[128+k,o]) + bf[o]
    μ = (Σ_o y) / 128     d = y − μ     v = (Σ_o d·d) / 128
    out[b,i,j,o] = max (γ[b,o] · (d[o] · rsqrt (v + ε)) + β[b,o]) 0
  and the result is out laid out row-major as a 409600 × 128 matrix (row = (b·160 + i)·160 + j).
  Everything is on the extended reals; the float literals 128, ε, 1 and 0 stay the binary words the programs print.
-/
import Idealize.ShloMosaic.PureOps.Ideal
import Idealize.ShloMosaic.Lib.ValueIdx

noncomputable section

namespace Cert.FilmSpec

open Idealize.ShloMosaic Idealize.ShloMosaic.ValueIdx

/-- The literals the two programs share, as the words they print. -/
abbrev c128 : EReal := Ideal.ofBits .f32 0x43000000#32
abbrev cEps : EReal := Ideal.ofBits .f32 0x3727C5AC#32
abbrev cOne : EReal := Ideal.ofBits .f32 0x3F800000#32
abbrev cZero : EReal := Ideal.ofBits .f32 0x00000000#32

abbrev Arr1 (a : Nat) : Type := (⟨1, ![a]⟩ : Shape).Idx → EReal
abbrev Arr2 (a b : Nat) : Type := (⟨2, ![a, b]⟩ : Shape).Idx → EReal
abbrev Arr3 (a b c : Nat) : Type := (⟨3, ![a, b, c]⟩ : Shape).Idx → EReal
abbrev Arr4 (a b c d : Nat) : Type := (⟨4, ![a, b, c, d]⟩ : Shape).Idx → EReal

/-- The node projection with its ReLU: one row of `x` against the columns of `Wp`, plus the bias, clipped at zero. -/
def hproj (x : Arr3 16 160 1024) (Wp : Arr2 1024 128) (bp : Arr1 128) (b : Fin 16) (n : Fin 160) (e : Fin 128) : EReal :=
  max ((∑ d : Fin 1024, x (ix3 b n d) * Wp (ix2 d e)) + bp (ix1 e)) cZero

/-- The conditioning projection: 256 numbers per graph, the first 128 the scale (before its +1), the last 128 the shift. -/
def gb (c : Arr2 16 1024) (Wc : Arr2 1024 256) (bc : Arr1 256) (b : Fin 16) (k : Fin 256) : EReal :=
  (∑ d : Fin 1024, c (ix2 b d) * Wc (ix2 d k)) + bc (ix1 k)

def gamma (c : Arr2 16 1024) (Wc : Arr2 1024 256) (bc : Arr1 256) (b : Fin 16) (e : Fin 128) : EReal :=
  gb c Wc bc b ⟨e.val, by omega⟩ + cOne

def beta (c : Arr2 16 1024) (Wc : Arr2 1024 256) (bc : Arr1 256) (b : Fin 16) (e : Fin 128) : EReal :=
  gb c Wc bc b ⟨128 + e.val, by omega⟩

/-- The FiLM linear layer before normalisation at the pair (i, j) of graph b: the pairwise product of the two nodes'
    projections against the first 128 rows of `Wf`, the pair's 8 spatial features against its last 8 rows, the bias. -/
def lin (h : Fin 16 → Fin 160 → Fin 128 → EReal) (s : Arr4 16 160 160 8) (Wf : Arr2 136 128) (bf : Arr1 128)
    (b : Fin 16) (i j : Fin 160) (o : Fin 128) : EReal :=
  ((∑ k : Fin 128, (h b i k * h b j k) * Wf (ix2 (⟨k.val, by omega⟩ : Fin 136) o))
    + (∑ k : Fin 8, s (ix4 b i j k) * Wf (ix2 (⟨128 + k.val, by omega⟩ : Fin 136) o))) + bf (ix1 o)

/-- Layer normalisation without affine part over 128 numbers, then scale, shift and ReLU at position o. -/
def normFilm (y : Fin 128 → EReal) (g bt : Fin 128 → EReal) (o : Fin 128) : EReal :=
  let mu : EReal := Ideal.div (∑ p : Fin 128, y p) c128
  let var : EReal := Ideal.div (∑ p : Fin 128, (y p - mu) * (y p - mu)) c128
  max (g o * ((y o - mu) * Ideal.rsqrt (var + cEps)) + bt o) cZero

/-- The whole layer at one pair of one graph. -/
def out4 (x : Arr3 16 160 1024) (c : Arr2 16 1024) (s : Arr4 16 160 160 8) (Wp : Arr2 1024 128) (bp : Arr1 128)
    (Wc : Arr2 1024 256) (bc : Arr1 256) (Wf : Arr2 136 128) (bf : Arr1 128)
    (b : Fin 16) (i j : Fin 160) (o : Fin 128) : EReal :=
  normFilm (lin (hproj x Wp bp) s Wf bf b i j) (gamma c Wc bc b) (beta c Wc bc b) o

/-- The result matrix: row r = (b·160 + i)·160 + j holds the 128 outputs of pair (i, j) of graph b. -/
def G (x : Arr3 16 160 1024) (c : Arr2 16 1024) (s : Arr4 16 160 160 8) (Wp : Arr2 1024 128) (bp : Arr1 128)
    (Wc : Arr2 1024 256) (bc : Arr1 256) (Wf : Arr2 136 128) (bf : Arr1 128) : Arr2 409600 128 := fun idx =>
  out4 x c s Wp bp Wc bc Wf bf
    ⟨(idx 0).val / 25600, by have := idx2_lt0 idx; omega⟩
    ⟨(idx 0).val / 160 % 160, Nat.mod_lt _ (by decide)⟩
    ⟨(idx 0).val % 160, Nat.mod_lt _ (by decide)⟩
    (idx 1)

end Cert.FilmSpec

end
-- ==== Proof.SpecK.lean ====
/-
  The same mathematics as the specification, cut where the kernel cuts it: the node projection as a whole array, and the
  pairwise FiLM layer as a function of that array, the spatial features, the two slices of the FiLM weight (its first 128
  rows and its last 8), the bias, and the per-graph scale and shift rows (shape 16 × 1 × 128).
-/
import proofs.«179063_j79517024518197_1_alg».proof.Proof.Spec

noncomputable section

namespace Cert.FilmSpec

open Idealize.ShloMosaic Idealize.ShloMosaic.ValueIdx

/-- The projected node features as one array: entry (b, n, e) is `hproj` there. -/
def Hfun (x : Arr3 16 160 1024) (Wp : Arr2 1024 128) (bp : Arr1 128) : Arr3 16 160 128 :=
  fun idx => hproj x Wp bp (idx 0) (idx 1) (idx 2)

/-- The FiLM linear layer at pair (i, j) of graph b over the projection array and the two weight slices: the pairwise
    product against the 128 × 128 slice, the 8 spatial features against the 8 × 128 slice, the bias. -/
def linK (h : Arr3 16 160 128) (s : Arr4 16 160 160 8) (wf1 : Arr2 128 128) (wf2 : Arr2 8 128) (bf : Arr1 128)
    (b : Fin 16) (i j : Fin 160) (o : Fin 128) : EReal :=
  ((∑ k : Fin 128, (h (ix3 b i k) * h (ix3 b j k)) * wf1 (ix2 k o))
    + (∑ k : Fin 8, s (ix4 b i j k) * wf2 (ix2 k o))) + bf (ix1 o)

/-- The pairwise FiLM layer as one array over (b, i, j, o): normalise the linear layer's 128 numbers, scale by row b of
    `g`, shift by row b of `bt`, clip at zero. -/
def outK (h : Arr3 16 160 128) (s : Arr4 16 160 160 8) (wf1 : Arr2 128 128) (wf2 : Arr2 8 128) (bf : Arr1 128)
    (g bt : Arr3 16 1 128) : Arr4 16 160 160 128 :=
  fun idx => normFilm (linK h s wf1 wf2 bf (idx 0) (idx 1) (idx 2))
    (fun o => g (ix3 (idx 0) 0 o)) (fun o => bt (ix3 (idx 0) 0 o)) (idx 3)

/-- The first 128 rows of the FiLM weight. -/
def wfTop (Wf : Arr2 136 128) : Arr2 128 128 := fun idx => Wf (ix2 (⟨(idx 0).val, by have := idx2_lt0 idx; omega⟩ : Fin 136) (idx 1))
/-- Its last 8 rows. -/
def wfBot (Wf : Arr2 136 128) : Arr2 8 128 := fun idx => Wf (ix2 (⟨128 + (idx 0).val, by have := idx2_lt0 idx; omega⟩ : Fin 136) (idx 1))
/-- The scale rows, one per graph. -/
def gammaRow (c : Arr2 16 1024) (Wc : Arr2 1024 256) (bc : Arr1 256) : Arr3 16 1 128 := fun idx => gamma c Wc bc (idx 0) (idx 2)
/-- The shift rows. -/
def betaRow (c : Arr2 16 1024) (Wc : Arr2 1024 256) (bc : Arr1 256) : Arr3 16 1 128 := fun idx => beta c Wc bc (idx 0) (idx 2)

/-- Cutting the layer where the kernel cuts it changes nothing: with the projection as an array, the weight in its two
    slices and the scale and shift as rows, the pairwise layer at (b, i, j, o) is the specification's. -/
theorem outK_eq_out4 (x : Arr3 16 160 1024) (c : Arr2 16 1024) (s : Arr4 16 160 160 8) (Wp : Arr2 1024 128) (bp : Arr1 128)
    (Wc : Arr2 1024 256) (bc : Arr1 256) (Wf : Arr2 136 128) (bf : Arr1 128) (b : Fin 16) (i j : Fin 160) (o : Fin 128) :
    outK (Hfun x Wp bp) s (wfTop Wf) (wfBot Wf) bf (gammaRow c Wc bc) (betaRow c Wc bc) (ix4 b i j o)
      = out4 x c s Wp bp Wc bc Wf bf b i j o := by
  rfl

end Cert.FilmSpec

end
-- ==== Proof.KI.Val0.lean ====
/-
  What the node-projection region leaves in its output array, on the extended reals: grid point b writes back the block
  relu(x[b]·Wp + bp) — a matrix product into a zero accumulator, a row-broadcast bias, a clip at zero — and the sixteen
  blocks tile the array, so the array after the last point is the projection `Hfun` of the three argument arrays.
-/
import proofs.«179063_j79517024518197_1_alg».proof.Proof.KI.Body0
import proofs.«179063_j79517024518197_1_alg».proof.Proof.SpecK
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat Cfg Window)

/-! ## The body's arithmetic at one entry of the block -/

/-- The matrix product's left operand index at output entry `i` and contraction index `q`: the row is the output's row. -/
theorem lhs_proj_0 (i : S160x128.Idx) (q : dot_S160x1024_S1024x128_S160x128_1_0_0_1_n_n.contr.Idx) :
    (dot_S160x1024_S1024x128_S160x128_1_0_0_1_n_n.lhsIdx i q 0).val = (i 0).val := by
  unfold DotDims.lhsIdx
  rw [dif_neg (show ¬(0 : Fin S160x1024.rank) ∈ dot_S160x1024_S1024x128_S160x128_1_0_0_1_n_n.lhsBatch by decide), dif_pos (show (0 : Fin S160x1024.rank) ∈ dot_S160x1024_S1024x128_S160x128_1_0_0_1_n_n.lhsNonContracting by decide)]
  rfl
/-- … and its column is the contraction coordinate. -/
theorem lhs_proj_1 (i : S160x128.Idx) (q : dot_S160x1024_S1024x128_S160x128_1_0_0_1_n_n.contr.Idx) :
    (dot_S160x1024_S1024x128_S160x128_1_0_0_1_n_n.lhsIdx i q 1).val = (q ⟨0, by decide⟩).val :=
  dot_S160x1024_S1024x128_S160x128_1_0_0_1_n_n.lhsIdx_val_of_single rfl i q
/-- The right operand's row is the contraction coordinate … -/
theorem rhs_proj_0 (i : S160x128.Idx) (q : dot_S160x1024_S1024x128_S160x128_1_0_0_1_n_n.contr.Idx) :
    (dot_S160x1024_S1024x128_S160x128_1_0_0_1_n_n.rhsIdx i q 0).val = (q ⟨0, by decide⟩).val :=
  dot_S160x1024_S1024x128_S160x128_1_0_0_1_n_n.rhsIdx_val_of_single rfl i q
/-- … and its column is the output's column. -/
theorem rhs_proj_1 (i : S160x128.Idx) (q : dot_S160x1024_S1024x128_S160x128_1_0_0_1_n_n.contr.Idx) :
    (dot_S160x1024_S1024x128_S160x128_1_0_0_1_n_n.rhsIdx i q 1).val = (i 1).val := by
  unfold DotDims.rhsIdx
  rw [dif_neg (show ¬(1 : Fin S1024x128.rank) ∈ dot_S160x1024_S1024x128_S160x128_1_0_0_1_n_n.rhsBatch by decide), dif_pos (show (1 : Fin S1024x128.rank) ∈ dot_S160x1024_S1024x128_S160x128_1_0_0_1_n_n.rhsNonContracting by decide)]
  rfl

/-- The matrix product into the zero accumulator, at entry (n, e): the sum over the 1024 contraction coordinates of row n
    of the left operand against column e of the right. -/
theorem matmul_proj_apply (l : FVec Ideal S160x1024 .bf16) (r : FVec Ideal S1024x128 .bf16) (n : Fin 160) (e : Fin 128) :
    matmul dot_S160x1024_S1024x128_S160x128_1_0_0_1_n_n none l r (constant (F := Ideal) S160x128 .f32 0x00000000#32) (ix2 n e)
      = ∑ d : Fin 1024, l (ix2 n d) * r (ix2 d e) := by
  simp only [matmul]
  rw [Ideal.matmul_constant_zero_apply, ← Equiv.sum_comp (contrEquiv1 dot_S160x1024_S1024x128_S160x128_1_0_0_1_n_n 1024 rfl rfl).symm]
  refine Finset.sum_congr rfl fun k _ => ?_
  have hk := contrEquiv1_symm_val dot_S160x1024_S1024x128_S160x128_1_0_0_1_n_n 1024 rfl rfl k
  have el : dot_S160x1024_S1024x128_S160x128_1_0_0_1_n_n.lhsIdx (ix2 n e) ((contrEquiv1 dot_S160x1024_S1024x128_S160x128_1_0_0_1_n_n 1024 rfl rfl).symm k) = ix2 n k := funext fun a => Fin.ext (by
    match a with
    | ⟨0, _⟩ => exact lhs_proj_0 _ _
    | ⟨1, _⟩ => exact (lhs_proj_1 _ _).trans hk)
  have er : dot_S160x1024_S1024x128_S160x128_1_0_0_1_n_n.rhsIdx (ix2 n e) ((contrEquiv1 dot_S160x1024_S1024x128_S160x128_1_0_0_1_n_n 1024 rfl rfl).symm k) = ix2 k e := funext fun a => Fin.ext (by
    match a with
    | ⟨0, _⟩ => exact (rhs_proj_0 _ _).trans hk
    | ⟨1, _⟩ => exact rhs_proj_1 _ _)
  rw [el, er]

/-- The body's one stored value at entry (0, n, e) of the block: row n of the loaded node features against column e of the
    weight, plus the bias at e, clipped at zero. -/
theorem pay_apply (x0 : Vec Ideal S1x160x1024 .f32) (x1 : Vec Ideal S1024x128 .f32) (x2 : Vec Ideal S128 .f32)
    (n : Fin 160) (e : Fin 128) :
    k0_pay1 (F := Ideal) x0 x1 x2 (ix3 (0 : Fin 1) n e)
      = max ((∑ d : Fin 1024, x0 (ix3 (0 : Fin 1) n d) * x1 (ix2 d e)) + x2 (ix1 e)) Cert.FilmSpec.cZero := by
  unfold k0_pay1
  refine (shapeCast_ab_1ab_apply _ _ (0 : Fin 1) n e).trans ?_
  rw [maximumf_apply, addf_apply, broadcast_apply]
  refine congrArg₂ max (congrArg₂ (· + ·) ?_ ?_) rfl
  · refine (matmul_proj_apply _ _ n e).trans ?_
    refine Finset.sum_congr rfl fun d _ => ?_
    rw [truncf_apply, truncf_apply]
    exact congrArg (· * _) (shapeCast_1ab_ab_apply _ _ n d)
  · exact (broadcastTo_1b_ab_apply _ _ n e).trans (shapeCast_a_1a_apply _ _ (0 : Fin 1) e)

/-! ## What a grid point writes back -/

variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The four windows' block indices at grid point t: the node features and the output move along the graph axis with t,
    the weight and the bias stay at their one block. -/
theorem idx_facts0 : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 1) = 0
    ∧ win0_3.index t (0 : Fin 3) = t.val ∧ win0_3.index t (1 : Fin 3) = 0 ∧ win0_3.index t (2 : Fin 3) = 0 :=
  (by decide +kernel : ∀ t : Fin grid0.N, _)

/-- The body's stored value at entry (0, n, e), when its three loaded blocks are graph b's rows of the node features, the
    whole weight and the whole bias, is the projection at (b, n, e). -/
theorem pay_eq_Hfun (x0 : Vec Ideal S1x160x1024 .f32) (x1 : Vec Ideal S1024x128 .f32) (x2 : Vec Ideal S128 .f32)
    (A0 : Cert.FilmSpec.Arr3 16 160 1024) (A1 : Cert.FilmSpec.Arr2 1024 128) (A2 : Cert.FilmSpec.Arr1 128) (b : Fin 16)
    (h0 : ∀ (n : Fin 160) (d : Fin 1024), x0 (ix3 (0 : Fin 1) n d) = A0 (ix3 b n d))
    (h1 : ∀ (d : Fin 1024) (e : Fin 128), x1 (ix2 d e) = A1 (ix2 d e))
    (h2 : ∀ e : Fin 128, x2 (ix1 e) = A2 (ix1 e)) (n : Fin 160) (e : Fin 128) :
    k0_pay1 (F := Ideal) x0 x1 x2 (ix3 (0 : Fin 1) n e) = Cert.FilmSpec.Hfun A0 A1 A2 (ix3 b n e) := by
  rw [pay_apply]
  show _ = max ((∑ d : Fin 1024, A0 (ix3 b n d) * A1 (ix2 d e)) + A2 (ix1 e)) Cert.FilmSpec.cZero
  rw [h2 e]
  refine congrArg₂ max (congrArg₂ (· + ·) (Finset.sum_congr rfl fun d _ => ?_) rfl) rfl
  rw [h0 n d, h1 d e]

/-- The node-feature block at grid point t is graph t's rows of the array. -/
theorem xblk_apply (c : Dev nD) (t : Fin cfg0.N) (u : Fin 1) (n : Fin 160) (d : Fin 1024) (b : Fin 16) (hb : b.val = t.val) :
    (iblk0 V c 0 t : Vec Ideal S1x160x1024 .f32) (ix3 u n d) = (V c main_arg0 : S16x160x1024.Idx → EReal) (ix3 b n d) := by
  obtain ⟨e0, e1, e2, -⟩ := idx_facts0 t
  unfold iblk0
  rw [View.read_apply]
  show V c main_arg0 _ = V c main_arg0 _
  congr 1
  funext a
  apply Fin.ext
  match a with
  | ⟨0, _⟩ => show win0_0.index t (0 : Fin 3) * 1 + 1 * u.val = b.val; rw [e0, hb]; omega
  | ⟨1, _⟩ => show win0_0.index t (1 : Fin 3) * 160 + 1 * n.val = n.val; rw [e1]; omega
  | ⟨2, _⟩ => show win0_0.index t (2 : Fin 3) * 1024 + 1 * d.val = d.val; rw [e2]; omega

/-- The weight block at every grid point is the whole weight. -/
theorem wblk_apply (c : Dev nD) (t : Fin cfg0.N) (d : Fin 1024) (e : Fin 128) :
    (iblk0 V c 1 t : Vec Ideal S1024x128 .f32) (ix2 d e) = (V c main_arg3 : S1024x128.Idx → EReal) (ix2 d e) := by
  obtain ⟨-, -, -, e0, e1, -⟩ := idx_facts0 t
  unfold iblk0
  rw [View.read_apply]
  show V c main_arg3 _ = V c main_arg3 _
  congr 1
  funext a
  apply Fin.ext
  match a with
  | ⟨0, _⟩ => show win0_1.index t (0 : Fin 2) * 1024 + 1 * d.val = d.val; rw [e0]; omega
  | ⟨1, _⟩ => show win0_1.index t (1 : Fin 2) * 128 + 1 * e.val = e.val; rw [e1]; omega

/-- The bias block at every grid point is the whole bias. -/
theorem bblk_apply (c : Dev nD) (t : Fin cfg0.N) (e : Fin 128) :
    (iblk0 V c 2 t : Vec Ideal S128 .f32) (ix1 e) = (V c main_arg4 : S128.Idx → EReal) (ix1 e) := by
  obtain ⟨-, -, -, -, -, e0, -⟩ := idx_facts0 t
  unfold iblk0
  rw [View.read_apply]
  show V c main_arg4 _ = V c main_arg4 _
  congr 1
  funext a
  apply Fin.ext
  match a with
  | ⟨0, _⟩ => show win0_2.index t (0 : Fin 1) * 128 + 1 * e.val = e.val; rw [e0]; omega

/-- At grid point t the body's stored value at entry (u, n, e) of its block is the projection at (t, n, e). -/
theorem stored_at (c : Dev nD) (t : Fin cfg0.N) (b : Fin 16) (hb : b.val = t.val) (u : Fin 1) (n : Fin 160) (e : Fin 128) :
    k0_pay1 (F := Ideal) (iblk0 V c 0 t) (iblk0 V c 1 t) (iblk0 V c 2 t) (ix3 u n e)
      = Cert.FilmSpec.Hfun (V c main_arg0) (V c main_arg3) (V c main_arg4) (ix3 b n e) := by
  obtain rfl : u = 0 := Subsingleton.elim _ _
  exact pay_eq_Hfun (iblk0 V c 0 t) (iblk0 V c 1 t) (iblk0 V c 2 t) (V c main_arg0) (V c main_arg3) (V c main_arg4) b
    (fun n d => xblk_apply V c t 0 n d b hb) (fun d e => wblk_apply V c t d e) (fun e => bblk_apply V c t e) n e

/-- What grid point t writes back is its block of the projection array: the rows of graph t. -/
theorem flushed0_eq (c : Dev nD) (t : Fin cfg0.N) :
    (dat0 (F := Ideal) V c).flushed 3 t
      = ((cfg0.win 3).blk t).view.read (Elt Ideal) (Cert.FilmSpec.Hfun (V c main_arg0) (V c main_arg3) (V c main_arg4)) := by
  show (cfg0.win 3).cut (grid0.coords t) ((dat0 (F := Ideal) V c).after 3 t) = _
  rw [after0_3]
  unfold out0_3
  rw [View.canon_unit_zero hz3]
  simp only [View.ld_unit_zero (S := S1x160x1024) hz3, View.ld_unit_zero (S := S1024x128) hz2, View.ld_unit_zero (S := S128) hz1]
  funext j
  have hN : cfg0.N = 16 := N_0
  have ht : t.val < 16 := by have := t.isLt; omega
  obtain ⟨-, -, -, -, -, -, e0, e1, e2⟩ := idx_facts0 t
  obtain ⟨u, n, e, rfl⟩ : ∃ (u : Fin 1) (n : Fin 160) (e : Fin 128), j = (ix3 u n e : S1x160x128.Idx) := ⟨j 0, j 1, j 2, eq_ix3 j⟩
  refine (stored_at V c t ⟨t.val, ht⟩ rfl u n e).trans ?_
  rw [View.read_apply]
  show Cert.FilmSpec.Hfun (V c main_arg0) (V c main_arg3) (V c main_arg4) _ = Cert.FilmSpec.Hfun (V c main_arg0) (V c main_arg3) (V c main_arg4) _
  refine congrArg (Cert.FilmSpec.Hfun (V c main_arg0) (V c main_arg3) (V c main_arg4)) ?_
  funext a
  apply Fin.ext
  match a with
  | ⟨0, _⟩ => show t.val = win0_3.index t (0 : Fin 3) * 1 + 1 * u.val; rw [e0]; omega
  | ⟨1, _⟩ => show n.val = win0_3.index t (1 : Fin 3) * 160 + 1 * n.val; rw [e1]; omega
  | ⟨2, _⟩ => show e.val = win0_3.index t (2 : Fin 3) * 128 + 1 * e.val; rw [e2]; omega

/-! ## The sixteen blocks tile the array -/

/-- An entry of the output array is in grid point t's block when each coordinate is in the block's range on its axis. -/
theorem mem_blk0 (t : Fin cfg0.N) (i : S16x160x128.Idx) :
    i ∈ ((cfg0.win 3).blk t).view.set ↔ ∀ a : Fin 3, win0_3.index t a * S1x160x128.size a ≤ (i a).val ∧ (i a).val < win0_3.index t a * S1x160x128.size a + S1x160x128.size a := by
  show i ∈ ((View.whole main_v0).slice (win0_3.rect t)).set ↔ _
  rw [View.set_slice_whole, Rect.mem_set_unit]
  exact Iff.rfl

/-- Every entry (b, n, e) of the output array is in the block of the grid point b, which writes back. -/
theorem cover0 (i : S16x160x128.Idx) :
    ∃ t : Fin cfg0.N, (cfg0.win 3).flush t = true ∧ i ∈ ((cfg0.win 3).blk t).view.set := by
  have hN : cfg0.N = 16 := N_0
  have h0 : (i 0).val < 16 := (i 0).isLt
  have h1 : (i 1).val < 160 := (i 1).isLt
  have h2 : (i 2).val < 128 := (i 2).isLt
  obtain ⟨t, ht⟩ : ∃ t : Fin cfg0.N, t.val = (i 0).val := ⟨⟨(i 0).val, by omega⟩, rfl⟩
  obtain ⟨-, -, -, -, -, -, e0, e1, e2⟩ := idx_facts0 t
  refine ⟨t, flush0_3 t, ?_⟩
  rw [mem_blk0]
  intro a
  match a with
  | ⟨0, _⟩ => show win0_3.index t (0 : Fin 3) * 1 ≤ (i 0).val ∧ (i 0).val < win0_3.index t (0 : Fin 3) * 1 + 1; rw [e0]; omega
  | ⟨1, _⟩ => show win0_3.index t (1 : Fin 3) * 160 ≤ (i 1).val ∧ (i 1).val < win0_3.index t (1 : Fin 3) * 160 + 160; rw [e1]; omega
  | ⟨2, _⟩ => show win0_3.index t (2 : Fin 3) * 128 ≤ (i 2).val ∧ (i 2).val < win0_3.index t (2 : Fin 3) * 128 + 128; rw [e2]; omega

/-- The projection region's output array after its last grid point is the node projection of the arrays it was entered with. -/
theorem arr0_eq (c : Dev nD) :
    (dat0 (F := Ideal) V c).arrAt 3 cfg0.N = Cert.FilmSpec.Hfun (V c main_arg0) (V c main_arg3) (V c main_arg4) :=
  (dat0 (F := Ideal) V c).arrAt_eq_of_cover 3 (Cert.FilmSpec.Hfun (V c main_arg0) (V c main_arg3) (V c main_arg4))
    (fun t _ => flushed0_eq V c t) cover0

end Cert.KernelIdeal.HandValue

end
-- ==== Proof.KI.Val1Pay.lean ====
/-
  The arithmetic of the pairwise FiLM body at one entry, on the extended reals. From the loaded blocks — 40 projected rows
  x0, the graph's 160 projected rows x1, the 40 × 160 × 8 spatial block x2, the weight slices x3 (128 × 128) and x4 (8 × 128),
  the bias x5 and the scale and shift rows x6, x7 — the stored value at (p, j, o) is: the 128 numbers
  y[o'] = Σ_k (x0[p,k]·x1[j,k])·x3[k,o'] + Σ_k x2[p,j,k]·x4[k,o'] + x5[o'], normalised (mean and variance over o' by sums
  divided by 128, times rsqrt(var + ε)), scaled by x6, shifted by x7 and clipped at zero. The two matrix products are sums
  into a zero accumulator, the lane reductions plain sums, the reshapes (40·160 rows ↔ 40 × 160) row-major re-indexings.
-/
import proofs.«179063_j79517024518197_1_alg».proof.Proof.Gen.KernelIdeal.Skeleton
import proofs.«179063_j79517024518197_1_alg».proof.Proof.SpecK
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-! ## Layout operations of this body read at an index -/

section Layout
variable {α : Type}

/-- A 40 × 160 × c array cast to 6400 × c reads, at row r = 160·p + j, the operand at (p, j, ·). -/
theorem cast_pjc_rc {c : ℕ} (x : (⟨3, ![40, 160, c]⟩ : Shape).Idx → α)
    (h : (⟨3, ![40, 160, c]⟩ : Shape).ShapeCasts ⟨2, ![6400, c]⟩) (p : Fin 40) (j : Fin 160) (k : Fin c) (r : Fin 6400)
    (hr : r.val = p.val * 160 + j.val) : shapeCast ⟨2, ![6400, c]⟩ x h (ix2 r k) = x (ix3 p j k) :=
  shapeCast_apply x h _ _ (by
    rw [Shape.rowMajor_val_three, Shape.rowMajor_val_two]
    show (p.val * 160 + j.val) * c + k.val = r.val * c + k.val
    rw [hr])

/-- A 6400 × c array cast to 40 × 160 × c reads, at (p, j, ·), the operand's row r = 160·p + j. -/
theorem cast_rc_pjc {c : ℕ} (x : (⟨2, ![6400, c]⟩ : Shape).Idx → α)
    (h : (⟨2, ![6400, c]⟩ : Shape).ShapeCasts ⟨3, ![40, 160, c]⟩) (p : Fin 40) (j : Fin 160) (k : Fin c) (r : Fin 6400)
    (hr : r.val = p.val * 160 + j.val) : shapeCast ⟨3, ![40, 160, c]⟩ x h (ix3 p j k) = x (ix2 r k) :=
  shapeCast_apply x h _ _ (by
    rw [Shape.rowMajor_val_three, Shape.rowMajor_val_two]
    show r.val * c + k.val = (p.val * 160 + j.val) * c + k.val
    rw [hr])

/-- A length-a vector cast to a column a × 1 reads, at (r, ·), the operand at r. -/
theorem cast_a_a1 {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- An a × b array cast to a × 1 × b reads, at (p, ·, k), the operand at (p, k). -/
theorem cast_ab_a1b {a b : ℕ} (x : (⟨2, ![a, b]⟩ : Shape).Idx → α) (h : (⟨2, ![a, b]⟩ : Shape).ShapeCasts ⟨3, ![a, 1, b]⟩)
    (p : Fin a) (u : Fin 1) (k : Fin b) : shapeCast ⟨3, ![a, 1, b]⟩ x h (ix3 p u k) = x (ix2 p k) :=
  shapeCast_apply x h _ _ (by
    have hu : u.val = 0 := by omega
    rw [Shape.rowMajor_val_three, Shape.rowMajor_val_two]
    show p.val * b + k.val = (p.val * 1 + u.val) * b + k.val
    rw [hu, Nat.mul_one, Nat.add_zero])

/-- A cast between equal shapes reads the operand at the same index. -/
theorem cast_same {s : Shape} (x : s.Idx → α) (h : s.ShapeCasts s) (i : s.Idx) : shapeCast s x h i = x i :=
  shapeCast_apply x h i i rfl

/-- A column a × 1 broadcast to a × b reads, at (r, ·), the column's entry r. -/
theorem bcast_a1_ab {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- An a × 1 × c array broadcast to a × b × c reads, at (p, ·, k), the operand at (p, 0, k). -/
theorem bcast_a1c_abc {a b c : ℕ} (v : (⟨3, ![a, 1, c]⟩ : Shape).Idx → α)
    (h : (⟨3, ![a, 1, c]⟩ : Shape).Broadcasts ⟨3, ![a, b, c]⟩) (p : Fin a) (j : Fin b) (k : Fin c) :
    broadcastTo ⟨3, ![a, b, c]⟩ v h (ix3 p j k) = v (ix3 p (0 : Fin 1) k) := by
  refine broadcastTo_apply v h (ix3 p j k) (ix3 p (0 : Fin 1) k) fun ax => ?_
  match ax with
  | ⟨0, _⟩ =>
    show p.val = if a = 1 then 0 else p.val
    split
    · have := p.isLt; omega
    · rfl
  | ⟨1, _⟩ => rfl
  | ⟨2, _⟩ =>
    show k.val = if c = 1 then 0 else k.val
    split
    · have := k.isLt; omega
    · rfl

/-- A 1 × b × c array broadcast to a × b × c reads, at (·, j, k), the operand at (0, j, k). -/
theorem bcast_1bc_abc {a b c : ℕ} (v : (⟨3, ![1, b, c]⟩ : Shape).Idx → α)
    (h : (⟨3, ![1, b, c]⟩ : Shape).Broadcasts ⟨3, ![a, b, c]⟩) (p : Fin a) (j : Fin b) (k : Fin c) :
    broadcastTo ⟨3, ![a, b, c]⟩ v h (ix3 p j k) = v (ix3 (0 : Fin 1) j k) := by
  refine broadcastTo_apply v h (ix3 p j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

end Layout

/-! ## The two matrix products read at an index -/

section Products

theorem lhsA_0 (i : S6400x128.Idx) (q : dot_S6400x128_S128x128_S6400x128_1_0_0_1_n_n.contr.Idx) :
    (dot_S6400x128_S128x128_S6400x128_1_0_0_1_n_n.lhsIdx i q 0).val = (i 0).val := by
  unfold DotDims.lhsIdx
  rw [dif_neg (show ¬(0 : Fin S6400x128.rank) ∈ dot_S6400x128_S128x128_S6400x128_1_0_0_1_n_n.lhsBatch by decide), dif_pos (show (0 : Fin S6400x128.rank) ∈ dot_S6400x128_S128x128_S6400x128_1_0_0_1_n_n.lhsNonContracting by decide)]
  rfl
theorem lhsA_1 (i : S6400x128.Idx) (q : dot_S6400x128_S128x128_S6400x128_1_0_0_1_n_n.contr.Idx) :
    (dot_S6400x128_S128x128_S6400x128_1_0_0_1_n_n.lhsIdx i q 1).val = (q ⟨0, by decide⟩).val :=
  dot_S6400x128_S128x128_S6400x128_1_0_0_1_n_n.lhsIdx_val_of_single rfl i q
theorem rhsA_0 (i : S6400x128.Idx) (q : dot_S6400x128_S128x128_S6400x128_1_0_0_1_n_n.contr.Idx) :
    (dot_S6400x128_S128x128_S6400x128_1_0_0_1_n_n.rhsIdx i q 0).val = (q ⟨0, by decide⟩).val :=
  dot_S6400x128_S128x128_S6400x128_1_0_0_1_n_n.rhsIdx_val_of_single rfl i q
theorem rhsA_1 (i : S6400x128.Idx) (q : dot_S6400x128_S128x128_S6400x128_1_0_0_1_n_n.contr.Idx) :
    (dot_S6400x128_S128x128_S6400x128_1_0_0_1_n_n.rhsIdx i q 1).val = (i 1).val := by
  unfold DotDims.rhsIdx
  rw [dif_neg (show ¬(1 : Fin S128x128.rank) ∈ dot_S6400x128_S128x128_S6400x128_1_0_0_1_n_n.rhsBatch by decide), dif_pos (show (1 : Fin S128x128.rank) ∈ dot_S6400x128_S128x128_S6400x128_1_0_0_1_n_n.rhsNonContracting by decide)]
  rfl

/-- The 6400 × 128 by 128 × 128 product into a zero accumulator, at (r, o): the sum over the 128 contracted coordinates. -/
theorem prodA_apply (L : FVec Ideal S6400x128 .bf16) (R : FVec Ideal S128x128 .bf16) (r : Fin 6400) (o : Fin 128) :
    matmul dot_S6400x128_S128x128_S6400x128_1_0_0_1_n_n none L R (constant S6400x128 .f32 0x00000000#32) (ix2 r o)
      = ∑ k : Fin 128, L (ix2 r k) * R (ix2 k o) := by
  refine (Ideal.matmul_constant_zero_apply dot_S6400x128_S128x128_S6400x128_1_0_0_1_n_n none L R (ix2 r o)).trans ?_
  rw [← Equiv.sum_comp (contrEquiv1 dot_S6400x128_S128x128_S6400x128_1_0_0_1_n_n 128 rfl rfl).symm]
  refine Finset.sum_congr rfl fun k _ => ?_
  have hk := contrEquiv1_symm_val dot_S6400x128_S128x128_S6400x128_1_0_0_1_n_n 128 rfl rfl k
  have el : dot_S6400x128_S128x128_S6400x128_1_0_0_1_n_n.lhsIdx (ix2 r o) ((contrEquiv1 dot_S6400x128_S128x128_S6400x128_1_0_0_1_n_n 128 rfl rfl).symm k) = ix2 r k := funext fun a => Fin.ext (by
    match a with
    | ⟨0, _⟩ => exact lhsA_0 _ _
    | ⟨1, _⟩ => exact (lhsA_1 _ _).trans hk)
  have er : dot_S6400x128_S128x128_S6400x128_1_0_0_1_n_n.rhsIdx (ix2 r o) ((contrEquiv1 dot_S6400x128_S128x128_S6400x128_1_0_0_1_n_n 128 rfl rfl).symm k) = ix2 k o := funext fun a => Fin.ext (by
    match a with
    | ⟨0, _⟩ => exact (rhsA_0 _ _).trans hk
    | ⟨1, _⟩ => exact rhsA_1 _ _)
  rw [el, er]

theorem lhsB_0 (i : S6400x128.Idx) (q : dot_S6400x8_S8x128_S6400x128_1_0_0_1_n_n.contr.Idx) :
    (dot_S6400x8_S8x128_S6400x128_1_0_0_1_n_n.lhsIdx i q 0).val = (i 0).val := by
  unfold DotDims.lhsIdx
  rw [dif_neg (show ¬(0 : Fin S6400x8.rank) ∈ dot_S6400x8_S8x128_S6400x128_1_0_0_1_n_n.lhsBatch by decide), dif_pos (show (0 : Fin S6400x8.rank) ∈ dot_S6400x8_S8x128_S6400x128_1_0_0_1_n_n.lhsNonContracting by decide)]
  rfl
theorem lhsB_1 (i : S6400x128.Idx) (q : dot_S6400x8_S8x128_S6400x128_1_0_0_1_n_n.contr.Idx) :
    (dot_S6400x8_S8x128_S6400x128_1_0_0_1_n_n.lhsIdx i q 1).val = (q ⟨0, by decide⟩).val :=
  dot_S6400x8_S8x128_S6400x128_1_0_0_1_n_n.lhsIdx_val_of_single rfl i q
theorem rhsB_0 (i : S6400x128.Idx) (q : dot_S6400x8_S8x128_S6400x128_1_0_0_1_n_n.contr.Idx) :
    (dot_S6400x8_S8x128_S6400x128_1_0_0_1_n_n.rhsIdx i q 0).val = (q ⟨0, by decide⟩).val :=
  dot_S6400x8_S8x128_S6400x128_1_0_0_1_n_n.rhsIdx_val_of_single rfl i q
theorem rhsB_1 (i : S6400x128.Idx) (q : dot_S6400x8_S8x128_S6400x128_1_0_0_1_n_n.contr.Idx) :
    (dot_S6400x8_S8x128_S6400x128_1_0_0_1_n_n.rhsIdx i q 1).val = (i 1).val := by
  unfold DotDims.rhsIdx
  rw [dif_neg (show ¬(1 : Fin S8x128.rank) ∈ dot_S6400x8_S8x128_S6400x128_1_0_0_1_n_n.rhsBatch by decide), dif_pos (show (1 : Fin S8x128.rank) ∈ dot_S6400x8_S8x128_S6400x128_1_0_0_1_n_n.rhsNonContracting by decide)]
  rfl

/-- The 6400 × 8 by 8 × 128 product into a zero accumulator, at (r, o): the sum over the 8 contracted coordinates. -/
theorem prodB_apply (L : FVec Ideal S6400x8 .bf16) (R : FVec Ideal S8x128 .bf16) (r : Fin 6400) (o : Fin 128) :
    matmul dot_S6400x8_S8x128_S6400x128_1_0_0_1_n_n none L R (constant S6400x128 .f32 0x00000000#32) (ix2 r o)
      = ∑ k : Fin 8, L (ix2 r k) * R (ix2 k o) := by
  refine (Ideal.matmul_constant_zero_apply dot_S6400x8_S8x128_S6400x128_1_0_0_1_n_n none L R (ix2 r o)).trans ?_
  rw [← Equiv.sum_comp (contrEquiv1 dot_S6400x8_S8x128_S6400x128_1_0_0_1_n_n 8 rfl rfl).symm]
  refine Finset.sum_congr rfl fun k _ => ?_
  have hk := contrEquiv1_symm_val dot_S6400x8_S8x128_S6400x128_1_0_0_1_n_n 8 rfl rfl k
  have el : dot_S6400x8_S8x128_S6400x128_1_0_0_1_n_n.lhsIdx (ix2 r o) ((contrEquiv1 dot_S6400x8_S8x128_S6400x128_1_0_0_1_n_n 8 rfl rfl).symm k) = ix2 r k := funext fun a => Fin.ext (by
    match a with
    | ⟨0, _⟩ => exact lhsB_0 _ _
    | ⟨1, _⟩ => exact (lhsB_1 _ _).trans hk)
  have er : dot_S6400x8_S8x128_S6400x128_1_0_0_1_n_n.rhsIdx (ix2 r o) ((contrEquiv1 dot_S6400x8_S8x128_S6400x128_1_0_0_1_n_n 8 rfl rfl).symm k) = ix2 k o := funext fun a => Fin.ext (by
    match a with
    | ⟨0, _⟩ => exact (rhsB_0 _ _).trans hk
    | ⟨1, _⟩ => exact rhsB_1 _ _)
  rw [el, er]

end Products

/-! ## The lane sum read at a row -/

section LaneSum

/-- The source index over row r with lane o. -/
theorem lift_row (r : Fin 6400) (o : Fin 128) : reduces_S6400x128_S6400.lift (ix1 r) o = ix2 r o :=
  funext fun c => Fin.ext (by
    match c with
    | ⟨0, _⟩ => rfl
    | ⟨1, _⟩ => rfl)

/-- The sum over the 128 lanes of a 6400 × 128 array, at row r. -/
theorem lanesum_apply (src : FVec Ideal S6400x128 .f32) (r : Fin 6400) :
    multiReduction .add [1] S6400 src 0x00000000#32 reduces_S6400x128_S6400 (.inl rfl) rfl (ix1 r)
      = ∑ o : Fin 128, src (ix2 r o) :=
  (Ideal.multiReduction_add_single src 0x00000000#32 reduces_S6400x128_S6400 (.inl rfl) rfl (ix1 r)).trans
    (Finset.sum_congr rfl fun o _ => congrArg src (lift_row r o))

end LaneSum

/-! ## The linear layer: the payload before normalisation, read at row r = 160·p + j -/

section Linear

/-- The first product's left operand at (r, k): row p of the 40 projected rows times row j of the graph's 160. -/
theorem lhsA_val (x0 : FVec Ideal S1x40x128 .f32) (x1 : FVec Ideal S1x160x128 .f32) (p : Fin 40) (j : Fin 160) (k : Fin 128)
    (r : Fin 6400) (hr : r.val = p.val * 160 + j.val) :
    shapeCast S6400x128
        (mulf (F := Ideal) (φ := .f32)
          (broadcastTo S40x160x128 (shapeCast S40x1x128 (shapeCast S40x128 x0 shapeCasts_S1x40x128_S40x128) shapeCasts_S40x128_S40x1x128) broadcasts_S40x1x128_S40x160x128)
          (broadcastTo S40x160x128 (shapeCast S1x160x128 (shapeCast S160x128 x1 shapeCasts_S1x160x128_S160x128) shapeCasts_S160x128_S1x160x128) broadcasts_S1x160x128_S40x160x128))
        shapeCasts_S40x160x128_S6400x128 (ix2 r k)
      = x0 (ix3 0 p k) * x1 (ix3 0 j k) := by
  refine (cast_pjc_rc _ _ p j k r hr).trans ?_
  refine (mulf_apply _ _ _).trans (congrArg₂ (· * ·) ?_ ?_)
  · refine (bcast_a1c_abc _ _ p j k).trans ?_
    refine (cast_ab_a1b _ _ p 0 k).trans ?_
    exact shapeCast_1ab_ab_apply _ _ p k
  · refine (bcast_1bc_abc _ _ p j k).trans ?_
    refine (shapeCast_ab_1ab_apply _ _ 0 j k).trans ?_
    exact shapeCast_1ab_ab_apply _ _ j k

/-- The second product's left operand at (r, k): the spatial features of the pair (p, j). -/
theorem lhsB_val (x2 : FVec Ideal S1x40x160x8 .f32) (p : Fin 40) (j : Fin 160) (k : Fin 8) (r : Fin 6400)
    (hr : r.val = p.val * 160 + j.val) :
    shapeCast S6400x8 (shapeCast S40x160x8 x2 shapeCasts_S1x40x160x8_S40x160x8) shapeCasts_S40x160x8_S6400x8 (ix2 r k)
      = x2 (ix4 0 p j k) :=
  (cast_pjc_rc _ _ p j k r hr).trans (shapeCast_1abc_abc_apply _ _ p j k)

/-- The linear layer at row r = 160·p + j, lane o': the pairwise product against the 128 × 128 slice, the spatial features
    against the 8 × 128 slice, the bias. -/
theorem pay4_apply (x0 : Vec Ideal S1x40x128 .f32) (x1 : Vec Ideal S1x160x128 .f32) (x2 : Vec Ideal S1x40x160x8 .f32)
    (x3 : Vec Ideal S128x128 .f32) (x4 : Vec Ideal S8x128 .f32) (x5 : Vec Ideal S128 .f32)
    (p : Fin 40) (j : Fin 160) (o' : Fin 128) (r : Fin 6400) (hr : r.val = p.val * 160 + j.val) :
    k1_pay4 (F := Ideal) x0 x1 x2 x3 x4 x5 (ix2 r o')
      = ((∑ k : Fin 128, (x0 (ix3 0 p k) * x1 (ix3 0 j k)) * x3 (ix2 k o'))
          + (∑ k : Fin 8, x2 (ix4 0 p j k) * x4 (ix2 k o'))) + x5 (ix1 o') := by
  unfold k1_pay4
  refine (addf_apply _ _ _).trans (congrArg₂ (· + ·) ((addf_apply _ _ _).trans (congrArg₂ (· + ·) ?_ ?_)) ?_)
  · refine (prodA_apply _ _ r o').trans (Finset.sum_congr rfl fun k _ => congrArg₂ (· * ·) ?_ ?_)
    · exact lhsA_val x0 x1 p j k r hr
    · exact cast_same x3 _ (ix2 k o')
  · refine (prodB_apply _ _ r o').trans (Finset.sum_congr rfl fun k _ => congrArg₂ (· * ·) ?_ ?_)
    · exact lhsB_val x2 p j k r hr
    · exact cast_same x4 _ (ix2 k o')
  · exact (broadcastTo_1b_ab_apply _ _ r o').trans (shapeCast_a_1a_apply _ _ 0 o')

/-- The column of lane sums of the linear layer, at row r. -/
theorem pay5_apply (x0 : Vec Ideal S1x40x128 .f32) (x1 : Vec Ideal S1x160x128 .f32) (x2 : Vec Ideal S1x40x160x8 .f32)
    (x3 : Vec Ideal S128x128 .f32) (x4 : Vec Ideal S8x128 .f32) (x5 : Vec Ideal S128 .f32) (r : Fin 6400) (u : Fin 1) :
    k1_pay5 (F := Ideal) x0 x1 x2 x3 x4 x5 (ix2 r u) = ∑ o' : Fin 128, k1_pay4 (F := Ideal) x0 x1 x2 x3 x4 x5 (ix2 r o') := by
  unfold k1_pay5
  exact (cast_a_a1 _ _ r u).trans (lanesum_apply _ r)

end Linear

/-! ## The normalisation, scale, shift and clip: the stored payload over its four inputs -/

section Norm

open Cert.FilmSpec (c128 cEps cZero)

/-- A row's value less the row's lane sum divided by 128. -/
theorem centred_apply (y : FVec Ideal S6400x128 .f32) (s : FVec Ideal S6400x1 .f32) (r : Fin 6400) (o : Fin 128) :
    subf y (broadcastTo S6400x128 (divf s (broadcast S6400x1 (Scalar.ofBits .f32 0x43000000#32 : Ideal .f32)))
        broadcasts_S6400x1_S6400x128) (ix2 r o)
      = y (ix2 r o) - Ideal.div (s (ix2 r 0)) c128 :=
  (subf_apply _ _ _).trans (congrArg (y (ix2 r o) - ·) (bcast_a1_ab _ _ r o))

/-- The stored payload at (p, j, o) over the scale row g, the shift row bt, the linear layer y and its column of lane sums
    s, with r = 160·p + j: centre row r of y by s[r]/128, divide the lane sum of squares by 128, add ε, take the reciprocal
    square root, scale by g, shift by bt, clip at zero. -/
theorem pay1_core (g bt : FVec Ideal S1x128 .f32) (y : FVec Ideal S6400x128 .f32) (s : FVec Ideal S6400x1 .f32)
    (p : Fin 40) (j : Fin 160) (o : Fin 128) (r : Fin 6400) (hr : r.val = p.val * 160 + j.val) :
    k1_pay1 (F := Ideal) g bt y s (ix4 0 p j o)
      = max (g (ix2 0 o) * ((y (ix2 r o) - Ideal.div (s (ix2 r 0)) c128)
              * Ideal.rsqrt (Ideal.div (∑ o' : Fin 128, (y (ix2 r o') - Ideal.div (s (ix2 r 0)) c128)
                  * (y (ix2 r o') - Ideal.div (s (ix2 r 0)) c128)) c128 + cEps))
            + bt (ix2 0 o)) cZero := by
  unfold k1_pay1
  refine (shapeCast_abc_1abc_apply _ _ 0 p j o).trans ?_
  refine (cast_rc_pjc _ _ p j o r hr).trans ?_
  refine (maximumf_apply _ _ _).trans (congrArg (max · cZero) ?_)
  refine (addf_apply _ _ _).trans (congrArg₂ (· + ·) ?_ (broadcastTo_1b_ab_apply _ _ r o))
  refine (mulf_apply _ _ _).trans (congrArg₂ (· * ·) (broadcastTo_1b_ab_apply _ _ r o) ?_)
  refine (mulf_apply _ _ _).trans (congrArg₂ (· * ·) (centred_apply y s r o) ?_)
  refine (bcast_a1_ab _ _ r o).trans (congrArg Ideal.rsqrt ?_)
  refine (addf_apply _ _ _).trans (congrArg (· + cEps) ?_)
  refine (divf_apply _ _ _).trans (congrArg (Ideal.div · c128) ?_)
  refine (cast_a_a1 _ _ r 0).trans ?_
  refine (lanesum_apply _ r).trans (Finset.sum_congr rfl fun o' _ => ?_)
  exact (mulf_apply _ _ _).trans (congrArg₂ (· * ·) (centred_apply y s r o') (centred_apply y s r o'))

end Norm

/-- The stored value of the pairwise FiLM body at entry (p, j, o) of its 1 × 40 × 160 × 128 block. -/
theorem pay1_apply (x0 : Vec Ideal S1x40x128 .f32) (x1 : Vec Ideal S1x160x128 .f32) (x2 : Vec Ideal S1x40x160x8 .f32)
    (x3 : Vec Ideal S128x128 .f32) (x4 : Vec Ideal S8x128 .f32) (x5 : Vec Ideal S128 .f32) (x6 x7 : Vec Ideal S1x1x128 .f32)
    (p : Fin 40) (j : Fin 160) (o : Fin 128) :
    k1_pay1 (F := Ideal) (k1_pay2 x6) (k1_pay3 x7) (k1_pay4 x0 x1 x2 x3 x4 x5) (k1_pay5 x0 x1 x2 x3 x4 x5) (ix4 0 p j o)
      = Cert.FilmSpec.normFilm
          (fun o' => ((∑ k : Fin 128, (x0 (ix3 0 p k) * x1 (ix3 0 j k)) * x3 (ix2 k o'))
            + (∑ k : Fin 8, x2 (ix4 0 p j k) * x4 (ix2 k o'))) + x5 (ix1 o'))
          (fun o' => x6 (ix3 0 0 o')) (fun o' => x7 (ix3 0 0 o')) o := by
  obtain ⟨r, hr⟩ : ∃ r : Fin 6400, r.val = p.val * 160 + j.val :=
    ⟨⟨p.val * 160 + j.val, by have := p.isLt; have := j.isLt; omega⟩, rfl⟩
  have h4 : ∀ o' : Fin 128, k1_pay4 (F := Ideal) x0 x1 x2 x3 x4 x5 (ix2 r o')
      = ((∑ k : Fin 128, (x0 (ix3 0 p k) * x1 (ix3 0 j k)) * x3 (ix2 k o'))
          + (∑ k : Fin 8, x2 (ix4 0 p j k) * x4 (ix2 k o'))) + x5 (ix1 o') :=
    fun o' => pay4_apply x0 x1 x2 x3 x4 x5 p j o' r hr
  have h5 : k1_pay5 (F := Ideal) x0 x1 x2 x3 x4 x5 (ix2 r 0)
      = ∑ o' : Fin 128, (((∑ k : Fin 128, (x0 (ix3 0 p k) * x1 (ix3 0 j k)) * x3 (ix2 k o'))
          + (∑ k : Fin 8, x2 (ix4 0 p j k) * x4 (ix2 k o'))) + x5 (ix1 o')) :=
    (pay5_apply x0 x1 x2 x3 x4 x5 r 0).trans (Finset.sum_congr rfl fun o' _ => h4 o')
  have h2 : k1_pay2 (F := Ideal) x6 (ix2 0 o) = x6 (ix3 0 0 o) := by
    unfold k1_pay2; exact shapeCast_1ab_ab_apply _ _ 0 o
  have h3 : k1_pay3 (F := Ideal) x7 (ix2 0 o) = x7 (ix3 0 0 o) := by
    unfold k1_pay3; exact shapeCast_1ab_ab_apply _ _ 0 o
  refine (pay1_core _ _ _ _ p j o r hr).trans ?_
  rw [h2, h3, h5]
  simp only [h4]
  rfl

end Cert.KernelIdeal.HandValue

end
-- ==== Proof.KI.Val1.lean ====
/-
  What the pairwise FiLM region leaves in its output array, on the extended reals: grid point (b, it) writes back the
  1 × 40 × 160 × 128 block at graph b, first nodes 40·it … 40·it + 39, whose entry (p, j, o) is the body's arithmetic on the
  point's input blocks; each input block is the corresponding rectangle of its array (rows 40·it + p of graph b of the
  projection; all 160 rows of graph b; the spatial block; the whole weight slices and bias; row b of the scale and shift);
  the 64 blocks tile the array. So the array after the last point is `outK` of the arrays the region was entered with.

  The order of the argument: the block index of every window at point t = 4·b + it, decided once over the 64 points; each
  input block read at an entry as its array at (block index × block size + the entry's coordinate) per axis; one entry of
  one point's block over abstract blocks and arrays; the block a point writes back; the point whose block holds a given
  entry of the array (4·b + i / 40 for entry (b, i, j, o)); the array.
-/
import proofs.«179063_j79517024518197_1_alg».proof.Proof.KI.Body1
import proofs.«179063_j79517024518197_1_alg».proof.Proof.KI.Val1Pay
import proofs.«179063_j79517024518197_1_alg».proof.Proof.SpecK
import Idealize.ShloMosaic.Lib.Pipeline.Value
import Idealize.ShloMosaic.Lib.ValueIdx

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- Zero offsets, however many axes. -/
theorem zoff1 : (![0] : Fin 1 → Nat) = fun _ => 0 := funext fun a => by fin_cases a <;> rfl
theorem zoff2 : (![0, 0] : Fin 2 → Nat) = fun _ => 0 := funext fun a => by fin_cases a <;> rfl
theorem zoff3 : (![0, 0, 0] : Fin 3 → Nat) = fun _ => 0 := funext fun a => by fin_cases a <;> rfl
theorem zoff4 : (![0, 0, 0, 0] : Fin 4 → Nat) = fun _ => 0 := funext fun a => by fin_cases a <;> rfl

/-- Every window's block index at each of the 64 grid points: point t is graph t / 4, row tile t % 4. -/
theorem idx_facts1 : ∀ t : Fin cfg1.N,
    (win1_0.index t (0 : Fin 3) = t.val / 4 ∧ win1_0.index t (1 : Fin 3) = t.val % 4 ∧ win1_0.index t (2 : Fin 3) = 0)
    ∧ (win1_1.index t (0 : Fin 3) = t.val / 4 ∧ win1_1.index t (1 : Fin 3) = 0 ∧ win1_1.index t (2 : Fin 3) = 0)
    ∧ (win1_2.index t (0 : Fin 4) = t.val / 4 ∧ win1_2.index t (1 : Fin 4) = t.val % 4 ∧ win1_2.index t (2 : Fin 4) = 0 ∧ win1_2.index t (3 : Fin 4) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 1) = 0)
    ∧ (win1_6.index t (0 : Fin 3) = t.val / 4 ∧ win1_6.index t (1 : Fin 3) = 0 ∧ win1_6.index t (2 : Fin 3) = 0)
    ∧ (win1_7.index t (0 : Fin 3) = t.val / 4 ∧ win1_7.index t (1 : Fin 3) = 0 ∧ win1_7.index t (2 : Fin 3) = 0)
    ∧ (win1_8.index t (0 : Fin 4) = t.val / 4 ∧ win1_8.index t (1 : Fin 4) = t.val % 4 ∧ win1_8.index t (2 : Fin 4) = 0 ∧ win1_8.index t (3 : Fin 4) = 0) :=
  (by decide +kernel : ∀ t : Fin grid1.N, _)

/-- Row p of the row tile's block is row 40·(t % 4) + p of graph t / 4 of the projection. -/
theorem blk1_0_at (c : Dev nD) (t : Fin cfg1.N) (p : Fin 40) (k : Fin 128) (b : Fin 16) (i : Fin 160)
    (hb : b.val = t.val / 4) (hi : i.val = 40 * (t.val % 4) + p.val) :
    (iblk1 (F := Ideal) V c 0 t : Vec Ideal S1x40x128 .f32) (ix3 0 p k) = (V c main_v0 : Cert.FilmSpec.Arr3 16 160 128) (ix3 b i k) := by
  obtain ⟨⟨e0, e1, e2⟩, -⟩ := idx_facts1 t
  unfold iblk1
  rw [View.read_apply]
  show V c main_v0 _ = V c main_v0 _
  refine congrArg _ ?_
  funext a; apply Fin.ext
  match a with
  | ⟨0, _⟩ => show win1_0.index t (0 : Fin 3) * 1 + 1 * 0 = b.val; rw [e0, hb]; omega
  | ⟨1, _⟩ => show win1_0.index t (1 : Fin 3) * 40 + 1 * p.val = i.val; rw [e1, hi]; omega
  | ⟨2, _⟩ => show win1_0.index t (2 : Fin 3) * 128 + 1 * k.val = k.val; rw [e2]; omega

/-- The whole-graph block is all 160 rows of graph t / 4 of the projection. -/
theorem blk1_1_at (c : Dev nD) (t : Fin cfg1.N) (j : Fin 160) (k : Fin 128) (b : Fin 16) (hb : b.val = t.val / 4) :
    (iblk1 (F := Ideal) V c 1 t : Vec Ideal S1x160x128 .f32) (ix3 0 j k) = (V c main_v0 : Cert.FilmSpec.Arr3 16 160 128) (ix3 b j k) := by
  obtain ⟨-, ⟨e0, e1, e2⟩, -⟩ := idx_facts1 t
  unfold iblk1
  rw [View.read_apply]
  show V c main_v0 _ = V c main_v0 _
  refine congrArg _ ?_
  funext a; apply Fin.ext
  match a with
  | ⟨0, _⟩ => show win1_1.index t (0 : Fin 3) * 1 + 1 * 0 = b.val; rw [e0, hb]; omega
  | ⟨1, _⟩ => show win1_1.index t (1 : Fin 3) * 160 + 1 * j.val = j.val; rw [e1]; omega
  | ⟨2, _⟩ => show win1_1.index t (2 : Fin 3) * 128 + 1 * k.val = k.val; rw [e2]; omega

/-- The spatial block: pairs (40·(t % 4) + p, j) of graph t / 4. -/
theorem blk1_2_at (c : Dev nD) (t : Fin cfg1.N) (p : Fin 40) (j : Fin 160) (k : Fin 8) (b : Fin 16) (i : Fin 160)
    (hb : b.val = t.val / 4) (hi : i.val = 40 * (t.val % 4) + p.val) :
    (iblk1 (F := Ideal) V c 2 t : Vec Ideal S1x40x160x8 .f32) (ix4 0 p j k) = (V c main_arg2 : Cert.FilmSpec.Arr4 16 160 160 8) (ix4 b i j k) := by
  obtain ⟨-, -, ⟨e0, e1, e2, e3⟩, -⟩ := idx_facts1 t
  unfold iblk1
  rw [View.read_apply]
  show V c main_arg2 _ = V c main_arg2 _
  refine congrArg _ ?_
  funext a; apply Fin.ext
  match a with
  | ⟨0, _⟩ => show win1_2.index t (0 : Fin 4) * 1 + 1 * 0 = b.val; rw [e0, hb]; omega
  | ⟨1, _⟩ => show win1_2.index t (1 : Fin 4) * 40 + 1 * p.val = i.val; rw [e1, hi]; omega
  | ⟨2, _⟩ => show win1_2.index t (2 : Fin 4) * 160 + 1 * j.val = j.val; rw [e2]; omega
  | ⟨3, _⟩ => show win1_2.index t (3 : Fin 4) * 8 + 1 * k.val = k.val; rw [e3]; omega

/-- The first weight slice is loaded whole. -/
theorem blk1_3_eq (c : Dev nD) (t : Fin cfg1.N) :
    (iblk1 (F := Ideal) V c 3 t : Vec Ideal S128x128 .f32) = (V c main_v11 : Cert.FilmSpec.Arr2 128 128) := by
  obtain ⟨-, -, -, ⟨e0, e1⟩, -⟩ := idx_facts1 t
  funext y
  unfold iblk1
  rw [View.read_apply]
  show V c main_v11 _ = V c main_v11 _
  refine congrArg _ ?_
  funext a; apply Fin.ext
  match a with
  | ⟨0, _⟩ => show win1_3.index t (0 : Fin 2) * 128 + 1 * (y 0).val = (y 0).val; rw [e0]; omega
  | ⟨1, _⟩ => show win1_3.index t (1 : Fin 2) * 128 + 1 * (y 1).val = (y 1).val; rw [e1]; omega

/-- The second weight slice is loaded whole. -/
theorem blk1_4_eq (c : Dev nD) (t : Fin cfg1.N) :
    (iblk1 (F := Ideal) V c 4 t : Vec Ideal S8x128 .f32) = (V c main_v12 : Cert.FilmSpec.Arr2 8 128) := by
  obtain ⟨-, -, -, -, ⟨e0, e1⟩, -⟩ := idx_facts1 t
  funext y
  unfold iblk1
  rw [View.read_apply]
  show V c main_v12 _ = V c main_v12 _
  refine congrArg _ ?_
  funext a; apply Fin.ext
  match a with
  | ⟨0, _⟩ => show win1_4.index t (0 : Fin 2) * 8 + 1 * (y 0).val = (y 0).val; rw [e0]; omega
  | ⟨1, _⟩ => show win1_4.index t (1 : Fin 2) * 128 + 1 * (y 1).val = (y 1).val; rw [e1]; omega

/-- The bias is loaded whole. -/
theorem blk1_5_eq (c : Dev nD) (t : Fin cfg1.N) :
    (iblk1 (F := Ideal) V c 5 t : Vec Ideal S128 .f32) = (V c main_arg8 : Cert.FilmSpec.Arr1 128) := by
  obtain ⟨-, -, -, -, -, e0, -⟩ := idx_facts1 t
  funext y
  unfold iblk1
  rw [View.read_apply]
  show V c main_arg8 _ = V c main_arg8 _
  refine congrArg _ ?_
  funext a; apply Fin.ext
  match a with
  | ⟨0, _⟩ => show win1_5.index t (0 : Fin 1) * 128 + 1 * (y 0).val = (y 0).val; rw [e0]; omega

/-- The scale block is row t / 4 of the scale rows. -/
theorem blk1_6_at (c : Dev nD) (t : Fin cfg1.N) (o : Fin 128) (b : Fin 16) (hb : b.val = t.val / 4) :
    (iblk1 (F := Ideal) V c 6 t : Vec Ideal S1x1x128 .f32) (ix3 0 0 o) = (V c main_v9 : Cert.FilmSpec.Arr3 16 1 128) (ix3 b 0 o) := by
  obtain ⟨-, -, -, -, -, -, ⟨e0, e1, e2⟩, -⟩ := idx_facts1 t
  unfold iblk1
  rw [View.read_apply]
  show V c main_v9 _ = V c main_v9 _
  refine congrArg _ ?_
  funext a; apply Fin.ext
  match a with
  | ⟨0, _⟩ => show win1_6.index t (0 : Fin 3) * 1 + 1 * 0 = b.val; rw [e0, hb]; omega
  | ⟨1, _⟩ => show win1_6.index t (1 : Fin 3) * 1 + 1 * 0 = 0; rw [e1]
  | ⟨2, _⟩ => show win1_6.index t (2 : Fin 3) * 128 + 1 * o.val = o.val; rw [e2]; omega

/-- The shift block is row t / 4 of the shift rows. -/
theorem blk1_7_at (c : Dev nD) (t : Fin cfg1.N) (o : Fin 128) (b : Fin 16) (hb : b.val = t.val / 4) :
    (iblk1 (F := Ideal) V c 7 t : Vec Ideal S1x1x128 .f32) (ix3 0 0 o) = (V c main_v10 : Cert.FilmSpec.Arr3 16 1 128) (ix3 b 0 o) := by
  obtain ⟨-, -, -, -, -, -, -, ⟨e0, e1, e2⟩, -⟩ := idx_facts1 t
  unfold iblk1
  rw [View.read_apply]
  show V c main_v10 _ = V c main_v10 _
  refine congrArg _ ?_
  funext a; apply Fin.ext
  match a with
  | ⟨0, _⟩ => show win1_7.index t (0 : Fin 3) * 1 + 1 * 0 = b.val; rw [e0, hb]; omega
  | ⟨1, _⟩ => show win1_7.index t (1 : Fin 3) * 1 + 1 * 0 = 0; rw [e1]
  | ⟨2, _⟩ => show win1_7.index t (2 : Fin 3) * 128 + 1 * o.val = o.val; rw [e2]; omega

/-- One entry of one point's block, over abstract blocks and arrays: if the blocks are the stated rectangles of the arrays
    (graph b, rows 40·it + p of the row tile), the body's arithmetic at (p, j, o) is the pairwise layer at (b, 40·it + p, j, o). -/
theorem entry1_at (A0 : Cert.FilmSpec.Arr3 16 160 128) (A2 : Cert.FilmSpec.Arr4 16 160 160 8) (A3 : Cert.FilmSpec.Arr2 128 128)
    (A4 : Cert.FilmSpec.Arr2 8 128) (A5 : Cert.FilmSpec.Arr1 128) (A6 A7 : Cert.FilmSpec.Arr3 16 1 128)
    (x0 : Vec Ideal S1x40x128 .f32) (x1 : Vec Ideal S1x160x128 .f32) (x2 : Vec Ideal S1x40x160x8 .f32)
    (x3 : Vec Ideal S128x128 .f32) (x4 : Vec Ideal S8x128 .f32) (x5 : Vec Ideal S128 .f32) (x6 x7 : Vec Ideal S1x1x128 .f32)
    (b : Fin 16) (i : Fin 160) (p : Fin 40) (j : Fin 160) (o : Fin 128)
    (h0 : ∀ k : Fin 128, x0 (ix3 0 p k) = A0 (ix3 b i k))
    (h1 : ∀ (j' : Fin 160) (k : Fin 128), x1 (ix3 0 j' k) = A0 (ix3 b j' k))
    (h2 : ∀ k : Fin 8, x2 (ix4 0 p j k) = A2 (ix4 b i j k))
    (h3 : x3 = A3) (h4 : x4 = A4) (h5 : x5 = A5)
    (h6 : ∀ o' : Fin 128, x6 (ix3 0 0 o') = A6 (ix3 b 0 o'))
    (h7 : ∀ o' : Fin 128, x7 (ix3 0 0 o') = A7 (ix3 b 0 o')) :
    k1_pay1 (F := Ideal) (k1_pay2 x6) (k1_pay3 x7) (k1_pay4 x0 x1 x2 x3 x4 x5) (k1_pay5 x0 x1 x2 x3 x4 x5) (ix4 0 p j o)
      = Cert.FilmSpec.outK A0 A2 A3 A4 A5 A6 A7 (ix4 b i j o) := by
  rw [pay1_apply]
  subst h3 h4 h5
  show _ = Cert.FilmSpec.normFilm (Cert.FilmSpec.linK A0 A2 x3 x4 x5 b i j) (fun o' => A6 (ix3 b 0 o')) (fun o' => A7 (ix3 b 0 o')) o
  unfold Cert.FilmSpec.linK
  simp only [h0, h1, h2, h6, h7]

/-- What grid point t writes back is its block of the pairwise layer of the arrays the region was entered with. -/
theorem flushed1_eq (c : Dev nD) (t : Fin cfg1.N) :
    (cfg1.win 8).cut (grid1.coords t) ((dat1 (F := Ideal) V c).after 8 t)
      = ((cfg1.win 8).blk t).view.read (Elt Ideal)
          (Cert.FilmSpec.outK (V c main_v0) (V c main_arg2) (V c main_v11) (V c main_v12) (V c main_arg8) (V c main_v9) (V c main_v10)) := by
  have hN : cfg1.N = 64 := N_1
  have ht : t.val < 64 := hN ▸ t.isLt
  rw [after1_8]
  unfold out1_8
  rw [View.canon_unit_zero zoff4]
  simp only [View.ld_unit_zero (S := S1x40x128) zoff3, View.ld_unit_zero (S := S1x160x128) zoff3, View.ld_unit_zero (S := S1x40x160x8) zoff4,
    View.ld_unit_zero (S := S128x128) zoff2, View.ld_unit_zero (S := S8x128) zoff2, View.ld_unit_zero (S := S128) zoff1, View.ld_unit_zero (S := S1x1x128) zoff3]
  funext y
  obtain ⟨q, p, j, o, rfl⟩ : ∃ (q : Fin 1) (p : Fin 40) (j : Fin 160) (o : Fin 128), y = ix4 q p j o :=
    ⟨y 0, y 1, y 2, y 3, eq_ix4 (n0 := 1) (n1 := 40) (n2 := 160) (n3 := 128) y⟩
  obtain rfl : q = 0 := Subsingleton.elim _ _
  rw [View.read_apply]
  obtain ⟨-, -, -, -, -, -, -, -, ⟨e0, e1, e2, e3⟩⟩ := idx_facts1 t
  refine (entry1_at (V c main_v0) (V c main_arg2) (V c main_v11) (V c main_v12) (V c main_arg8) (V c main_v9) (V c main_v10)
    (iblk1 V c 0 t) (iblk1 V c 1 t) (iblk1 V c 2 t) (iblk1 V c 3 t) (iblk1 V c 4 t) (iblk1 V c 5 t) (iblk1 V c 6 t) (iblk1 V c 7 t)
    ⟨t.val / 4, by omega⟩ ⟨40 * (t.val % 4) + p.val, by omega⟩ p j o
    (fun k => blk1_0_at V c t p k _ _ rfl rfl) (fun j' k => blk1_1_at V c t j' k _ rfl) (fun k => blk1_2_at V c t p j k _ _ rfl rfl)
    (blk1_3_eq V c t) (blk1_4_eq V c t) (blk1_5_eq V c t) (fun o' => blk1_6_at V c t o' _ rfl) (fun o' => blk1_7_at V c t o' _ rfl)).trans ?_
  refine congrArg _ ?_
  funext a; apply Fin.ext
  match a with
  | ⟨0, _⟩ => show t.val / 4 = win1_8.index t (0 : Fin 4) * 1 + 1 * 0; rw [e0]; omega
  | ⟨1, _⟩ => show 40 * (t.val % 4) + p.val = win1_8.index t (1 : Fin 4) * 40 + 1 * p.val; rw [e1]; omega
  | ⟨2, _⟩ => show j.val = win1_8.index t (2 : Fin 4) * 160 + 1 * j.val; rw [e2]; omega
  | ⟨3, _⟩ => show o.val = win1_8.index t (3 : Fin 4) * 128 + 1 * o.val; rw [e3]; omega

/-- An index of the output array lies in point t's block iff each coordinate lies in the block's range on its axis. -/
theorem mem_blk1 (t : Fin cfg1.N) (i : S16x160x160x128.Idx) :
    i ∈ ((cfg1.win 8).blk t).view.set ↔ ∀ a : Fin 4, win1_8.index t a * S1x40x160x128.size a ≤ (i a).val ∧ (i a).val < win1_8.index t a * S1x40x160x128.size a + S1x40x160x128.size a := by
  show i ∈ ((View.whole main_v13).slice (win1_8.rect t)).set ↔ _
  rw [View.set_slice_whole, Rect.mem_set_unit]
  exact Iff.rfl

/-- The 64 blocks tile the output array: entry (b, i, j, o) is in the block of point 4·b + i / 40. -/
theorem cover1 (i : S16x160x160x128.Idx) :
    ∃ t : Fin cfg1.N, (cfg1.win 8).flush t = true ∧ i ∈ ((cfg1.win 8).blk t).view.set := by
  have hN : cfg1.N = 64 := N_1
  have h0 : (i 0).val < 16 := (i 0).isLt
  have h1 : (i 1).val < 160 := (i 1).isLt
  have h2 : (i 2).val < 160 := (i 2).isLt
  have h3 : (i 3).val < 128 := (i 3).isLt
  refine ⟨⟨(i 0).val * 4 + (i 1).val / 40, by omega⟩, flush1_8 _, ?_⟩
  rw [mem_blk1]
  obtain ⟨-, -, -, -, -, -, -, -, ⟨e0, e1, e2, e3⟩⟩ := idx_facts1 ⟨(i 0).val * 4 + (i 1).val / 40, by omega⟩
  intro a
  match a with
  | ⟨0, _⟩ =>
    show win1_8.index _ (0 : Fin 4) * 1 ≤ (i 0).val ∧ (i 0).val < win1_8.index _ (0 : Fin 4) * 1 + 1
    rw [e0]; dsimp only; omega
  | ⟨1, _⟩ =>
    show win1_8.index _ (1 : Fin 4) * 40 ≤ (i 1).val ∧ (i 1).val < win1_8.index _ (1 : Fin 4) * 40 + 40
    rw [e1]; dsimp only; omega
  | ⟨2, _⟩ =>
    show win1_8.index _ (2 : Fin 4) * 160 ≤ (i 2).val ∧ (i 2).val < win1_8.index _ (2 : Fin 4) * 160 + 160
    rw [e2]; omega
  | ⟨3, _⟩ =>
    show win1_8.index _ (3 : Fin 4) * 128 ≤ (i 3).val ∧ (i 3).val < win1_8.index _ (3 : Fin 4) * 128 + 128
    rw [e3]; omega

/-- The FiLM region's output array after its last grid point is the pairwise layer of the arrays it was entered with. -/
theorem arr1_eq (c : Dev nD) :
    (dat1 (F := Ideal) V c).arrAt 8 cfg1.N
      = Cert.FilmSpec.outK (V c main_v0) (V c main_arg2) (V c main_v11) (V c main_v12) (V c main_arg8) (V c main_v9) (V c main_v10) :=
  (dat1 (F := Ideal) V c).arrAt_eq_of_cover 8
    (Cert.FilmSpec.outK (V c main_v0) (V c main_arg2) (V c main_v11) (V c main_v12) (V c main_arg8) (V c main_v9) (V c main_v10))
    (fun t _ => flushed1_eq V c t) cover1

end Cert.KernelIdeal.HandValue

end
-- ==== Proof.KI.ValHost.lean ====
/-
  The whole program's result on the extended reals. Between the two regions thirteen host operations compute, from the
  conditioning features, the per-graph scale rows (the first 128 columns of c·Wc + bc, plus one) and shift rows (the last
  128 columns), and slice the FiLM weight into its first 128 and last 8 rows; they write neither the projection nor any
  argument. After the FiLM region one reshape lays its 16 × 160 × 160 × 128 array out as 409600 × 128, row-major. Composing
  the two regions' arrays through these, the final buffer is the specification `G` of the nine launch arrays.
-/
import proofs.«179063_j79517024518197_1_alg».proof.Proof.KI.Fold
import proofs.«179063_j79517024518197_1_alg».proof.Proof.KI.Val0
import proofs.«179063_j79517024518197_1_alg».proof.Proof.KI.Val1
import proofs.«179063_j79517024518197_1_alg».proof.Proof.SpecK
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ) (ρ : Dev nD → PrngReg)

/-! ## The last two items: the reshape of the FiLM region's array -/
/-- The last host operation lays the FiLM region's array out row-major. -/
theorem W4_out (c : Dev nD) :
    W4 (F := Ideal) m ρ c (Proc.devRef .tc main_v14)
      = shapeCast S409600x128 (W3 (F := Ideal) m ρ c (Proc.devRef .tc main_v13)) shapeCasts_S16x160x160x128_S409600x128 := by
  show StableHlo.after hostOps2 _ (Proc.devRef .tc main_v14) = _
  after_results
  rfl

theorem W3_v13 (c : Dev nD) :
    W3 (F := Ideal) m ρ c (Proc.devRef .tc main_v13) = (dat1 (F := Ideal) (V2 m ρ) c).arrAt 8 cfg1.N :=
  W3_out m ρ c

/-! ## What the FiLM region is entered with: the projection, the untouched arguments, the weight slices -/
/-- The host operations between the regions do not write the projection: the FiLM region is entered with what the
    projection region left, the node projection of the launch arrays. -/
theorem V2_v0 (c : Dev nD) :
    V2 (F := Ideal) m ρ c main_v0
      = Cert.FilmSpec.Hfun (m ((c : Thread nD τ).loc main_arg0)) (m ((c : Thread nD τ).loc main_arg3)) (m ((c : Thread nD τ).loc main_arg4)) := by
  have h1 : V2 (F := Ideal) m ρ c main_v0 = W1 (F := Ideal) m ρ c (Proc.devRef .tc main_v0) :=
    StableHlo.after_of_writes_sub hostOps1 _ Gen.hostOps1_writes (by decide)
  have h2 : W1 (F := Ideal) m ρ c (Proc.devRef .tc main_v0) = (dat0 (F := Ideal) (V0 m ρ) c).arrAt 3 cfg0.N :=
    W1_arr m ρ c 3
  rw [h1, h2, arr0_eq (V0 m ρ) c]

/-- A buffer that neither the projection region nor the host operations write is as launched. -/
theorem V2_of_launch (c : Dev nD) (r : Ref sig .tc) (hw : r ∉ Gen.hostOps1_W) (h0 : ∀ w, Pipeline.arrRef spec0 w ≠ r) :
    V2 (F := Ideal) m ρ c r = m ((c : Thread nD τ).loc r) := by
  have h1 : V2 (F := Ideal) m ρ c r = W1 (F := Ideal) m ρ c (Proc.devRef .tc r) :=
    StableHlo.after_of_writes_sub hostOps1 _ Gen.hostOps1_writes hw
  rw [h1, W1_of_ne m ρ c r h0]

theorem V2_arg2 (c : Dev nD) : V2 (F := Ideal) m ρ c main_arg2 = m ((c : Thread nD τ).loc main_arg2) :=
  V2_of_launch m ρ c main_arg2 (by decide) (by decide)
theorem V2_arg8 (c : Dev nD) : V2 (F := Ideal) m ρ c main_arg8 = m ((c : Thread nD τ).loc main_arg8) :=
  V2_of_launch m ρ c main_arg8 (by decide) (by decide)

/-- An argument array read after the projection region: as launched. -/
theorem W1_arg (c : Dev nD) (r : Ref sig .tc) (h0 : ∀ w, Pipeline.arrRef spec0 w ≠ r) :
    W1 (F := Ideal) m ρ c (Proc.devRef .tc r) = m ((c : Thread nD τ).loc r) :=
  (W1_of_ne m ρ c r h0).trans rfl

/-- The first 128 rows of a 136 × 128 matrix, read at (p, q). -/
theorem sliceTop_eq (X : Cert.FilmSpec.Arr2 136 128) :
    extractStridedSlice S128x128 ![0, 0] X slices_S136x128_S128x128_0_0 = Cert.FilmSpec.wfTop X := by
  funext idx
  obtain ⟨p, q, rfl⟩ : ∃ (p : Fin 128) (q : Fin 128), idx = ix2 p q := ⟨idx 0, idx 1, eq_ix2 idx⟩
  exact slice2_axis0_apply 0 X slices_S136x128_S128x128_0_0 p q ⟨p.val, by omega⟩ (Nat.zero_add _).symm

/-- Its last 8 rows, read at (p, q). -/
theorem sliceBot_eq (X : Cert.FilmSpec.Arr2 136 128) :
    extractStridedSlice S8x128 ![128, 0] X slices_S136x128_S8x128_128_0 = Cert.FilmSpec.wfBot X := by
  funext idx
  obtain ⟨p, q, rfl⟩ : ∃ (p : Fin 8) (q : Fin 128), idx = ix2 p q := ⟨idx 0, idx 1, eq_ix2 idx⟩
  exact slice2_axis0_apply 128 X slices_S136x128_S8x128_128_0 p q ⟨128 + p.val, by omega⟩ rfl

/-- The FiLM region's first weight window holds the first 128 rows of the launch weight. -/
theorem V2_v11 (c : Dev nD) :
    V2 (F := Ideal) m ρ c main_v11 = Cert.FilmSpec.wfTop (m ((c : Thread nD τ).loc main_arg7)) := by
  have e : (V2 (F := Ideal) m ρ c main_v11 : S128x128.Idx → EReal)
      = extractStridedSlice S128x128 ![0, 0] (W1 (F := Ideal) m ρ c (Proc.devRef .tc main_arg7)) slices_S136x128_S128x128_0_0 := by
    show StableHlo.after hostOps1 _ (Proc.devRef .tc main_v11) = _
    after_results
  rw [e, W1_arg m ρ c main_arg7 (by decide)]
  exact sliceTop_eq _

/-- Its second weight window holds the last 8 rows. -/
theorem V2_v12 (c : Dev nD) :
    V2 (F := Ideal) m ρ c main_v12 = Cert.FilmSpec.wfBot (m ((c : Thread nD τ).loc main_arg7)) := by
  have e : (V2 (F := Ideal) m ρ c main_v12 : S8x128.Idx → EReal)
      = extractStridedSlice S8x128 ![128, 0] (W1 (F := Ideal) m ρ c (Proc.devRef .tc main_arg7)) slices_S136x128_S8x128_128_0 := by
    show StableHlo.after hostOps1 _ (Proc.devRef .tc main_v12) = _
    after_results
  rw [e, W1_arg m ρ c main_arg7 (by decide)]
  exact sliceBot_eq _

/-! ## The host's conditioning projection, read at an index -/

theorem lhs_cond_0 (i : S16x256.Idx) (q : dot_S16x1024_S1024x256_S16x256_1_0_0_1_n_n.contr.Idx) :
    (dot_S16x1024_S1024x256_S16x256_1_0_0_1_n_n.lhsIdx i q 0).val = (i 0).val := by
  unfold DotDims.lhsIdx
  rw [dif_neg (show ¬(0 : Fin S16x1024.rank) ∈ dot_S16x1024_S1024x256_S16x256_1_0_0_1_n_n.lhsBatch by decide), dif_pos (show (0 : Fin S16x1024.rank) ∈ dot_S16x1024_S1024x256_S16x256_1_0_0_1_n_n.lhsNonContracting by decide)]
  rfl
theorem lhs_cond_1 (i : S16x256.Idx) (q : dot_S16x1024_S1024x256_S16x256_1_0_0_1_n_n.contr.Idx) :
    (dot_S16x1024_S1024x256_S16x256_1_0_0_1_n_n.lhsIdx i q 1).val = (q ⟨0, by decide⟩).val :=
  dot_S16x1024_S1024x256_S16x256_1_0_0_1_n_n.lhsIdx_val_of_single rfl i q
theorem rhs_cond_0 (i : S16x256.Idx) (q : dot_S16x1024_S1024x256_S16x256_1_0_0_1_n_n.contr.Idx) :
    (dot_S16x1024_S1024x256_S16x256_1_0_0_1_n_n.rhsIdx i q 0).val = (q ⟨0, by decide⟩).val :=
  dot_S16x1024_S1024x256_S16x256_1_0_0_1_n_n.rhsIdx_val_of_single rfl i q
theorem rhs_cond_1 (i : S16x256.Idx) (q : dot_S16x1024_S1024x256_S16x256_1_0_0_1_n_n.contr.Idx) :
    (dot_S16x1024_S1024x256_S16x256_1_0_0_1_n_n.rhsIdx i q 1).val = (i 1).val := by
  unfold DotDims.rhsIdx
  rw [dif_neg (show ¬(1 : Fin S1024x256.rank) ∈ dot_S16x1024_S1024x256_S16x256_1_0_0_1_n_n.rhsBatch by decide), dif_pos (show (1 : Fin S1024x256.rank) ∈ dot_S16x1024_S1024x256_S16x256_1_0_0_1_n_n.rhsNonContracting by decide)]
  rfl

/-- On the extended reals the host's product of the conditioning features with the conditioning weight is, at (b, k),
    the sum over the 1024 features of c[b, d] · Wc[d, k]. -/
theorem condDot_apply (cf : (⟨S16x1024, .f32⟩ : BufTy).Contents (Elt Ideal)) (Wc : (⟨S1024x256, .f32⟩ : BufTy).Contents (Elt Ideal)) (b : Fin 16) (k : Fin 256) :
    Host.dotGeneral (F := Ideal) (φ₁ := .f32) (φ₂ := .f32) dot_S16x1024_S1024x256_S16x256_1_0_0_1_n_n none cf Wc (ix2 b k)
      = ∑ d : Fin 1024, cf (ix2 b d) * Wc (ix2 d k) := by
  simp only [Host.dotGeneral]
  rw [Ideal.dotGeneral_apply, ← Equiv.sum_comp (ValueIdx.contrEquiv1 dot_S16x1024_S1024x256_S16x256_1_0_0_1_n_n 1024 rfl rfl).symm]
  refine Finset.sum_congr rfl fun d _ => ?_
  have hd := ValueIdx.contrEquiv1_symm_val dot_S16x1024_S1024x256_S16x256_1_0_0_1_n_n 1024 rfl rfl d
  have el : dot_S16x1024_S1024x256_S16x256_1_0_0_1_n_n.lhsIdx (ix2 b k) ((ValueIdx.contrEquiv1 dot_S16x1024_S1024x256_S16x256_1_0_0_1_n_n 1024 rfl rfl).symm d) = ix2 b d := funext fun a => Fin.ext (by
    match a with
    | ⟨0, _⟩ => exact lhs_cond_0 _ _
    | ⟨1, _⟩ => exact (lhs_cond_1 _ _).trans hd)
  have er : dot_S16x1024_S1024x256_S16x256_1_0_0_1_n_n.rhsIdx (ix2 b k) ((ValueIdx.contrEquiv1 dot_S16x1024_S1024x256_S16x256_1_0_0_1_n_n 1024 rfl rfl).symm d) = ix2 d k := funext fun a => Fin.ext (by
    match a with
    | ⟨0, _⟩ => exact (rhs_cond_0 _ _).trans hd
    | ⟨1, _⟩ => exact rhs_cond_1 _ _)
  rw [el, er]

/-- The conditioning bias laid out as one row and repeated for the sixteen graphs reads, at (b, k), entry k. -/
theorem condBias_apply (bc : (⟨S256, .f32⟩ : BufTy).Contents (Elt Ideal)) (b : Fin 16) (k : Fin 256) :
    broadcastInDim S16x256 ![0, 1] bcast_S1x256_S16x256_0_1 (broadcastInDim S1x256 ![1] bcast_S256_S1x256_1 bc) (ix2 b k)
      = bc (ix1 k) := by
  generalize hy : broadcastInDim S1x256 ![1] bcast_S256_S1x256_1 bc = y
  refine (broadcastInDim_apply _ bcast_S1x256_S16x256_0_1 y (ix2 b k) (ix2 (0 : Fin 1) k) (fun a => match a with
    | ⟨0, _⟩ => by show 0 = if (1 : Nat) = 1 then 0 else b.val; rw [if_pos rfl]
    | ⟨1, _⟩ => by show k.val = if (256 : Nat) = 1 then 0 else k.val; rw [if_neg (by decide)])).trans ?_
  subst hy
  exact broadcastInDim_apply _ bcast_S256_S1x256_1 bc (ix2 (0 : Fin 1) k) (ix1 k) (fun a => match a with
    | ⟨0, _⟩ => by show k.val = if (256 : Nat) = 1 then 0 else k.val; rw [if_neg (by decide)])

/-- The conditioning projection as the host operations compute it. -/
def gbHost (cf : (⟨S16x1024, .f32⟩ : BufTy).Contents (Elt Ideal)) (Wc : (⟨S1024x256, .f32⟩ : BufTy).Contents (Elt Ideal)) (bc : (⟨S256, .f32⟩ : BufTy).Contents (Elt Ideal)) : (⟨S16x256, .f32⟩ : BufTy).Contents (Elt Ideal) :=
  addf (Host.dotGeneral (F := Ideal) (φ₁ := .f32) (φ₂ := .f32) dot_S16x1024_S1024x256_S16x256_1_0_0_1_n_n none cf Wc)
    (broadcastInDim S16x256 ![0, 1] bcast_S1x256_S16x256_0_1 (broadcastInDim S1x256 ![1] bcast_S256_S1x256_1 bc))

/-- At (b, k) it is the specification's conditioning projection. -/
theorem gbHost_apply (cf : (⟨S16x1024, .f32⟩ : BufTy).Contents (Elt Ideal)) (Wc : (⟨S1024x256, .f32⟩ : BufTy).Contents (Elt Ideal)) (bc : (⟨S256, .f32⟩ : BufTy).Contents (Elt Ideal)) (b : Fin 16) (k : Fin 256) :
    gbHost cf Wc bc (ix2 b k) = Cert.FilmSpec.gb cf Wc bc b k := by
  unfold gbHost Cert.FilmSpec.gb
  rw [addf_apply, condDot_apply, condBias_apply]

/-! ## The scale and shift rows as the host operations compute them from the conditioning projection -/

/-- A 16 × 128 matrix given a unit middle axis reads, at (b, 0, e), its entry (b, e). -/
theorem unitAxis_apply (y : (⟨S16x128, .f32⟩ : BufTy).Contents (Elt Ideal)) (b : Fin 16) (z : Fin 1) (e : Fin 128) :
    broadcastInDim S16x1x128 ![0, 2] bcast_S16x128_S16x1x128_0_2 y (ix3 b z e) = y (ix2 b e) :=
  broadcastInDim_apply _ bcast_S16x128_S16x1x128_0_2 y (ix3 b z e) (ix2 b e) (fun a => match a with
    | ⟨0, _⟩ => by show b.val = if (16 : Nat) = 1 then 0 else b.val; rw [if_neg (by decide)]
    | ⟨1, _⟩ => by show e.val = if (128 : Nat) = 1 then 0 else e.val; rw [if_neg (by decide)])

/-- The scalar one broadcast over 16 × 128 is, everywhere, the word the program prints for it. -/
theorem oneBcast_apply (b : Fin 16) (e : Fin 128) :
    broadcastInDim S16x128 ![] bcast_S_S16x128 (constant (F := Ideal) S_ .f32 0x3F800000#32) (ix2 b e) = Cert.FilmSpec.cOne :=
  broadcastInDim_apply _ bcast_S_S16x128 (constant (F := Ideal) S_ .f32 0x3F800000#32) (ix2 b e) ix0 (fun a => a.elim0)

/-- The scale rows: the first 128 columns of the projection, plus one, with a unit axis put in. -/
def gammaHost (g : (⟨S16x256, .f32⟩ : BufTy).Contents (Elt Ideal)) : (⟨S16x1x128, .f32⟩ : BufTy).Contents (Elt Ideal) :=
  broadcastInDim S16x1x128 ![0, 2] bcast_S16x128_S16x1x128_0_2
    (addf (extractStridedSlice S16x128 ![0, 0] g slices_S16x256_S16x128_0_0)
      (broadcastInDim S16x128 ![] bcast_S_S16x128 (constant (F := Ideal) S_ .f32 0x3F800000#32)))

/-- The shift rows: its last 128 columns, with a unit axis put in. -/
def betaHost (g : (⟨S16x256, .f32⟩ : BufTy).Contents (Elt Ideal)) : (⟨S16x1x128, .f32⟩ : BufTy).Contents (Elt Ideal) :=
  broadcastInDim S16x1x128 ![0, 2] bcast_S16x128_S16x1x128_0_2 (extractStridedSlice S16x128 ![0, 128] g slices_S16x256_S16x128_0_128)

theorem gammaHost_apply (g : (⟨S16x256, .f32⟩ : BufTy).Contents (Elt Ideal)) (b : Fin 16) (z : Fin 1) (e : Fin 128) :
    gammaHost g (ix3 b z e) = g (ix2 b (⟨e.val, by omega⟩ : Fin 256)) + Cert.FilmSpec.cOne := by
  unfold gammaHost
  refine (unitAxis_apply _ b z e).trans ?_
  rw [addf_apply, oneBcast_apply, slice2_axis1_apply 0 g slices_S16x256_S16x128_0_0 b e ⟨e.val, by omega⟩ (Nat.zero_add _).symm]

theorem betaHost_apply (g : (⟨S16x256, .f32⟩ : BufTy).Contents (Elt Ideal)) (b : Fin 16) (z : Fin 1) (e : Fin 128) :
    betaHost g (ix3 b z e) = g (ix2 b (⟨128 + e.val, by omega⟩ : Fin 256)) := by
  unfold betaHost
  refine (unitAxis_apply _ b z e).trans ?_
  exact slice2_axis1_apply 128 g slices_S16x256_S16x128_0_128 b e ⟨128 + e.val, by omega⟩ rfl

/-- From the launch arrays the host's scale rows are the specification's. -/
theorem gammaHost_eq (cf : (⟨S16x1024, .f32⟩ : BufTy).Contents (Elt Ideal)) (Wc : (⟨S1024x256, .f32⟩ : BufTy).Contents (Elt Ideal)) (bc : (⟨S256, .f32⟩ : BufTy).Contents (Elt Ideal)) :
    gammaHost (gbHost cf Wc bc) = Cert.FilmSpec.gammaRow cf Wc bc := by
  funext idx
  obtain ⟨b, z, e, rfl⟩ : ∃ (b : Fin 16) (z : Fin 1) (e : Fin 128), idx = ix3 b z e := ⟨idx 0, idx 1, idx 2, eq_ix3 idx⟩
  rw [gammaHost_apply, gbHost_apply]
  rfl

/-- And its shift rows. -/
theorem betaHost_eq (cf : (⟨S16x1024, .f32⟩ : BufTy).Contents (Elt Ideal)) (Wc : (⟨S1024x256, .f32⟩ : BufTy).Contents (Elt Ideal)) (bc : (⟨S256, .f32⟩ : BufTy).Contents (Elt Ideal)) :
    betaHost (gbHost cf Wc bc) = Cert.FilmSpec.betaRow cf Wc bc := by
  funext idx
  obtain ⟨b, z, e, rfl⟩ : ∃ (b : Fin 16) (z : Fin 1) (e : Fin 128), idx = ix3 b z e := ⟨idx 0, idx 1, idx 2, eq_ix3 idx⟩
  rw [betaHost_apply, gbHost_apply]
  rfl

/-! ## The scale and shift windows, and the reshape read at a row -/
/-- The FiLM region's scale window holds the specification's scale rows of the launch arrays. -/
theorem V2_v9 (c : Dev nD) :
    V2 (F := Ideal) m ρ c main_v9 = Cert.FilmSpec.gammaRow (m ((c : Thread nD τ).loc main_arg1)) (m ((c : Thread nD τ).loc main_arg5)) (m ((c : Thread nD τ).loc main_arg6)) := by
  have e : (V2 (F := Ideal) m ρ c main_v9 : S16x1x128.Idx → EReal)
      = gammaHost (gbHost (W1 (F := Ideal) m ρ c (Proc.devRef .tc main_arg1)) (W1 (F := Ideal) m ρ c (Proc.devRef .tc main_arg5))
          (W1 (F := Ideal) m ρ c (Proc.devRef .tc main_arg6))) := by
    show StableHlo.after hostOps1 _ (Proc.devRef .tc main_v9) = _
    after_results
    rfl
  rw [e, W1_arg m ρ c main_arg1 (by decide), W1_arg m ρ c main_arg5 (by decide), W1_arg m ρ c main_arg6 (by decide)]
  exact gammaHost_eq _ _ _

/-- Its shift window holds the shift rows. -/
theorem V2_v10 (c : Dev nD) :
    V2 (F := Ideal) m ρ c main_v10 = Cert.FilmSpec.betaRow (m ((c : Thread nD τ).loc main_arg1)) (m ((c : Thread nD τ).loc main_arg5)) (m ((c : Thread nD τ).loc main_arg6)) := by
  have e : (V2 (F := Ideal) m ρ c main_v10 : S16x1x128.Idx → EReal)
      = betaHost (gbHost (W1 (F := Ideal) m ρ c (Proc.devRef .tc main_arg1)) (W1 (F := Ideal) m ρ c (Proc.devRef .tc main_arg5))
          (W1 (F := Ideal) m ρ c (Proc.devRef .tc main_arg6))) := by
    show StableHlo.after hostOps1 _ (Proc.devRef .tc main_v10) = _
    after_results
    rfl
  rw [e, W1_arg m ρ c main_arg1 (by decide), W1_arg m ρ c main_arg5 (by decide), W1_arg m ρ c main_arg6 (by decide)]
  exact betaHost_eq _ _ _

/-- Row r of the 409600 × 128 layout of a 16 × 160 × 160 × 128 array is its row (r / 25600, r / 160 mod 160, r mod 160):
    both have row-major position 128 · r + o. -/
theorem reshape_read (A : Cert.FilmSpec.Arr4 16 160 160 128) (r : Fin 409600) (o : Fin 128) :
    shapeCast S409600x128 A shapeCasts_S16x160x160x128_S409600x128 (ix2 r o)
      = A (ix4 (⟨r.val / 25600, by have := r.isLt; omega⟩ : Fin 16) (⟨r.val / 160 % 160, Nat.mod_lt _ (by decide)⟩ : Fin 160)
          (⟨r.val % 160, Nat.mod_lt _ (by decide)⟩ : Fin 160) o) := by
  refine shapeCast_apply A shapeCasts_S16x160x160x128_S409600x128 _ _ ?_
  rw [Shape.rowMajor_val_four, Shape.rowMajor_val_two]
  show ((r.val / 25600 * 160 + r.val / 160 % 160) * 160 + r.val % 160) * 128 + o.val = r.val * 128 + o.val
  omega

/-! ## The whole program -/

/-- The program's result buffer, as the fold leaves it, is the specification of the launch contents of the nine arguments. -/
theorem kernel_value (c : Dev nD) :
    W4 (F := Ideal) m ρ c (Proc.devRef .tc main_v14)
      = Cert.FilmSpec.G (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) := by
  rw [W4_out, W3_v13, arr1_eq (V2 m ρ) c, V2_v0, V2_arg2, V2_v11, V2_v12, V2_arg8, V2_v9, V2_v10]
  funext idx
  obtain ⟨r, o, rfl⟩ : ∃ (r : Fin 409600) (o : Fin 128), idx = ix2 r o := ⟨idx 0, idx 1, eq_ix2 idx⟩
  rw [reshape_read]
  exact Cert.FilmSpec.outK_eq_out4 _ _ _ _ _ _ _ _ _ _ _ _ _

end Cert.KernelIdeal.HandValue

end
-- ==== Proof.RefSide.lean ====
/-
  The reference program computes the specification function.

  Read one operation at a time, the reference's result at row r = (b·160 + i)·160 + j, column o, is
    max (γ[b,o] · ((y[o] − μ) · rsqrt (v + ε)) + β[b,o]) 0
  with y[o] = Σ_{k<136} z[b,i,j,k] · Wf[k,o] + bf[o], where z joins the 128 pairwise products h[b,i,k]·h[b,j,k]
  with the pair's 8 spatial features along the last axis, μ = (Σ_o y[o]) / 128 and v = (Σ_o (y[o] − μ)²) / 128.
  The one algebraic step is that the sum over the 136 joined positions is the sum over the first 128 plus the sum
  over the last 8; a sum that starts from the zero word starts from 0. The lemmas below follow the program's
  stages in order: the node projection h, the pairwise product, the joined features on either side of position
  128, the linear layer, the scale γ and shift β, the mean, the centred value, rsqrt of variance plus ε, the whole
  layer at a pair, and the row arithmetic of the two reshapes (25600 = 160 · 160).
-/
import proofs.«179063_j79517024518197_1_alg».proof.Proof.Gen.ReferenceIdeal.Read
import proofs.«179063_j79517024518197_1_alg».proof.Proof.Spec
import Idealize.ShloMosaic.Lib.Pipeline.Value
import Idealize.ShloMosaic.Lib.ValueIdx
import Idealize.ShloMosaic.PureOps.Ideal.Laws
import Mathlib.Algebra.BigOperators.Fin

noncomputable section

namespace Cert.ReferenceIdeal.RefValue

open Cert.ReferenceIdeal Cert.ReferenceIdeal.Gen Cert.ReferenceIdeal.Read Idealize.ShloMosaic Idealize.ShloMosaic.ValueIdx
open Cert.FilmSpec

/-- A sum over 136 positions is the sum over the first 128 plus the sum over the last 8. -/
theorem sum_split_136 {M : Type} [AddCommMonoid M] (f : Fin 136 → M) :
    ∑ k : Fin 136, f k = (∑ k : Fin 128, f ⟨k.val, by omega⟩) + ∑ k : Fin 8, f ⟨128 + k.val, by omega⟩ :=
  Fin.sum_univ_add (a := 128) (b := 8) f

/-- The row of the pair (i, j) among the 25600 pairs of one graph. -/
abbrev row (i j : Fin 160) : Fin 25600 := ⟨i.val * 160 + j.val, by omega⟩

/-- The node projection at (b, n, e). -/
theorem h_at (x0 : (⟨S16x160x1024, .f32⟩ : BufTy).Contents (Elt Ideal)) (x3 : (⟨S1024x128, .f32⟩ : BufTy).Contents (Elt Ideal))
    (x4 : (⟨S128, .f32⟩ : BufTy).Contents (Elt Ideal)) (b : Fin 16) (n : Fin 160) (e : Fin 128) :
    val_main_v4 (F := Ideal) x0 x3 x4 (ix3 b n e) = hproj x0 x3 x4 b n e := by
  rw [val_main_v4_apply, val_main_v3_apply, val_main_v0_apply, val_main_v2_apply, val_main_v1_apply,
    val_main_call0_v0_apply, val_main_call0_cst_apply]
  have el : ∀ k : Fin 1024, lidx_main_v0 (ix3 b n e) k = ix3 b n k := fun k => funext fun a => by
    match a with | ⟨0, _⟩ => rfl | ⟨1, _⟩ => rfl | ⟨2, _⟩ => rfl
  have er : ∀ k : Fin 1024, ridx_main_v0 (ix3 b n e) k = ix2 k e := fun k => funext fun a => by
    match a with | ⟨0, _⟩ => rfl | ⟨1, _⟩ => rfl
  have eb : idx_main_v1 (idx_main_v2 (ix3 b n e)) = ix1 e := funext fun a => by
    match a with | ⟨0, _⟩ => rfl
  simp only [el, er, eb, Ideal.addf_def, Ideal.maximumf_def, Ideal.ofBits_def]
  rfl

/-- The pairwise product of two nodes' projections at (b, i, j, k). -/
theorem joint_at (x0 : (⟨S16x160x1024, .f32⟩ : BufTy).Contents (Elt Ideal)) (x3 : (⟨S1024x128, .f32⟩ : BufTy).Contents (Elt Ideal))
    (x4 : (⟨S128, .f32⟩ : BufTy).Contents (Elt Ideal)) (b : Fin 16) (i j : Fin 160) (k : Fin 128) :
    val_main_v9 (F := Ideal) x0 x3 x4 (ix4 b i j k) = hproj x0 x3 x4 b i k * hproj x0 x3 x4 b j k := by
  rw [val_main_v9_apply, val_main_v7_apply, val_main_v5_apply, val_main_v8_apply, val_main_v6_apply]
  have e1 : idx_main_v5 (idx_main_v7 (ix4 b i j k)) = ix3 b i k := funext fun a => by
    match a with | ⟨0, _⟩ => rfl | ⟨1, _⟩ => rfl | ⟨2, _⟩ => rfl
  have e2 : idx_main_v6 (idx_main_v8 (ix4 b i j k)) = ix3 b j k := funext fun a => by
    match a with | ⟨0, _⟩ => rfl | ⟨1, _⟩ => rfl | ⟨2, _⟩ => rfl
  rw [e1, e2, h_at, h_at, Ideal.mulf_def]

/-- The joined features at a position among the first 128: the pairwise product. -/
theorem cat_left (x0 : (⟨S16x160x1024, .f32⟩ : BufTy).Contents (Elt Ideal)) (x2 : (⟨S16x160x160x8, .f32⟩ : BufTy).Contents (Elt Ideal))
    (x3 : (⟨S1024x128, .f32⟩ : BufTy).Contents (Elt Ideal)) (x4 : (⟨S128, .f32⟩ : BufTy).Contents (Elt Ideal))
    (b : Fin 16) (i j : Fin 160) (k : Fin 128) :
    val_main_v10 (F := Ideal) x0 x2 x3 x4 (ix4 b i j (⟨k.val, by omega⟩ : Fin 136))
      = hproj x0 x3 x4 b i k * hproj x0 x3 x4 b j k := by
  unfold val_main_v10
  refine (concatenate_pair_apply_left 3 _ x2 concatenates_S16x160x160x128_S16x160x160x8_S16x160x160x136_d3
    (ix4 b i j (⟨k.val, by omega⟩ : Fin 136)) rfl (ix4 b i j k) (fun a => ?_)).trans (joint_at x0 x3 x4 b i j k)
  match a with | ⟨0, _⟩ => rfl | ⟨1, _⟩ => rfl | ⟨2, _⟩ => rfl | ⟨3, _⟩ => rfl

/-- The joined features at a position among the last 8: the pair's spatial feature. -/
theorem cat_right (x0 : (⟨S16x160x1024, .f32⟩ : BufTy).Contents (Elt Ideal)) (x2 : (⟨S16x160x160x8, .f32⟩ : BufTy).Contents (Elt Ideal))
    (x3 : (⟨S1024x128, .f32⟩ : BufTy).Contents (Elt Ideal)) (x4 : (⟨S128, .f32⟩ : BufTy).Contents (Elt Ideal))
    (b : Fin 16) (i j : Fin 160) (k : Fin 8) :
    val_main_v10 (F := Ideal) x0 x2 x3 x4 (ix4 b i j (⟨128 + k.val, by omega⟩ : Fin 136)) = x2 (ix4 b i j k) := by
  unfold val_main_v10
  refine concatenate_pair_apply_right 3 _ x2 concatenates_S16x160x160x128_S16x160x160x8_S16x160x160x136_d3
    (ix4 b i j (⟨128 + k.val, by omega⟩ : Fin 136)) rfl rfl (ix4 b i j k) (fun a ha => ?_) ?_
  · match a with
    | ⟨0, _⟩ => rfl | ⟨1, _⟩ => rfl | ⟨2, _⟩ => rfl
    | ⟨3, _⟩ => exact absurd rfl ha
  · show k.val + 128 = 128 + k.val
    omega

/-- The reshape to 25600 rows reads the four-axis array at the pair the row stands for. -/
theorem idx_v11_row (b : Fin 16) (i j : Fin 160) (c : Fin 136) :
    idx_main_v11 (ix3 b (row i j) c) = ix4 b i j c := funext fun a => Fin.ext (by
  have hb := b.isLt; have hi := i.isLt; have hj := j.isLt; have hc := c.isLt
  match a with
  | ⟨0, _⟩ => show ((b.val * 25600 + (i.val * 160 + j.val)) * 136 + c.val) / 3481600 = b.val; omega
  | ⟨1, _⟩ => show ((b.val * 25600 + (i.val * 160 + j.val)) * 136 + c.val) / 21760 % 160 = i.val; omega
  | ⟨2, _⟩ => show ((b.val * 25600 + (i.val * 160 + j.val)) * 136 + c.val) / 136 % 160 = j.val; omega
  | ⟨3, _⟩ => show ((b.val * 25600 + (i.val * 160 + j.val)) * 136 + c.val) % 136 = c.val; omega)

/-- The linear layer before normalisation at the pair (i, j) of graph b, output o. -/
theorem lin_at (x0 : (⟨S16x160x1024, .f32⟩ : BufTy).Contents (Elt Ideal)) (x2 : (⟨S16x160x160x8, .f32⟩ : BufTy).Contents (Elt Ideal))
    (x3 : (⟨S1024x128, .f32⟩ : BufTy).Contents (Elt Ideal)) (x4 : (⟨S128, .f32⟩ : BufTy).Contents (Elt Ideal))
    (x7 : (⟨S136x128, .f32⟩ : BufTy).Contents (Elt Ideal)) (x8 : (⟨S128, .f32⟩ : BufTy).Contents (Elt Ideal))
    (b : Fin 16) (i j : Fin 160) (o : Fin 128) :
    val_main_v23 (F := Ideal) x0 x2 x3 x4 x7 x8 (ix3 b (row i j) o) = lin (hproj x0 x3 x4) x2 x7 x8 b i j o := by
  rw [val_main_v23_apply, val_main_v20_apply, val_main_v22_apply, val_main_v21_apply, Ideal.addf_def]
  have el : ∀ k : Fin 136, lidx_main_v20 (ix3 b (row i j) o) k = ix3 b (row i j) k := fun k => funext fun a => by
    match a with | ⟨0, _⟩ => rfl | ⟨1, _⟩ => rfl | ⟨2, _⟩ => rfl
  have er : ∀ k : Fin 136, ridx_main_v20 (ix3 b (row i j) o) k = ix2 k o := fun k => funext fun a => by
    match a with | ⟨0, _⟩ => rfl | ⟨1, _⟩ => rfl
  have eb : idx_main_v21 (idx_main_v22 (ix3 b (row i j) o)) = ix1 o := funext fun a => by
    match a with | ⟨0, _⟩ => rfl
  simp only [el, er, eb, val_main_v11_apply, idx_v11_row]
  rw [sum_split_136]
  simp only [cat_left, cat_right]
  rfl

/-- The scale of graph b at output o. -/
theorem gamma_at (x1 : (⟨S16x1024, .f32⟩ : BufTy).Contents (Elt Ideal)) (x5 : (⟨S1024x256, .f32⟩ : BufTy).Contents (Elt Ideal))
    (x6 : (⟨S256, .f32⟩ : BufTy).Contents (Elt Ideal)) (b : Fin 16) (r : Fin 25600) (o : Fin 128) :
    val_main_v43 (F := Ideal) x1 x5 x6 (ix3 b r o) = gamma x1 x5 x6 b o := by
  rw [val_main_v43_apply, val_main_v42_apply, val_main_v19_apply, val_main_v16_apply, val_main_v15_apply,
    val_main_v12_apply, val_main_v14_apply, val_main_v13_apply, val_main_v18_apply, val_main_cst_apply]
  have el : ∀ k : Fin 1024, lidx_main_v12 (idx_main_v16 (idx_main_v42 (idx_main_v43 (ix3 b r o)))) k = ix2 b k :=
    fun k => funext fun a => by match a with | ⟨0, _⟩ => rfl | ⟨1, _⟩ => rfl
  have er : ∀ k : Fin 1024, ridx_main_v12 (idx_main_v16 (idx_main_v42 (idx_main_v43 (ix3 b r o)))) k
      = ix2 k (⟨o.val, by omega⟩ : Fin 256) :=
    fun k => funext fun a => by match a with | ⟨0, _⟩ => rfl | ⟨1, _⟩ => rfl
  have eb : idx_main_v13 (idx_main_v14 (idx_main_v16 (idx_main_v42 (idx_main_v43 (ix3 b r o)))))
      = ix1 (⟨o.val, by omega⟩ : Fin 256) := funext fun a => by match a with | ⟨0, _⟩ => rfl
  simp only [el, er, eb, Ideal.addf_def, Ideal.ofBits_def]
  rfl

/-- The shift of graph b at output o. -/
theorem beta_at (x1 : (⟨S16x1024, .f32⟩ : BufTy).Contents (Elt Ideal)) (x5 : (⟨S1024x256, .f32⟩ : BufTy).Contents (Elt Ideal))
    (x6 : (⟨S256, .f32⟩ : BufTy).Contents (Elt Ideal)) (b : Fin 16) (r : Fin 25600) (o : Fin 128) :
    val_main_v46 (F := Ideal) x1 x5 x6 (ix3 b r o) = beta x1 x5 x6 b o := by
  rw [val_main_v46_apply, val_main_v45_apply, val_main_v17_apply, val_main_v15_apply,
    val_main_v12_apply, val_main_v14_apply, val_main_v13_apply]
  have el : ∀ k : Fin 1024, lidx_main_v12 (idx_main_v17 (idx_main_v45 (idx_main_v46 (ix3 b r o)))) k = ix2 b k :=
    fun k => funext fun a => by match a with | ⟨0, _⟩ => rfl | ⟨1, _⟩ => rfl
  have er : ∀ k : Fin 1024, ridx_main_v12 (idx_main_v17 (idx_main_v45 (idx_main_v46 (ix3 b r o)))) k
      = ix2 k (⟨128 + o.val, by omega⟩ : Fin 256) :=
    fun k => funext fun a => by match a with | ⟨0, _⟩ => rfl | ⟨1, _⟩ => rfl
  have eb : idx_main_v13 (idx_main_v14 (idx_main_v17 (idx_main_v45 (idx_main_v46 (ix3 b r o)))))
      = ix1 (⟨128 + o.val, by omega⟩ : Fin 256) := funext fun a => by match a with | ⟨0, _⟩ => rfl
  simp only [el, er, eb, Ideal.addf_def]
  rfl

/-- The mean over the 128 outputs of the pair (i, j) of graph b. -/
theorem mean_at (x0 : (⟨S16x160x1024, .f32⟩ : BufTy).Contents (Elt Ideal)) (x2 : (⟨S16x160x160x8, .f32⟩ : BufTy).Contents (Elt Ideal))
    (x3 : (⟨S1024x128, .f32⟩ : BufTy).Contents (Elt Ideal)) (x4 : (⟨S128, .f32⟩ : BufTy).Contents (Elt Ideal))
    (x7 : (⟨S136x128, .f32⟩ : BufTy).Contents (Elt Ideal)) (x8 : (⟨S128, .f32⟩ : BufTy).Contents (Elt Ideal))
    (b : Fin 16) (i j : Fin 160) (z : Fin 1) :
    val_main_v27 (F := Ideal) x0 x2 x3 x4 x7 x8 (ix3 b (row i j) z)
      = Ideal.div (∑ p : Fin 128, lin (hproj x0 x3 x4) x2 x7 x8 b i j p) c128 := by
  rw [val_main_v27_apply, val_main_v25_apply, val_main_v24_apply, val_main_v26_apply, val_main_cst_1_apply,
    val_main_cst_0_apply]
  have e : ∀ k : Fin 128, idx_main_v24 (idx_main_v25 (ix3 b (row i j) z)) k = ix3 b (row i j) k :=
    fun k => funext fun a => by match a with | ⟨0, _⟩ => rfl | ⟨1, _⟩ => rfl | ⟨2, _⟩ => rfl
  simp only [e, lin_at, Ideal.hostDivf_def, Ideal.ofBits_def, Ideal.ofBits_zero_f32, zero_add]

/-- The centred value at the pair (i, j) of graph b, output o (the program computes it twice, the same way). -/
theorem centred_at (x0 : (⟨S16x160x1024, .f32⟩ : BufTy).Contents (Elt Ideal)) (x2 : (⟨S16x160x160x8, .f32⟩ : BufTy).Contents (Elt Ideal))
    (x3 : (⟨S1024x128, .f32⟩ : BufTy).Contents (Elt Ideal)) (x4 : (⟨S128, .f32⟩ : BufTy).Contents (Elt Ideal))
    (x7 : (⟨S136x128, .f32⟩ : BufTy).Contents (Elt Ideal)) (x8 : (⟨S128, .f32⟩ : BufTy).Contents (Elt Ideal))
    (b : Fin 16) (i j : Fin 160) (o : Fin 128) :
    val_main_v29 (F := Ideal) x0 x2 x3 x4 x7 x8 (ix3 b (row i j) o)
      = lin (hproj x0 x3 x4) x2 x7 x8 b i j o
        - Ideal.div (∑ p : Fin 128, lin (hproj x0 x3 x4) x2 x7 x8 b i j p) c128 := by
  rw [val_main_v29_apply, val_main_v28_apply, lin_at, Ideal.subf_def]
  have e : idx_main_v28 (ix3 b (row i j) o) = ix3 b (row i j) (⟨0, Nat.one_pos⟩ : Fin 1) :=
    funext fun a => by match a with | ⟨0, _⟩ => rfl | ⟨1, _⟩ => rfl | ⟨2, _⟩ => rfl
  rw [e, mean_at]

/-- The same centred value, as the program computes it the second time (for the normalised output). -/
theorem centred_at' (x0 : (⟨S16x160x1024, .f32⟩ : BufTy).Contents (Elt Ideal)) (x2 : (⟨S16x160x160x8, .f32⟩ : BufTy).Contents (Elt Ideal))
    (x3 : (⟨S1024x128, .f32⟩ : BufTy).Contents (Elt Ideal)) (x4 : (⟨S128, .f32⟩ : BufTy).Contents (Elt Ideal))
    (x7 : (⟨S136x128, .f32⟩ : BufTy).Contents (Elt Ideal)) (x8 : (⟨S128, .f32⟩ : BufTy).Contents (Elt Ideal))
    (b : Fin 16) (i j : Fin 160) (o : Fin 128) :
    val_main_v36 (F := Ideal) x0 x2 x3 x4 x7 x8 (ix3 b (row i j) o)
      = lin (hproj x0 x3 x4) x2 x7 x8 b i j o
        - Ideal.div (∑ p : Fin 128, lin (hproj x0 x3 x4) x2 x7 x8 b i j p) c128 := by
  rw [val_main_v36_apply, val_main_v35_apply, lin_at, Ideal.subf_def]
  have e : idx_main_v35 (ix3 b (row i j) o) = ix3 b (row i j) (⟨0, Nat.one_pos⟩ : Fin 1) :=
    funext fun a => by match a with | ⟨0, _⟩ => rfl | ⟨1, _⟩ => rfl | ⟨2, _⟩ => rfl
  rw [e, mean_at]

/-- The reciprocal square root of the variance plus ε at the pair (i, j) of graph b. -/
theorem rstd_at (x0 : (⟨S16x160x1024, .f32⟩ : BufTy).Contents (Elt Ideal)) (x2 : (⟨S16x160x160x8, .f32⟩ : BufTy).Contents (Elt Ideal))
    (x3 : (⟨S1024x128, .f32⟩ : BufTy).Contents (Elt Ideal)) (x4 : (⟨S128, .f32⟩ : BufTy).Contents (Elt Ideal))
    (x7 : (⟨S136x128, .f32⟩ : BufTy).Contents (Elt Ideal)) (x8 : (⟨S128, .f32⟩ : BufTy).Contents (Elt Ideal))
    (b : Fin 16) (i j : Fin 160) (z : Fin 1) :
    val_main_v39 (F := Ideal) x0 x2 x3 x4 x7 x8 (ix3 b (row i j) z)
      = Ideal.rsqrt (Ideal.div (∑ p : Fin 128,
          (lin (hproj x0 x3 x4) x2 x7 x8 b i j p - Ideal.div (∑ q : Fin 128, lin (hproj x0 x3 x4) x2 x7 x8 b i j q) c128)
          * (lin (hproj x0 x3 x4) x2 x7 x8 b i j p - Ideal.div (∑ q : Fin 128, lin (hproj x0 x3 x4) x2 x7 x8 b i j q) c128)) c128
        + cEps) := by
  rw [val_main_v39_apply, val_main_v38_apply, val_main_v34_apply, val_main_v32_apply, val_main_v31_apply,
    val_main_v33_apply, val_main_cst_3_apply, val_main_v37_apply, val_main_cst_4_apply, val_main_cst_2_apply]
  have hsum : (∑ k : Fin 128, val_main_v30 (F := Ideal) x0 x2 x3 x4 x7 x8 (idx_main_v31 (idx_main_v32 (ix3 b (row i j) z)) k))
      = ∑ p : Fin 128, (lin (hproj x0 x3 x4) x2 x7 x8 b i j p - Ideal.div (∑ q : Fin 128, lin (hproj x0 x3 x4) x2 x7 x8 b i j q) c128) * (lin (hproj x0 x3 x4) x2 x7 x8 b i j p - Ideal.div (∑ q : Fin 128, lin (hproj x0 x3 x4) x2 x7 x8 b i j q) c128) :=
    Finset.sum_congr rfl fun k _ => by
      have e : idx_main_v31 (idx_main_v32 (ix3 b (row i j) z)) k = ix3 b (row i j) k :=
        funext fun a => by match a with | ⟨0, _⟩ => rfl | ⟨1, _⟩ => rfl | ⟨2, _⟩ => rfl
      rw [e, val_main_v30_apply, centred_at, Ideal.mulf_def]
  rw [hsum]
  simp only [Ideal.hostUnary_rsqrt_def, Ideal.addf_def, Ideal.hostDivf_def, Ideal.ofBits_def, Ideal.ofBits_zero_f32, zero_add]

/-- The whole layer at the pair (i, j) of graph b, output o, before the final reshape. -/
theorem out_at (x0 : (⟨S16x160x1024, .f32⟩ : BufTy).Contents (Elt Ideal)) (x1 : (⟨S16x1024, .f32⟩ : BufTy).Contents (Elt Ideal))
    (x2 : (⟨S16x160x160x8, .f32⟩ : BufTy).Contents (Elt Ideal)) (x3 : (⟨S1024x128, .f32⟩ : BufTy).Contents (Elt Ideal))
    (x4 : (⟨S128, .f32⟩ : BufTy).Contents (Elt Ideal)) (x5 : (⟨S1024x256, .f32⟩ : BufTy).Contents (Elt Ideal))
    (x6 : (⟨S256, .f32⟩ : BufTy).Contents (Elt Ideal)) (x7 : (⟨S136x128, .f32⟩ : BufTy).Contents (Elt Ideal))
    (x8 : (⟨S128, .f32⟩ : BufTy).Contents (Elt Ideal)) (b : Fin 16) (i j : Fin 160) (o : Fin 128) :
    val_main_v48 (F := Ideal) x0 x1 x2 x3 x4 x5 x6 x7 x8 (ix3 b (row i j) o)
      = out4 x0 x1 x2 x3 x4 x5 x6 x7 x8 b i j o := by
  rw [val_main_v48_apply, val_main_v47_apply, val_main_v44_apply, val_main_v41_apply, val_main_v40_apply,
    val_main_call1_v0_apply, val_main_call1_cst_apply, gamma_at, beta_at, centred_at']
  have e : idx_main_v40 (ix3 b (row i j) o) = ix3 b (row i j) (⟨0, Nat.one_pos⟩ : Fin 1) :=
    funext fun a => by match a with | ⟨0, _⟩ => rfl | ⟨1, _⟩ => rfl | ⟨2, _⟩ => rfl
  rw [e, rstd_at]
  simp only [Ideal.mulf_def, Ideal.addf_def, Ideal.maximumf_def, Ideal.ofBits_def]
  rfl

/-- The final reshape to 409600 rows reads row r at graph r / 25600, pair (r / 160 % 160, r % 160). -/
theorem idx_v49_row (r : Fin 409600) (o : Fin 128) :
    idx_main_v49 (ix2 r o)
      = ix3 (⟨r.val / 25600, by have := r.isLt; omega⟩ : Fin 16)
          (row ⟨r.val / 160 % 160, Nat.mod_lt _ (by decide)⟩ ⟨r.val % 160, Nat.mod_lt _ (by decide)⟩) o :=
  funext fun a => Fin.ext (by
    have h0 : r.val < 409600 := r.isLt
    have h1 : o.val < 128 := o.isLt
    match a with
    | ⟨0, _⟩ => show (r.val * 128 + o.val) / 3276800 = r.val / 25600; omega
    | ⟨1, _⟩ => show (r.val * 128 + o.val) / 128 % 25600 = r.val / 160 % 160 * 160 + r.val % 160; omega
    | ⟨2, _⟩ => show (r.val * 128 + o.val) % 128 = o.val; omega)

/-- The reference program's result is the specification function. -/
theorem ref_eq_G (x0 : (⟨S16x160x1024, .f32⟩ : BufTy).Contents (Elt Ideal)) (x1 : (⟨S16x1024, .f32⟩ : BufTy).Contents (Elt Ideal)) (x2 : (⟨S16x160x160x8, .f32⟩ : BufTy).Contents (Elt Ideal)) (x3 : (⟨S1024x128, .f32⟩ : BufTy).Contents (Elt Ideal)) (x4 : (⟨S128, .f32⟩ : BufTy).Contents (Elt Ideal)) (x5 : (⟨S1024x256, .f32⟩ : BufTy).Contents (Elt Ideal)) (x6 : (⟨S256, .f32⟩ : BufTy).Contents (Elt Ideal)) (x7 : (⟨S136x128, .f32⟩ : BufTy).Contents (Elt Ideal)) (x8 : (⟨S128, .f32⟩ : BufTy).Contents (Elt Ideal)) :
    val_main_v49 (F := Ideal) x0 x1 x2 x3 x4 x5 x6 x7 x8 = Cert.FilmSpec.G x0 x1 x2 x3 x4 x5 x6 x7 x8 := by
  funext idx
  obtain ⟨r, o, rfl⟩ : ∃ (r : Fin 409600) (o : Fin 128), idx = ix2 r o := ⟨idx 0, idx 1, eq_ix2 idx⟩
  rw [val_main_v49_apply, idx_v49_row, out_at]
  rfl

end Cert.ReferenceIdeal.RefValue

end
-- ==== Proof.lean ====
/-
  The pairwise FiLM edge layer of a graph network: the kernel (two pallas_calls: a node projection with ReLU, then per
  pair of nodes a linear layer on the product of the two projections and 8 spatial features, layer normalisation, a
  per-graph scale and shift, ReLU) against the plain jnp reference, over the extended reals.

  Both programs compute the function `G` of the nine argument arrays (Proof/Spec.lean). They differ in arrangement only:
  the kernel splits the 136-row FiLM weight into its first 128 and last 8 rows and adds the two products, where the
  reference multiplies the concatenation of the pairwise product and the spatial features by the whole weight — a sum over
  136 indices split as 128 + 8, valid on the extended reals because their addition is a commutative monoid; the kernel
  tiles the work over graphs and blocks of 40 first nodes, whose blocks tile the output. No law used needs finiteness, so
  the precondition is never opened.

  The three frames: the reference is a host program whose run is read back operation by operation; the kernel (at the
  word level and at the ideal instance, the same text) runs as four segments — region, host operations, region, reshape —
  over the launch theorem for several regions, each region's body run once symbolically on its staging buffers.
  The idealization rewrote nothing, so `preserves` is trivial.
-/
import proofs.«179063_j79517024518197_1_alg».proof.Defs
import proofs.«179063_j79517024518197_1_alg».proof.Proof.Gen.Kernel
import proofs.«179063_j79517024518197_1_alg».proof.Proof.Gen.KernelIdeal
import proofs.«179063_j79517024518197_1_alg».proof.Proof.Gen.ReferenceIdeal
import proofs.«179063_j79517024518197_1_alg».proof.Proof.Gen.Pre_finite_inputs
import proofs.«179063_j79517024518197_1_alg».proof.Proof.Gen.ReferenceIdeal.Run
import proofs.«179063_j79517024518197_1_alg».proof.Proof.Gen.ReferenceIdeal.Read
import proofs.«179063_j79517024518197_1_alg».proof.Proof.KB.Run
import proofs.«179063_j79517024518197_1_alg».proof.Proof.KI.Run
import proofs.«179063_j79517024518197_1_alg».proof.Proof.KI.ValHost
import proofs.«179063_j79517024518197_1_alg».proof.Proof.RefSide
import Idealize.ShloMosaic.Adequacy
import Idealize.ShloMosaic.Init

noncomputable section

namespace Cert.Proof

open Idealize.ShloMosaic Idealize.ShloMosaic.TcCoe Idealize.SL.Sem

/-- The word-level kernel terminates without fault and leaves its arguments as launched. -/
theorem frame_kernel : Cert.frame_Kernel := fun m ρ _ => Cert.Kernel.Hand.frame m ρ
/-- So does its reading at the ideal instance. -/
theorem frame_kernelIdeal : Cert.frame_KernelIdeal := fun m ρ _ => Cert.KernelIdeal.Hand.frame m ρ
/-- The reference is a host program: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the nine arguments, both programs end with their result buffer at `G` of those arguments. -/
theorem algebraic : Cert.algebraic_KernelIdeal_ReferenceIdeal := by
  intro m ρ m' ρ' _ hagree
  refine ⟨fun c => Cert.FilmSpec.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · exact (θ_run Cert.KernelIdeal.defs _ _).mono (fun r h c =>
      ⟨(h c Cert.KernelIdeal.main_v14 (by decide)).trans (Cert.KernelIdeal.HandValue.kernel_value m ρ c),
       (h c Cert.KernelIdeal.main_arg0 (by decide)).trans (Cert.KernelIdeal.Hand.W4_main_arg0 m ρ c),
       (h c Cert.KernelIdeal.main_arg1 (by decide)).trans (Cert.KernelIdeal.Hand.W4_main_arg1 m ρ c),
       (h c Cert.KernelIdeal.main_arg2 (by decide)).trans (Cert.KernelIdeal.Hand.W4_main_arg2 m ρ c),
       (h c Cert.KernelIdeal.main_arg3 (by decide)).trans (Cert.KernelIdeal.Hand.W4_main_arg3 m ρ c),
       (h c Cert.KernelIdeal.main_arg4 (by decide)).trans (Cert.KernelIdeal.Hand.W4_main_arg4 m ρ c),
       (h c Cert.KernelIdeal.main_arg5 (by decide)).trans (Cert.KernelIdeal.Hand.W4_main_arg5 m ρ c),
       (h c Cert.KernelIdeal.main_arg6 (by decide)).trans (Cert.KernelIdeal.Hand.W4_main_arg6 m ρ c),
       (h c Cert.KernelIdeal.main_arg7 (by decide)).trans (Cert.KernelIdeal.Hand.W4_main_arg7 m ρ c),
       (h c Cert.KernelIdeal.main_arg8 (by decide)).trans (Cert.KernelIdeal.Hand.W4_main_arg8 m ρ c)⟩)
      (Cert.KernelIdeal.Hand.run_all (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v49_eq, Cert.ReferenceIdeal.RefValue.ref_eq_G,
      (hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
